-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x44 : Shape := ⟨2, ![100000, 44]⟩
abbrev S128x4 : Shape := ⟨2, ![128, 4]⟩
abbrev S1600000 : Shape := ⟨1, ![1600000]⟩
abbrev S100000 : Shape := ⟨1, ![100000]⟩
abbrev S44x128 : Shape := ⟨2, ![44, 128]⟩
abbrev S128 : Shape := ⟨1, ![128]⟩
abbrev S128x128 : Shape := ⟨2, ![128, 128]⟩
abbrev S132x512 : Shape := ⟨2, ![132, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S100000x44 : S_.BroadcastsInDim S100000x44 (![] : Fin 0 → Fin S100000x44.rank)
  reducesTo_S100000x44_S_d0_1 : S100000x44.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S44x128 : S_.BroadcastsInDim S44x128 (![] : Fin 0 → Fin S44x128.rank)
  reducesTo_S44x128_S_d0_1 : S44x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S132x512 : S_.BroadcastsInDim S132x512 (![] : Fin 0 → Fin S132x512.rank)
  reducesTo_S132x512_S_d0_1 : S132x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S512 .f32) (main_arg15 : FVec F S512x1 .f32) (main_arg16 : FVec F S1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1 .f32 := Host.absf main_arg15
  let main_cst_22 : FVec F S_ .f32 := constant S_ .f32 0x7F800000#32
  let main_v60 : FVec F S512x1 .f32 := broadcastInDim S512x1 ![] bcast_S_S512x1 main_cst_22
  let main_v61 : IVec S512x1 1 := cmpf .olt main_v59 main_v60
  let main_c_23 : IVec S_ 1 := constantI S_ 1 1#1
  let main_v62 : IVec S_ 1 := (fun x v => Host.reduce IntOp.andi x v reducesTo_S512x1_S_d0_1 h_S_) main_v61 main_c_23
  let main_v63 : IVec S_ 1 := andi main_v58 main_v62
  let main_v64 : FVec F S1 .f32 := Host.absf main_arg16
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg10 : FVec F S128 .f32) (main_arg11 : FVec F S132x512 .f32) (main_arg12 : FVec F S512 .f32) (main_arg13 : FVec F S512x512 .f32) (main_arg14 : FVec F S512 .f32) (main_arg15 : FVec F S512x1 .f32) (main_arg16 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S132x512 .f32 := Host.absf main_arg11
  let main_cst_14 : FVec F S_ .f32 := constant S_ .f32 0x7F800000#32
  let main_v40 : FVec F S132x512 .f32 := broadcastInDim S132x512 ![] bcast_S_S132x512 main_cst_14
  let main_v41 : IVec S132x512 1 := cmpf .olt main_v39 main_v40
  let main_c_15 : IVec S_ 1 := constantI S_ 1 1#1
  let main_v42 : IVec S_ 1 := (fun x v => Host.reduce IntOp.andi x v reducesTo_S132x512_S_d0_1 h_S_) main_v41 main_c_15
  let main_v43 : IVec S_ 1 := andi main_v38 main_v42
  let main_v44 : FVec F S512 .f32 := Host.absf main_arg12
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg13
  let main_cst_18 : FVec F S_ .f32 := constant S_ .f32 0x7F800000#32
  let main_v50 : FVec F S512x512 .f32 := broadcastInDim S512x512 ![] bcast_S_S512x512 main_cst_18
  fn_part3 (F := F) main_arg14 main_arg15 main_arg16 main_v48 main_v49 main_v50

def fn_part1 {F : FTy → Type} [FloatOps F] (main_arg7 : FVec F S128 .f32) (main_arg8 : FVec F S128x128 .f32) (main_arg9 : FVec F S128x128 .f32) (main_arg10 : FVec F S128 .f32) (main_arg11 : FVec F S132x512 .f32) (main_arg12 : FVec F S512 .f32) (main_arg13 : FVec F S512x512 .f32) (main_arg14 : FVec F S512 .f32) (main_arg15 : FVec F S512x1 .f32) (main_arg16 : FVec F S1 .f32) (main_v13 : IVec S_ 1) (main_v16 : IVec S44x128 1) : IVec S_ 1 :=
  let main_c_5 : IVec S_ 1 := constantI S_ 1 1#1
  let main_v17 : IVec S_ 1 := (fun x v => Host.reduce IntOp.andi x v reducesTo_S44x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S100000x44 .f32) (main_arg1 : FVec F S128x4 .f32) (main_arg2 : IVec S1600000 32) (main_arg3 : IVec S1600000 32) (main_arg4 : IVec S100000 32) (main_arg5 : FVec F S44x128 .f32) (main_arg6 : FVec F S44x128 .f32) (main_arg7 : FVec F S128 .f32) (main_arg8 : FVec F S128x128 .f32) (main_arg9 : FVec F S128x128 .f32) (main_arg10 : FVec F S128 .f32) (main_arg11 : FVec F S132x512 .f32) (main_arg12 : FVec F S512 .f32) (main_arg13 : FVec F S512x512 .f32) (main_arg14 : FVec F S512 .f32) (main_arg15 : FVec F S512x1 .f32) (main_arg16 : FVec F S1 .f32) : IVec S_ 1 :=
  let main_v0 : FVec F S100000x44 .f32 := Host.absf main_arg0
  let main_cst : FVec F S_ .f32 := constant S_ .f32 0x7F800000#32
  let main_v1 : FVec F S100000x44 .f32 := broadcastInDim S100000x44 ![] bcast_S_S100000x44 main_cst
  let main_v2 : IVec S100000x44 1 := cmpf .olt main_v0 main_v1
  let main_c : IVec S_ 1 := constantI S_ 1 1#1
  let main_v3 : IVec S_ 1 := (fun x v => Host.reduce IntOp.andi x v reducesTo_S100000x44_S_d0_1 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S44x128 .f32 := Host.absf main_arg5
  let main_cst_2 : FVec F S_ .f32 := constant S_ .f32 0x7F800000#32
  let main_v10 : FVec F S44x128 .f32 := broadcastInDim S44x128 ![] bcast_S_S44x128 main_cst_2
  let main_v11 : IVec S44x128 1 := cmpf .olt main_v9 main_v10
  let main_c_3 : IVec S_ 1 := constantI S_ 1 1#1
  let main_v12 : IVec S_ 1 := (fun x v => Host.reduce IntOp.andi x v reducesTo_S44x128_S_d0_1 h_S_) main_v11 main_c_3
  let main_v13 : IVec S_ 1 := andi main_v8 main_v12
  let main_v14 : FVec F S44x128 .f32 := Host.absf main_arg6
  let main_cst_4 : FVec F S_ .f32 := constant S_ .f32 0x7F800000#32
  let main_v15 : FVec F S44x128 .f32 := broadcastInDim S44x128 ![] bcast_S_S44x128 main_cst_4
  let main_v16 : IVec S44x128 1 := cmpf .olt main_v14 main_v15
  fn_part1 (F := F) main_arg7 main_arg8 main_arg9 main_arg10 main_arg11 main_arg12 main_arg13 main_arg14 main_arg15 main_arg16 main_v13 main_v16
-- ==== Kernel.lean ====
abbrev S100000x44 : Shape := ⟨2, ![100000, 44]⟩
abbrev S128x4 : Shape := ⟨2, ![128, 4]⟩
abbrev S1600000 : Shape := ⟨1, ![1600000]⟩
abbrev S100000 : Shape := ⟨1, ![100000]⟩
abbrev S44x128 : Shape := ⟨2, ![44, 128]⟩
abbrev S128 : Shape := ⟨1, ![128]⟩
abbrev S128x128 : Shape := ⟨2, ![128, 128]⟩
abbrev S132x512 : Shape := ⟨2, ![132, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x44 : Shape := ⟨2, ![1600000, 44]⟩
abbrev S1x128 : Shape := ⟨2, ![1, 128]⟩
abbrev S100000x128 : Shape := ⟨2, ![100000, 128]⟩
abbrev S5000x44 : Shape := ⟨2, ![5000, 44]⟩
abbrev S5000x1 : Shape := ⟨2, ![5000, 1]⟩
abbrev S5000x128 : Shape := ⟨2, ![5000, 128]⟩
abbrev S1600000x128 : Shape := ⟨2, ![1600000, 128]⟩
abbrev S128x132 : Shape := ⟨2, ![128, 132]⟩
abbrev S1x512 : Shape := ⟨2, ![1, 512]⟩
abbrev S1x1 : Shape := ⟨2, ![1, 1]⟩
abbrev S128x1 : Shape := ⟨2, ![128, 1]⟩
abbrev S128x512 : Shape := ⟨2, ![128, 512]⟩

abbrev nBuf : Space → Nat
  | .hbm => 69
  | .vmem => 31
  | .smem => 0
  | _ => 0

abbrev bufTy : (tb : Table) → Fin (tcTables nBuf tb) → BufTy
  | .hbm, ⟨0, _⟩ => ⟨S100000x44, .f32⟩
  | .hbm, ⟨1, _⟩ => ⟨S128x4, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S44x128, .f32⟩
  | .hbm, ⟨6, _⟩ => ⟨S44x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S132x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1, .f32⟩
  | .hbm, ⟨16, _⟩ => ⟨S1, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x44, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x44, .bf16⟩
  | .hbm, ⟨40, _⟩ => ⟨S1600000x44, .f32⟩
  | .hbm, ⟨41, _⟩ => ⟨S_, .f32⟩
  | .hbm, ⟨42, _⟩ => ⟨S100000x44, .f32⟩
  | .hbm, ⟨43, _⟩ => ⟨S1600000x1, .i32⟩
  | .hbm, ⟨44, _⟩ => ⟨S100000x44, .f32⟩
  | .hbm, ⟨45, _⟩ => ⟨S1x128, .f32⟩
  | .hbm, ⟨46, _⟩ => ⟨S100000x128, .bf16⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .bf16⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x1, .i32⟩
  | .hbm, ⟨63, _⟩ => ⟨S128x128, .f32⟩
  | .hbm, ⟨64, _⟩ => ⟨S128x132, .f32⟩
  | .hbm, ⟨65, _⟩ => ⟨S1x512, .f32⟩
  | .hbm, ⟨66, _⟩ => ⟨S1x512, .f32⟩
  | .hbm, ⟨67, _⟩ => ⟨S1x1, .f32⟩
  | .hbm, ⟨68, _⟩ => ⟨S128x1, .f32⟩
  | .local _ .vmem, ⟨0, _⟩ => ⟨S5000x44, .f32⟩
  | .local _ .vmem, ⟨1, _⟩ => ⟨S5000x44, .f32⟩
  | .local _ .vmem, ⟨2, _⟩ => ⟨S5000x44, .f32⟩
  | .local _ .vmem, ⟨3, _⟩ => ⟨S5000x44, .f32⟩
  | .local _ .vmem, ⟨4, _⟩ => ⟨S5000x1, .f32⟩
  | .local _ .vmem, ⟨5, _⟩ => ⟨S5000x1, .f32⟩
  | .local _ .vmem, ⟨6, _⟩ => ⟨S44x128, .f32⟩
  | .local _ .vmem, ⟨7, _⟩ => ⟨S44x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x1, .i32⟩
  | .local _ .vmem, ⟨18, _⟩ => ⟨S5000x1, .i32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S128x132, .f32⟩
  | .local _ .vmem, ⟨24, _⟩ => ⟨S132x512, .f32⟩
  | .local _ .vmem, ⟨25, _⟩ => ⟨S1x512, .f32⟩
  | .local _ .vmem, ⟨26, _⟩ => ⟨S512x512, .f32⟩
  | .local _ .vmem, ⟨27, _⟩ => ⟨S1x512, .f32⟩
  | .local _ .vmem, ⟨28, _⟩ => ⟨S512x1, .f32⟩
  | .local _ .vmem, ⟨29, _⟩ => ⟨S1x1, .f32⟩
  | .local _ .vmem, ⟨30, _⟩ => ⟨S128x1, .f32⟩
  | _, _ => ⟨S100000x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc2_sem0_0 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x44 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x44 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S44x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S44x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x132 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S132x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x44 : S_.BroadcastsInDim S100000x44 (![] : Fin 0 → Fin S100000x44.rank)
  shapeCasts_S128_S1x128 : S128.ShapeCasts S1x128
  inb_S5000x44_S5000x44_0_0 : ∀ a, (![0, 0] : Fin 2 → Nat) a + S5000x44.size a ≤ S5000x44.size a
  h_S5000x44 : 0 < S5000x44.numel
  shapeCasts_S5000x44_S5000x44 : S5000x44.ShapeCasts S5000x44
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x44 : S5000x1.Broadcasts S5000x44
  inb_S44x128_S44x128_0_0 : ∀ a, (![0, 0] : Fin 2 → Nat) a + S44x128.size a ≤ S44x128.size a
  h_S44x128 : 0 < S44x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S100000_S100000x1 : S100000.ShapeCasts S100000x1
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  broadcasts_S5000x1_S5000x128 : S5000x1.Broadcasts S5000x128
  iota_S5000x128_d1_w32 : S5000x128.Iotas .tc 32 [1]
  natLt_1_32 : 1 < 32
  shapeCasts_S128x128_S128x128 : S128x128.ShapeCasts S128x128
  concatenates_S128x128_S128x4_S128x132_d1 : Shape.Concatenates [S128x128, S128x4] S128x132 1
  shapeCasts_S512_S1x512 : S512.ShapeCasts S1x512
  shapeCasts_S1_S1x1 : S1.ShapeCasts S1x1
  inb_S128x132_S128x132_0_0 : ∀ a, (![0, 0] : Fin 2 → Nat) a + S128x132.size a ≤ S128x132.size a
  h_S128x132 : 0 < S128x132.numel
  shapeCasts_S128x132_S128x132 : S128x132.ShapeCasts S128x132
  inb_S132x512_S132x512_0_0 : ∀ a, (![0, 0] : Fin 2 → Nat) a + S132x512.size a ≤ S132x512.size a
  h_S132x512 : 0 < S132x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  scatter_S100000_S1600000x1_S1600000_n_0_0_1_wf : ScatterDims.WF S100000 S1600000x1 S1600000 [] [0] [0] 1
  gather_S100000x44_S1600000x1_S1600000x44_1_0_n_n_0_1_144_wf : GatherDims.WF S100000x44 S1600000x1 S1600000x44 [1] [0] [] [0] [] 1 ![1, 44]
  scatter_S100000x44_S1600000x1_S1600000x44_1_0_0_1_wf : ScatterDims.WF S100000x44 S1600000x1 S1600000x44 [1] [0] [0] 1
  dot_S5000x44_S44x128_S5000x128_1_0_0_1_n_n_wf : DotDims.WF S5000x44 S44x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x132_S132x512_S128x512_1_0_0_1_n_n_wf : DotDims.WF S128x132 S132x512 S128x512 [1] [0] [0] [1] [] []
  dot_S128x512_S512x512_S128x512_1_0_0_1_n_n_wf : DotDims.WF S128x512 S512x512 S128x512 [1] [0] [0] [1] [] []
  dot_S128x512_S512x1_S128x1_1_0_0_1_n_n_wf : DotDims.WF S128x512 S512x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x44.size a ≤ S100000x44.size a
  hwx0_0 : ∀ i : grid0.Coords, EltTy.bits .f32 = 32 ∨ (Rect.block (s := S100000x44) S5000x44.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x44.size a ≤ S100000x44.size a
  hwx0_1 : ∀ i : grid0.Coords, EltTy.bits .f32 = 32 ∨ (Rect.block (s := S100000x44) S5000x44.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S44x128.size a ≤ S44x128.size a
  hwx0_3 : ∀ i : grid0.Coords, EltTy.bits .f32 = 32 ∨ (Rect.block (s := S44x128) S44x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S44x128.size a ≤ S44x128.size a
  hwx0_4 : ∀ i : grid0.Coords, EltTy.bits .f32 = 32 ∨ (Rect.block (s := S44x128) S44x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .i32 = 32 ∨ (Rect.block (s := S100000x1) S5000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x132.size a ≤ S128x132.size a
  hwx2_0 : ∀ i : grid2.Coords, EltTy.bits .f32 = 32 ∨ (Rect.block (s := S128x132) S128x132.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S132x512.size a ≤ S132x512.size a
  hwx2_1 : ∀ i : grid2.Coords, EltTy.bits .f32 = 32 ∨ (Rect.block (s := S132x512) S132x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x44_S1600000x1_S1600000x44_1_0_n_n_0_1_144 : GatherDims S100000x44 S1600000x1 S1600000x44 where
  offsetDims := [1]
  collapsedSliceDims := [0]
  operandBatchingDims := []
  startIndicesBatchingDims := []
  startIndexMap := [0]
  indexVectorDim := 1
  sliceSizes := ![1, 44]
  wf := gather_S100000x44_S1600000x1_S1600000x44_1_0_n_n_0_1_144_wf
def scatter_S100000x44_S1600000x1_S1600000x44_1_0_0_1 : ScatterDims S100000x44 S1600000x1 S1600000x44 where
  updateWindowDims := [1]
  insertedWindowDims := [0]
  scatterDimsToOperandDims := [0]
  indexVectorDim := 1
  wf := scatter_S100000x44_S1600000x1_S1600000x44_1_0_0_1_wf
def dot_S5000x44_S44x128_S5000x128_1_0_0_1_n_n : DotDims S5000x44 S44x128 S5000x128 where
  lhsContracting := [1]
  rhsContracting := [0]
  lhsNonContracting := [0]
  rhsNonContracting := [1]
  lhsBatch := []
  rhsBatch := []
  wf := dot_S5000x44_S44x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x132_S132x512_S128x512_1_0_0_1_n_n : DotDims S128x132 S132x512 S128x512 where
  lhsContracting := [1]
  rhsContracting := [0]
  lhsNonContracting := [0]
  rhsNonContracting := [1]
  lhsBatch := []
  rhsBatch := []
  wf := dot_S128x132_S132x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

abbrev win0_0 : Pipeline.Window sig grid0 :=
  Pipeline.Window.ofSpec (Memref.whole main_arg0) S5000x44.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x44.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S44x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S44x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S128x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S128x132.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S132x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S512x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S128x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x44 : Shape := ⟨2, ![100000, 44]⟩
abbrev S128x4 : Shape := ⟨2, ![128, 4]⟩
abbrev S1600000 : Shape := ⟨1, ![1600000]⟩
abbrev S100000 : Shape := ⟨1, ![100000]⟩
abbrev S44x128 : Shape := ⟨2, ![44, 128]⟩
abbrev S128 : Shape := ⟨1, ![128]⟩
abbrev S128x128 : Shape := ⟨2, ![128, 128]⟩
abbrev S132x512 : Shape := ⟨2, ![132, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x44 : Shape := ⟨2, ![1600000, 44]⟩
abbrev S100000x128 : Shape := ⟨2, ![100000, 128]⟩
abbrev S1x128 : Shape := ⟨2, ![1, 128]⟩
abbrev S1600000x128 : Shape := ⟨2, ![1600000, 128]⟩
abbrev S128x132 : Shape := ⟨2, ![128, 132]⟩
abbrev S128x512 : Shape := ⟨2, ![128, 512]⟩
abbrev S1x512 : Shape := ⟨2, ![1, 512]⟩
abbrev S128x1 : Shape := ⟨2, ![128, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x44, .f32⟩
  | .hbm, ⟨1, _⟩ => ⟨S128x4, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S44x128, .f32⟩
  | .hbm, ⟨6, _⟩ => ⟨S44x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S132x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1, .f32⟩
  | .hbm, ⟨16, _⟩ => ⟨S1, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x44, .f32⟩
  | .hbm, ⟨39, _⟩ => ⟨S_, .f32⟩
  | .hbm, ⟨40, _⟩ => ⟨S100000x44, .f32⟩
  | .hbm, ⟨41, _⟩ => ⟨S1600000x1, .i32⟩
  | .hbm, ⟨42, _⟩ => ⟨S100000x44, .f32⟩
  | .hbm, ⟨43, _⟩ => ⟨S100000x44, .f32⟩
  | .hbm, ⟨44, _⟩ => ⟨S100000x44, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S128x128, .f32⟩
  | .hbm, ⟨80, _⟩ => ⟨S100000x1, .i32⟩
  | .hbm, ⟨81, _⟩ => ⟨S128x128, .f32⟩
  | .hbm, ⟨82, _⟩ => ⟨S128x132, .f32⟩
  | .hbm, ⟨83, _⟩ => ⟨S128x512, .f32⟩
  | .hbm, ⟨84, _⟩ => ⟨S1x512, .f32⟩
  | .hbm, ⟨85, _⟩ => ⟨S128x512, .f32⟩
  | .hbm, ⟨86, _⟩ => ⟨S128x512, .f32⟩
  | .hbm, ⟨87, _⟩ => ⟨S_, .f32⟩
  | .hbm, ⟨88, _⟩ => ⟨S128x512, .f32⟩
  | .hbm, ⟨89, _⟩ => ⟨S128x512, .f32⟩
  | .hbm, ⟨90, _⟩ => ⟨S128x512, .f32⟩
  | .hbm, ⟨91, _⟩ => ⟨S1x512, .f32⟩
  | .hbm, ⟨92, _⟩ => ⟨S128x512, .f32⟩
  | .hbm, ⟨93, _⟩ => ⟨S128x512, .f32⟩
  | .hbm, ⟨94, _⟩ => ⟨S_, .f32⟩
  | .hbm, ⟨95, _⟩ => ⟨S128x512, .f32⟩
  | .hbm, ⟨96, _⟩ => ⟨S128x512, .f32⟩
  | .hbm, ⟨97, _⟩ => ⟨S128x1, .f32⟩
  | .hbm, ⟨98, _⟩ => ⟨S1x1, .f32⟩
  | .hbm, ⟨99, _⟩ => ⟨S128x1, .f32⟩
  | .hbm, ⟨100, _⟩ => ⟨S128x1, .f32⟩
  | .hbm, ⟨101, _⟩ => ⟨S128x1, .f32⟩
  | .hbm, ⟨102, _⟩ => ⟨S_, .f32⟩
  | .hbm, ⟨103, _⟩ => ⟨S128x1, .f32⟩
  | .hbm, ⟨104, _⟩ => ⟨S128x1, .f32⟩
  | .hbm, ⟨105, _⟩ => ⟨S128x1, .f32⟩
  | .hbm, ⟨106, _⟩ => ⟨S128x1, .f32⟩
  | .hbm, ⟨107, _⟩ => ⟨S128x1, .i1⟩
  | .hbm, ⟨108, _⟩ => ⟨S128x1, .f32⟩
  | .hbm, ⟨109, _⟩ => ⟨S128x1, .f32⟩
  | .hbm, ⟨110, _⟩ => ⟨S128x1, .f32⟩
  | .hbm, ⟨111, _⟩ => ⟨S128x1, .f32⟩
  | .hbm, ⟨112, _⟩ => ⟨S128x1, .f32⟩
  | .hbm, ⟨113, _⟩ => ⟨S128x1, .f32⟩
  | .hbm, ⟨114, _⟩ => ⟨S128x1, .f32⟩
  | .hbm, ⟨115, _⟩ => ⟨S128x1, .f32⟩
  | .hbm, ⟨116, _⟩ => ⟨S128x1, .f32⟩
  | .hbm, ⟨117, _⟩ => ⟨S128x1, .f32⟩
  | _, _ => ⟨S100000x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call0_cst : Ref sig .tc := ⟨.hbm, 51, rfl⟩
abbrev main_call0_v0 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call1_cst : Ref sig .tc := ⟨.hbm, 75, rfl⟩
abbrev main_call1_v0 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_cst : Ref sig .tc := ⟨.hbm, 87, rfl⟩
abbrev main_call2_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call3_cst : Ref sig .tc := ⟨.hbm, 94, rfl⟩
abbrev main_call3_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call4_v0 : Ref sig .tc := ⟨.hbm, 101, rfl⟩
abbrev main_call4_call0_cst : Ref sig .tc := ⟨.hbm, 102, rfl⟩
abbrev main_call4_call0_v0 : Ref sig .tc := ⟨.hbm, 103, rfl⟩
abbrev main_call4_call0_v1 : Ref sig .tc := ⟨.hbm, 104, rfl⟩
abbrev main_call4_call0_v2 : Ref sig .tc := ⟨.hbm, 105, rfl⟩
abbrev main_call4_call0_v3 : Ref sig .tc := ⟨.hbm, 106, rfl⟩
abbrev main_call4_call0_v4 : Ref sig .tc := ⟨.hbm, 107, rfl⟩
abbrev main_call4_call0_v5 : Ref sig .tc := ⟨.hbm, 108, rfl⟩
abbrev main_call4_call0_v6 : Ref sig .tc := ⟨.hbm, 109, rfl⟩
abbrev main_call4_call0_v7 : Ref sig .tc := ⟨.hbm, 110, rfl⟩
abbrev main_call4_call0_v8 : Ref sig .tc := ⟨.hbm, 111, rfl⟩
abbrev main_call4_call0_v9 : Ref sig .tc := ⟨.hbm, 112, rfl⟩
abbrev main_call4_call0_v10 : Ref sig .tc := ⟨.hbm, 113, rfl⟩
abbrev main_call4_call0_v11 : Ref sig .tc := ⟨.hbm, 114, rfl⟩
abbrev main_call4_v1 : Ref sig .tc := ⟨.hbm, 115, rfl⟩
abbrev main_v65 : Ref sig .tc := ⟨.hbm, 116, rfl⟩
abbrev main_v66 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x44 : S_.BroadcastsInDim S100000x44 (![] : Fin 0 → Fin S100000x44.rank)
  bcast_S100000x1_S100000x44_0_1 : S100000x1.BroadcastsInDim S100000x44 (![0, 1] : Fin 2 → Fin S100000x44.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S128x128 : S_.BroadcastsInDim S128x128 (![] : Fin 0 → Fin S128x128.rank)
  concatenates_S128x128_S128x4_S128x132_d1 : Shape.Concatenates [S128x128, S128x4] S128x132 1
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  scatter_S100000_S1600000x1_S1600000_n_0_0_1_wf : ScatterDims.WF S100000 S1600000x1 S1600000 [] [0] [0] 1
  gather_S100000x44_S1600000x1_S1600000x44_1_0_n_n_0_1_144_wf : GatherDims.WF S100000x44 S1600000x1 S1600000x44 [1] [0] [] [0] [] 1 ![1, 44]
  scatter_S100000x44_S1600000x1_S1600000x44_1_0_0_1_wf : ScatterDims.WF S100000x44 S1600000x1 S1600000x44 [1] [0] [0] 1
  dot_S100000x44_S44x128_S100000x128_1_0_0_1_n_n_wf : DotDims.WF S100000x44 S44x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  dot_S128x132_S132x512_S128x512_1_0_0_1_n_n_wf : DotDims.WF S128x132 S132x512 S128x512 [1] [0] [0] [1] [] []
  dot_S128x512_S512x512_S128x512_1_0_0_1_n_n_wf : DotDims.WF S128x512 S512x512 S128x512 [1] [0] [0] [1] [] []
  dot_S128x512_S512x1_S128x1_1_0_0_1_n_n_wf : DotDims.WF S128x512 S512x1 S128x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x44_S1600000x1_S1600000x44_1_0_n_n_0_1_144 : GatherDims S100000x44 S1600000x1 S1600000x44 where
  offsetDims := [1]
  collapsedSliceDims := [0]
  operandBatchingDims := []
  startIndicesBatchingDims := []
  startIndexMap := [0]
  indexVectorDim := 1
  sliceSizes := ![1, 44]
  wf := gather_S100000x44_S1600000x1_S1600000x44_1_0_n_n_0_1_144_wf
def scatter_S100000x44_S1600000x1_S1600000x44_1_0_0_1 : ScatterDims S100000x44 S1600000x1 S1600000x44 where
  updateWindowDims := [1]
  insertedWindowDims := [0]
  scatterDimsToOperandDims := [0]
  indexVectorDim := 1
  wf := scatter_S100000x44_S1600000x1_S1600000x44_1_0_0_1_wf
def dot_S100000x44_S44x128_S100000x128_1_0_0_1_n_n : DotDims S100000x44 S44x128 S100000x128 where
  lhsContracting := [1]
  rhsContracting := [0]
  lhsNonContracting := [0]
  rhsNonContracting := [1]
  lhsBatch := []
  rhsBatch := []
  wf := dot_S100000x44_S44x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x132_S132x512_S128x512_1_0_0_1_n_n : DotDims S128x132 S132x512 S128x512 where
  lhsContracting := [1]
  rhsContracting := [0]
  lhsNonContracting := [0]
  rhsNonContracting := [1]
  lhsBatch := []
  rhsBatch := []
  wf := dot_S128x132_S132x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

class Facts : Prop extends Facts₀ where

variable [Facts]
-- ==== Proof.Spec.lean ====
/-
  The mathematics both programs compute, stated index by index over the extended reals.

  A graph layer: row `r`, feature `f` of the layer's output is `max (h[r,:]·Ws[:,f] + (agg[r,:] * inv[r])·Wn[:,f] + b[f]) 0`,
  the neighbour sum `agg` scaled by the reciprocal degree `inv` of the row BEFORE the product with the weights.
  The readout: entry `(g, f)` is the sum over all rows `r` whose graph id, read signed, is `g`, of `h[r, f]`
  (a row whose id names no graph contributes nothing).  The head: two dense layers with `max · 0`, a dense layer to one
  logit `z`, and `-log σ(z)` spelt as the programs spell it, `-(-(max (-z) 0 + log1p (exp (-|z|))))`.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals over the literal shape `[a, b]`. -/
abbrev Mat (a b : Nat) : Type := (⟨2, ![a, b]⟩ : Shape).Idx → EReal
/-- A vector of extended reals over the literal shape `[a]`. -/
abbrev Row (a : Nat) : Type := (⟨1, ![a]⟩ : Shape).Idx → EReal

/-- The one row of a `[1, n]` matrix as a vector. -/
def row {n : Nat} (M : Mat 1 n) : Row n := fun j => M (ix2 (0 : Fin 1) ⟨(j 0).val, (j 0).isLt⟩)
/-- The one column of a `[n, 1]` array of words as a vector of words. -/
def col {n w : Nat} (M : (⟨2, ![n, 1]⟩ : Shape).Idx → BitVec w) : (⟨1, ![n]⟩ : Shape).Idx → BitVec w :=
  fun j => M (ix2 ⟨(j 0).val, (j 0).isLt⟩ (0 : Fin 1))

theorem row_ix1 {n : Nat} (M : Mat 1 n) (f : Fin n) : row M (ix1 f) = M (ix2 (0 : Fin 1) f) := rfl
theorem col_ix1 {n w : Nat} (M : (⟨2, ![n, 1]⟩ : Shape).Idx → BitVec w) (r : Fin n) : col M (ix1 r) = M (ix2 r (0 : Fin 1)) := rfl

/-! ## One graph layer -/

/-- Row `r`, feature `f` of a layer over `K` input features. -/
def sageAt {K : Nat} (h agg : Mat 100000 K) (inv : Mat 100000 1) (Ws Wn : Mat K 128) (b : Row 128)
    (r : Fin 100000) (f : Fin 128) : EReal :=
  max (((∑ k : Fin K, h (ix2 r k) * Ws (ix2 k f)) + (∑ k : Fin K, (agg (ix2 r k) * inv (ix2 r (0 : Fin 1))) * Wn (ix2 k f)))
    + b (ix1 f)) 0

/-- The layer's whole output. -/
def sage {K : Nat} (h agg : Mat 100000 K) (inv : Mat 100000 1) (Ws Wn : Mat K 128) (b : Row 128) : Mat 100000 128 :=
  fun i => sageAt h agg inv Ws Wn b ⟨(i 0).val, idx2_lt0 i⟩ ⟨(i 1).val, idx2_lt1 i⟩

theorem sage_ix2 {K : Nat} (h agg : Mat 100000 K) (inv : Mat 100000 1) (Ws Wn : Mat K 128) (b : Row 128)
    (r : Fin 100000) (f : Fin 128) : sage h agg inv Ws Wn b (ix2 r f) = sageAt h agg inv Ws Wn b r f := rfl

/-! ## The readout per graph -/

/-- Entry `(g, f)`: the rows of graph `g` summed. -/
def readoutAt (gid : (⟨1, ![100000]⟩ : Shape).Idx → BitVec 32) (h : Mat 100000 128) (g f : Fin 128) : EReal :=
  ∑ r : Fin 100000, if (gid (ix1 r)).toInt = (g.val : Int) then h (ix2 r f) else 0

def readout (gid : (⟨1, ![100000]⟩ : Shape).Idx → BitVec 32) (h : Mat 100000 128) : Mat 128 128 :=
  fun i => readoutAt gid h ⟨(i 0).val, idx2_lt0 i⟩ ⟨(i 1).val, idx2_lt1 i⟩

theorem readout_ix2 (gid : (⟨1, ![100000]⟩ : Shape).Idx → BitVec 32) (h : Mat 100000 128) (g f : Fin 128) :
    readout gid h (ix2 g f) = readoutAt gid h g f := rfl

/-! ## The head -/

/-- A dense layer at `(i, j)`. -/
def denseAt {M K N : Nat} (x : Mat M K) (W : Mat K N) (b : Row N) (i : Fin M) (j : Fin N) : EReal :=
  (∑ k : Fin K, x (ix2 i k) * W (ix2 k j)) + b (ix1 j)

/-- A dense layer followed by `max · 0`, as a matrix. -/
def denseRelu {M K N : Nat} (x : Mat M K) (W : Mat K N) (b : Row N) : Mat M N :=
  fun i => max (denseAt x W b ⟨(i 0).val, idx2_lt0 i⟩ ⟨(i 1).val, idx2_lt1 i⟩) 0

theorem denseRelu_ix2 {M K N : Nat} (x : Mat M K) (W : Mat K N) (b : Row N) (i : Fin M) (j : Fin N) :
    denseRelu x W b (ix2 i j) = max (denseAt x W b i j) 0 := rfl

/-- `-log σ(z)` as both programs spell it. -/
def nls (z : EReal) : EReal := -(-(max (-z) 0 + Ideal.log1p (Ideal.exp (-(max (-z) z)))))

/-- The head's output at graph `g`. -/
def headAt (xall : Mat 128 132) (fc1W : Mat 132 512) (fc1b : Row 512) (fc2W : Mat 512 512) (fc2b : Row 512)
    (pW : Mat 512 1) (pb : Row 1) (g : Fin 128) : EReal :=
  nls (denseAt (denseRelu (denseRelu xall fc1W fc1b) fc2W fc2b) pW pb g (0 : Fin 1))

def head (xall : Mat 128 132) (fc1W : Mat 132 512) (fc1b : Row 512) (fc2W : Mat 512 512) (fc2b : Row 512)
    (pW : Mat 512 1) (pb : Row 1) : Mat 128 1 :=
  fun i => headAt xall fc1W fc1b fc2W fc2b pW pb ⟨(i 0).val, idx2_lt0 i⟩

theorem head_ix2 (xall : Mat 128 132) (fc1W : Mat 132 512) (fc1b : Row 512) (fc2W : Mat 512 512) (fc2b : Row 512)
    (pW : Mat 512 1) (pb : Row 1) (g : Fin 128) (u : Fin 1) :
    head xall fc1W fc1b fc2W fc2b pW pb (ix2 g u) = headAt xall fc1W fc1b fc2W fc2b pW pb g := rfl

end Cert.Spec

end
-- ==== Proof.Chain.lean ====
/-
  The whole computation as ONE function of the argument arrays, over the extended reals.

  The irregular parts — the degree count, the neighbour gather and its scatter-add — stay as the host operations
  themselves (both programs apply the same ones), named here once: `inv` (the reciprocal of the clamped in-degree, as a
  column), `srcIdx` (the source ids with negative ones wrapped, as the gather reads them), `agg44` / `agg128` (gather
  the source rows, add them at the destination rows).  Between them the layers, the readout and the head are the
  index-by-index functions of the specification.
-/
import proofs.«418824_j4922032521409_2_alg».proof.KernelIdeal
import proofs.«418824_j4922032521409_2_alg».proof.Proof.Spec

noncomputable section

namespace Cert.KernelIdeal.Chain

open Idealize.ShloMosaic Cert.KernelIdeal

variable [Facts]
open Facts₀ Facts

/-- An array of extended reals over a shape. -/
abbrev A (s : Shape) : Type := s.Idx → EReal

/-- The reciprocal of the in-degree clamped below by one, as a column: `1 / max (count of dst = r) 1`. -/
def inv (dst : IVec S1600000 32) : A S100000x1 :=
  broadcastInDim S100000x1 ![0] bcast_S100000_S100000x1_0
    (Host.divf (F := Ideal) (φ := .f32) (broadcastInDim S100000 ![] bcast_S_S100000 (constant (F := Ideal) S_ .f32 0x3F800000#32))
      (maximumf (F := Ideal) (φ := .f32)
        (Host.scatterAdd (F := Ideal) (φ := .f32) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The source ids as the gather reads them: a negative id wrapped by the row count, as a column. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum over 44 features: gather the source rows, add them at the destination rows. -/
def agg44 (x : A S100000x44) (src dst : IVec S1600000 32) : A S100000x44 :=
  Host.scatterAdd (F := Ideal) (φ := .f32) scatter_S100000x44_S1600000x1_S1600000x44_1_0_0_1
    (broadcastInDim S100000x44 ![] bcast_S_S100000x44 (constant (F := Ideal) S_ .f32 0x00000000#32))
    (broadcastInDim S1600000x1 ![0] bcast_S1600000_S1600000x1_0 dst)
    (Host.gather gather_S100000x44_S1600000x1_S1600000x44_1_0_n_n_0_1_144 x (srcIdx src))

/-- The neighbour sum over 128 features. -/
def agg128 (h : A S100000x128) (src dst : IVec S1600000 32) : A S100000x128 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (srcIdx src))

/-- The first layer's output. -/
def h1 (x : A S100000x44) (src dst : IVec S1600000 32) (W1s W1n : A S44x128) (b1 : A S128) : A S100000x128 :=
  Spec.sage x (agg44 x src dst) (inv dst) W1s W1n b1

/-- The second layer's output. -/
def h2 (x : A S100000x44) (src dst : IVec S1600000 32) (W1s W1n : A S44x128) (b1 : A S128) (W2s W2n : A S128x128) (b2 : A S128) :
    A S100000x128 :=
  Spec.sage (h1 x src dst W1s W1n b1) (agg128 (h1 x src dst W1s W1n b1) src dst) (inv dst) W2s W2n b2

/-- The head's input: the readout beside the static features. -/
def xall (x : A S100000x44) (sf : A S128x4) (src dst : IVec S1600000 32) (gid : IVec S100000 32) (W1s W1n : A S44x128) (b1 : A S128)
    (W2s W2n : A S128x128) (b2 : A S128) : A S128x132 :=
  concatenate S128x132 1 [⟨S128x128, Spec.readout gid (h2 x src dst W1s W1n b1 W2s W2n b2)⟩, ⟨S128x4, sf⟩]
    concatenates_S128x128_S128x4_S128x132_d1

/-- The result. -/
def out (x : A S100000x44) (sf : A S128x4) (src dst : IVec S1600000 32) (gid : IVec S100000 32) (W1s W1n : A S44x128) (b1 : A S128)
    (W2s W2n : A S128x128) (b2 : A S128) (fc1W : A S132x512) (fc1b : A S512) (fc2W : A S512x512) (fc2b : A S512)
    (pW : A S512x1) (pb : A S1) : A S128x1 :=
  Spec.head (xall x sf src dst gid W1s W1n b1 W2s W2n b2) fc1W fc1b fc2W fc2b pW pb

end Cert.KernelIdeal.Chain

end
-- ==== Proof.LibNaryResult.lean ====
/-
  A host operation over a literal family of references, read at its result.

  `StableHlo.nary xs y f` writes `f` of the family of its operands' contents into `y`.  Its general result
  lemma states the family as `fun k => F ↑(xs k)`; for a LITERAL family `![a, b, c]` the lemmas below state it
  as `Fin.cons (F ↑a) (Fin.cons (F ↑b) …)` instead — each operand's contents at its own reference —, which is what
  lets a rewriting pass over a line of operations go on into the operands (a concatenate of three, five or nine
  computed pieces).  The library has this form for four references (`nary4_result`); these are the same statement
  and proof at three, five and nine.
-/
import Idealize.ShloMosaic.Lib.StableHlo.Run

noncomputable section

namespace Idealize.ShloMosaic.StableHlo

variable {nD : Nat} {τ : Topo} {sig : RefSig} {Val : EltTy → Type}
variable {x a b c e g h i j y : Ref sig .tc}

/-- `nary` over a LITERAL family of 3 references: the result with each operand's contents at its own reference, so that
    a pass over the operations' results goes on rewriting the operands' contents (under the binder of `nary_result` the
    reference `![x, a, b] k` is no literal and no result lemma applies to it). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
/-- The same with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a LITERAL family of 5 references: the result with each operand's contents at its own reference, so that
    a pass over the operations' results goes on rewriting the operands' contents (under the binder of `nary_result` the
    reference `![x, a, b, c, e] k` is no literal and no result lemma applies to it). -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl
/-- The same with the result reference un-indexed, for `simp`. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

/-- `nary` over a LITERAL family of 9 references: the result with each operand's contents at its own reference, so that
    a pass over the operations' results goes on rewriting the operands' contents (under the binder of `nary_result` the
    reference `![x, a, b, c, e, g, h, i, j] k` is no literal and no result lemma applies to it). -/
theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl
/-- The same with the result reference un-indexed, for `simp`. -/
theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
/-
  Reading a short stretch of host operations.

  `StableHlo.nary xs y f` writes `f` of the family of its operands' contents into `y`; for a LITERAL family of two
  references the result is stated here with each operand's contents at its own reference (the library has this form at
  four references, and at three, five and nine in a sibling file), so that a rewriting pass goes on into the operands.
  `read_stretch` is one rewriting pass over a goal about `StableHlo.after` of a literal stretch: it unfolds the fold and
  rewrites each operation's result at its own buffer to its function's value and at any other buffer to what was there
  (two references told apart by deciding), with the literal-family forms of `nary` only — never the general form, which
  leaves the operands under a binder.
-/
import Idealize.ShloMosaic.Lib.StableHlo.Run
import proofs.«418824_j4922032521409_2_alg».proof.Proof.LibNaryResult

noncomputable section

namespace Idealize.ShloMosaic.StableHlo

variable {nD : Nat} {τ : Topo} {sig : RefSig} {Val : EltTy → Type}
variable {x a y : Ref sig .tc}

/-- `nary` over a LITERAL family of 2 references: the result with each operand's contents at its own reference. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl
/-- The same with the result reference un-indexed, for `simp`. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in
/-- One rewriting pass over a literal stretch's fold (see the header). -/
macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.LibReadStretchRw.lean ====
/-
  Reading a short stretch of host operations, second pass.  Where an operation's function places its operands inside a
  list of shaped pieces (a concatenate printed as a binary or ternary operation), a simplifier pass stops at the list;
  `read_stretch_rw` goes on inside it by plain rewriting: each operation's result at its own buffer is its function's
  value, and at any other buffer what was there (two references told apart by deciding).
-/
import proofs.«418824_j4922032521409_2_alg».proof.Proof.LibReadStretch

open Idealize.ShloMosaic.StableHlo in
/-- The rewriting pass (see the header): repeats until no operation's result is left to read. -/
macro "read_stretch_rw" : tactic =>
  `(tactic| repeat (first
      | rw [nullary_result] | rw [unary_result] | rw [binary_result] | rw [ternary_result] | rw [quaternary_result]
      | rw [reshape_result] | rw [nary4_result] | rw [nary3_result] | rw [nary2_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))
-- ==== Proof.KHost.lean ====
/-
  The host stretches of the kernel's program read at the buffers the regions take: before the first region the
  reciprocal degree, the first neighbour sum and the bias as a row; between the first two the second neighbour sum
  (gathered from what the first region wrote), the graph ids as a column, the second bias as a row; before the head the
  readout beside the static features and the three biases as rows.  Every other buffer a region takes is an argument
  array, which nothing writes.  A change of float format is the identity on the extended reals, so the 16-bit
  detour of the gathered rows does not show.
-/
import proofs.«418824_j4922032521409_2_alg».proof.Proof.Gen.KernelIdeal.Frame
import proofs.«418824_j4922032521409_2_alg».proof.Proof.Chain
import proofs.«418824_j4922032521409_2_alg».proof.Proof.LibReadStretchRw
import Idealize.ShloMosaic.Lib.StableHlo.Run

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## A buffer nothing writes

A stretch leaves a buffer as it was when none of its operations has that buffer as its result (the result
references are literal, so each inequality is decided); a region leaves it as it was when it is none of the region's
arrays.  Chained from the launch, such a buffer holds the launch memory's contents at every boundary. -/

/-- No operation of a literal stretch writes the buffer read: the stretch leaves it as it was. -/
local macro "stretch_keeps" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- A buffer that the first stretch does not write holds at the first region's entry what the launch memory held. -/
private theorem W1_of_launch (b : Ref sig .tc)
    (h0 : StableHlo.after hostOps0 (W0 m ρ c) (Proc.devRef .tc b) = W0 m ρ c (Proc.devRef .tc b)) :
    W1 m ρ c (Proc.devRef .tc b) = m ((c : Thread nD τ).loc b) := h0.trans rfl

/-- If it is none of the first region's arrays either, the same holds at that region's exit. -/
private theorem W2_of_launch (b : Ref sig .tc)
    (h0 : StableHlo.after hostOps0 (W0 m ρ c) (Proc.devRef .tc b) = W0 m ρ c (Proc.devRef .tc b))
    (hb : ∀ w, Pipeline.arrRef spec0 w ≠ b) :
    W2 m ρ c (Proc.devRef .tc b) = m ((c : Thread nD τ).loc b) :=
  (W2_of_ne m ρ c b hb).trans (W1_of_launch m ρ c b h0)

/-- If the second stretch does not write it, the same holds at the second region's entry. -/
private theorem W3_of_launch (b : Ref sig .tc)
    (h1 : StableHlo.after hostOps1 (W2 m ρ c) (Proc.devRef .tc b) = W2 m ρ c (Proc.devRef .tc b))
    (h0 : StableHlo.after hostOps0 (W0 m ρ c) (Proc.devRef .tc b) = W0 m ρ c (Proc.devRef .tc b))
    (hb : ∀ w, Pipeline.arrRef spec0 w ≠ b) :
    W3 m ρ c (Proc.devRef .tc b) = m ((c : Thread nD τ).loc b) :=
  h1.trans (W2_of_launch m ρ c b h0 hb)

/-- If it is none of the second region's arrays either, the same holds at that region's exit. -/
private theorem W4_of_launch (b : Ref sig .tc)
    (h1 : StableHlo.after hostOps1 (W2 m ρ c) (Proc.devRef .tc b) = W2 m ρ c (Proc.devRef .tc b))
    (h0 : StableHlo.after hostOps0 (W0 m ρ c) (Proc.devRef .tc b) = W0 m ρ c (Proc.devRef .tc b))
    (hb1 : ∀ w, Pipeline.arrRef spec1 w ≠ b) (hb0 : ∀ w, Pipeline.arrRef spec0 w ≠ b) :
    W4 m ρ c (Proc.devRef .tc b) = m ((c : Thread nD τ).loc b) :=
  (W4_of_ne m ρ c b hb1).trans (W3_of_launch m ρ c b h1 h0 hb0)

/-- If the third stretch does not write it, the same holds at the third region's entry. -/
private theorem W5_of_launch (b : Ref sig .tc)
    (h2 : StableHlo.after hostOps2 (W4 m ρ c) (Proc.devRef .tc b) = W4 m ρ c (Proc.devRef .tc b))
    (h1 : StableHlo.after hostOps1 (W2 m ρ c) (Proc.devRef .tc b) = W2 m ρ c (Proc.devRef .tc b))
    (h0 : StableHlo.after hostOps0 (W0 m ρ c) (Proc.devRef .tc b) = W0 m ρ c (Proc.devRef .tc b))
    (hb1 : ∀ w, Pipeline.arrRef spec1 w ≠ b) (hb0 : ∀ w, Pipeline.arrRef spec0 w ≠ b) :
    W5 m ρ c (Proc.devRef .tc b) = m ((c : Thread nD τ).loc b) :=
  h2.trans (W4_of_launch m ρ c b h1 h0 hb1 hb0)

/-! ## Region 0's entry (`W1`) -/

theorem V1_arg0 : W1 m ρ c (Proc.devRef .tc main_arg0) = m ((c : Thread nD τ).loc main_arg0) :=
  W1_of_launch m ρ c main_arg0 (by stretch_keeps)
theorem V1_arg5 : W1 m ρ c (Proc.devRef .tc main_arg5) = m ((c : Thread nD τ).loc main_arg5) :=
  W1_of_launch m ρ c main_arg5 (by stretch_keeps)
theorem V1_arg6 : W1 m ρ c (Proc.devRef .tc main_arg6) = m ((c : Thread nD τ).loc main_arg6) :=
  W1_of_launch m ρ c main_arg6 (by stretch_keeps)
/-- The stretch's operations on the destination ids are those of `Chain.inv`, term for term. -/
theorem V1_v8 : W1 m ρ c (Proc.devRef .tc main_v8) = Chain.inv (m ((c : Thread nD τ).loc main_arg3)) := by
  show StableHlo.after hostOps0 (W0 m ρ c) (Proc.devRef .tc main_v8) = _
  read_stretch
  rfl
/-- The stretch narrows the features to 16 bits before the gather and widens the gathered rows after it; both are the
    identity on the extended reals, and what is left is `Chain.agg44` term for term. -/
theorem V1_v20 : W1 m ρ c (Proc.devRef .tc main_v20)
    = Chain.agg44 (m ((c : Thread nD τ).loc main_arg0)) (m ((c : Thread nD τ).loc main_arg2)) (m ((c : Thread nD τ).loc main_arg3)) := by
  show StableHlo.after hostOps0 (W0 m ρ c) (Proc.devRef .tc main_v20) = _
  read_stretch
  rfl
theorem V1_v21 : W1 m ρ c (Proc.devRef .tc main_v21)
    = shapeCast S1x128 (m ((c : Thread nD τ).loc main_arg7)) Facts₀.shapeCasts_S128_S1x128 := by
  show StableHlo.after hostOps0 (W0 m ρ c) (Proc.devRef .tc main_v21) = _
  read_stretch
  rfl

/-! ## Region 1's entry (`W3`), over what region 0 left in its output array -/

theorem V3_v22 : W3 m ρ c (Proc.devRef .tc main_v22) = W2 m ρ c (Proc.devRef .tc main_v22) := by
  show StableHlo.after hostOps1 (W2 m ρ c) (Proc.devRef .tc main_v22) = _
  stretch_keeps
/-- The second stretch gathers the first region's output rows and adds them at the destination rows; the source and
    destination ids are argument arrays, still as launched. -/
theorem V3_v33 : W3 m ρ c (Proc.devRef .tc main_v33)
    = Chain.agg128 (W2 m ρ c (Proc.devRef .tc main_v22)) (m ((c : Thread nD τ).loc main_arg2)) (m ((c : Thread nD τ).loc main_arg3)) := by
  show StableHlo.after hostOps1 (W2 m ρ c) (Proc.devRef .tc main_v33) = _
  read_stretch
  rw [W2_of_launch m ρ c main_arg2 (by stretch_keeps) (by decide),
    W2_of_launch m ρ c main_arg3 (by stretch_keeps) (by decide)]
  rfl
/-- The reciprocal degree is an input array of the first region (its third window), which the region hands back as it
    took it; the second stretch does not write it. -/
theorem V3_v8 : W3 m ρ c (Proc.devRef .tc main_v8) = Chain.inv (m ((c : Thread nD τ).loc main_arg3)) :=
  calc W3 m ρ c (Proc.devRef .tc main_v8)
    _ = W2 m ρ c (Proc.devRef .tc main_v8) := by
        show StableHlo.after hostOps1 (W2 m ρ c) (Proc.devRef .tc main_v8) = _
        stretch_keeps
    _ = W1 m ρ c (Proc.devRef .tc main_v8) :=
        (W2_arr m ρ c 2).trans (((dat0 (V1 m ρ) c).arrAt_in 2 rfl _).trans (A_eq0 (V1 m ρ) c 2))
    _ = _ := V1_v8 m ρ c
theorem V3_v35 : W3 m ρ c (Proc.devRef .tc main_v35)
    = shapeCast S100000x1 (m ((c : Thread nD τ).loc main_arg4)) Facts₀.shapeCasts_S100000_S100000x1 := by
  show StableHlo.after hostOps1 (W2 m ρ c) (Proc.devRef .tc main_v35) = _
  read_stretch
  rw [W2_of_launch m ρ c main_arg4 (by stretch_keeps) (by decide)]
  rfl
theorem V3_v34 : W3 m ρ c (Proc.devRef .tc main_v34)
    = shapeCast S1x128 (m ((c : Thread nD τ).loc main_arg10)) Facts₀.shapeCasts_S128_S1x128 := by
  show StableHlo.after hostOps1 (W2 m ρ c) (Proc.devRef .tc main_v34) = _
  read_stretch
  rw [W2_of_launch m ρ c main_arg10 (by stretch_keeps) (by decide)]
  rfl
theorem V3_arg8 : W3 m ρ c (Proc.devRef .tc main_arg8) = m ((c : Thread nD τ).loc main_arg8) :=
  W3_of_launch m ρ c main_arg8 (by stretch_keeps) (by stretch_keeps) (by decide)
theorem V3_arg9 : W3 m ρ c (Proc.devRef .tc main_arg9) = m ((c : Thread nD τ).loc main_arg9) :=
  W3_of_launch m ρ c main_arg9 (by stretch_keeps) (by stretch_keeps) (by decide)

/-! ## Region 2's entry (`W5`), over what region 1 left in its output array -/

/-- The third stretch sets the second region's output beside the static features, an argument array still as
    launched. -/
theorem V5_v37 : W5 m ρ c (Proc.devRef .tc main_v37)
    = concatenate S128x132 1 [⟨S128x128, W4 m ρ c (Proc.devRef .tc main_v36)⟩, ⟨S128x4, m ((c : Thread nD τ).loc main_arg1)⟩]
        Facts₀.concatenates_S128x128_S128x4_S128x132_d1 := by
  show StableHlo.after hostOps2 (W4 m ρ c) (Proc.devRef .tc main_v37) = _
  simp only [StableHlo.after_cons, StableHlo.after_nil]
  read_stretch_rw
  rw [W4_of_launch m ρ c main_arg1 (by stretch_keeps) (by stretch_keeps) (by decide) (by decide)]
theorem V5_v38 : W5 m ρ c (Proc.devRef .tc main_v38)
    = shapeCast S1x512 (m ((c : Thread nD τ).loc main_arg12)) Facts₀.shapeCasts_S512_S1x512 := by
  show StableHlo.after hostOps2 (W4 m ρ c) (Proc.devRef .tc main_v38) = _
  read_stretch
  rw [W4_of_launch m ρ c main_arg12 (by stretch_keeps) (by stretch_keeps) (by decide) (by decide)]
  rfl
theorem V5_v39 : W5 m ρ c (Proc.devRef .tc main_v39)
    = shapeCast S1x512 (m ((c : Thread nD τ).loc main_arg14)) Facts₀.shapeCasts_S512_S1x512 := by
  show StableHlo.after hostOps2 (W4 m ρ c) (Proc.devRef .tc main_v39) = _
  read_stretch
  rw [W4_of_launch m ρ c main_arg14 (by stretch_keeps) (by stretch_keeps) (by decide) (by decide)]
  rfl
theorem V5_v40 : W5 m ρ c (Proc.devRef .tc main_v40)
    = shapeCast S1x1 (m ((c : Thread nD τ).loc main_arg16)) Facts₀.shapeCasts_S1_S1x1 := by
  show StableHlo.after hostOps2 (W4 m ρ c) (Proc.devRef .tc main_v40) = _
  read_stretch
  rw [W4_of_launch m ρ c main_arg16 (by stretch_keeps) (by stretch_keeps) (by decide) (by decide)]
  rfl
theorem V5_arg11 : W5 m ρ c (Proc.devRef .tc main_arg11) = m ((c : Thread nD τ).loc main_arg11) :=
  W5_of_launch m ρ c main_arg11 (by stretch_keeps) (by stretch_keeps) (by stretch_keeps) (by decide) (by decide)
theorem V5_arg13 : W5 m ρ c (Proc.devRef .tc main_arg13) = m ((c : Thread nD τ).loc main_arg13) :=
  W5_of_launch m ρ c main_arg13 (by stretch_keeps) (by stretch_keeps) (by stretch_keeps) (by decide) (by decide)
theorem V5_arg15 : W5 m ρ c (Proc.devRef .tc main_arg15) = m ((c : Thread nD τ).loc main_arg15) :=
  W5_of_launch m ρ c main_arg15 (by stretch_keeps) (by stretch_keeps) (by stretch_keeps) (by decide) (by decide)

end Cert.KernelIdeal.Val

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibIdealAtIndex.lean ====
/-
  Two more vector operations read at an index over the extended reals, beside the library's `mulf_apply`,
  `maximumf_apply` …: a reciprocal square root is the extended reals' of the element, and the maximum with the splat
  of the zero word is the maximum with `0` (what `max · 0` after an affine map prints as).
-/
import Idealize.ShloMosaic.Lib.ValueIdx
import Idealize.ShloMosaic.PureOps.Ideal.Laws

namespace Idealize.ShloMosaic.ValueIdx

/-- A reciprocal square root at an index is the extended reals' of the element. -/
theorem rsqrt_apply {s : Shape} {φ : FTy} (a : FVec Ideal s φ) (i : s.Idx) : rsqrt a i = Ideal.rsqrt (a i) := rfl

/-- The maximum with the splat of the f32 zero word, at an index, is the maximum of the element with `0`. -/
theorem maximumf_zero_splat_apply {s : Shape} (X : FVec Ideal s .f32) (i : s.Idx) :
    maximumf X (broadcast s (Scalar.ofBits .f32 0x00000000#32)) i = max (X i) 0 := by
  rw [maximumf_apply, broadcast_apply]
  exact congrArg (max (X i)) Ideal.ofBits_zero_f32

end Idealize.ShloMosaic.ValueIdx
-- ==== Proof.KReg0.lean ====
/-
  The first layer's region: what its 20 row blocks leave in the output array is the layer of the specification, read
  off the arrays the region finds.

  Three steps.  The body's stored value at an entry `(p, q)` of a block is the layer's formula over the loaded blocks:
  the two products are sums over the 44 input features, the reciprocal degree scales the neighbour sum before its
  product, the bias row is added to every row, and the maximum with zero closes.  Grid point `t` loads rows
  `5000 t … 5000 t + 4999` of the three row-blocked arrays and the whole of the weights and the bias, so what it writes
  back is block `t` of the layer of the whole arrays.  The 20 blocks cover the 100000 rows (row `r` is in block
  `r / 5000`), so the array ends holding the layer.
-/
import proofs.«418824_j4922032521409_2_alg».proof.Proof.Gen.KernelIdeal.Frame
import proofs.«418824_j4922032521409_2_alg».proof.Proof.Spec
import proofs.«418824_j4922032521409_2_alg».proof.Proof.LibBroadcastColumn
import proofs.«418824_j4922032521409_2_alg».proof.Proof.LibIdealAtIndex
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The layer's two products: the operand indices of the contraction, axis by axis -/

theorem lhs_dot_0 (j : S5000x128.Idx) (k : dot_S5000x44_S44x128_S5000x128_1_0_0_1_n_n.contr.Idx) :
    (dot_S5000x44_S44x128_S5000x128_1_0_0_1_n_n.lhsIdx j k (0 : Fin 2)).val = (j (0 : Fin 2)).val := by
  unfold DotDims.lhsIdx
  rw [dif_neg (show ¬ (0 : Fin S5000x44.rank) ∈ dot_S5000x44_S44x128_S5000x128_1_0_0_1_n_n.lhsBatch by decide),
    dif_pos (show (0 : Fin S5000x44.rank) ∈ dot_S5000x44_S44x128_S5000x128_1_0_0_1_n_n.lhsNonContracting by decide)]
  rfl

theorem lhs_dot_1 (j : S5000x128.Idx) (k : dot_S5000x44_S44x128_S5000x128_1_0_0_1_n_n.contr.Idx) :
    (dot_S5000x44_S44x128_S5000x128_1_0_0_1_n_n.lhsIdx j k (1 : Fin 2)).val = (k ⟨0, by decide⟩).val :=
  dot_S5000x44_S44x128_S5000x128_1_0_0_1_n_n.lhsIdx_val_of_single (cl := (1 : Fin 2)) rfl j k

theorem rhs_dot_0 (j : S5000x128.Idx) (k : dot_S5000x44_S44x128_S5000x128_1_0_0_1_n_n.contr.Idx) :
    (dot_S5000x44_S44x128_S5000x128_1_0_0_1_n_n.rhsIdx j k (0 : Fin 2)).val = (k ⟨0, by decide⟩).val :=
  dot_S5000x44_S44x128_S5000x128_1_0_0_1_n_n.rhsIdx_val_of_single (cr := (0 : Fin 2)) rfl j k

theorem rhs_dot_1 (j : S5000x128.Idx) (k : dot_S5000x44_S44x128_S5000x128_1_0_0_1_n_n.contr.Idx) :
    (dot_S5000x44_S44x128_S5000x128_1_0_0_1_n_n.rhsIdx j k (1 : Fin 2)).val = (j (1 : Fin 2)).val := by
  unfold DotDims.rhsIdx
  rw [dif_neg (show ¬ (1 : Fin S44x128.rank) ∈ dot_S5000x44_S44x128_S5000x128_1_0_0_1_n_n.rhsBatch by decide),
    dif_pos (show (1 : Fin S44x128.rank) ∈ dot_S5000x44_S44x128_S5000x128_1_0_0_1_n_n.rhsNonContracting by decide)]
  rfl

/-- One product of the layer read at `(p, q)`: row `p` of the left factor against column `q` of the right one. -/
theorem matmul_zero_ix2 (A : FVec Ideal S5000x44 .bf16) (B : FVec Ideal S44x128 .bf16) (p : Fin 5000) (q : Fin 128) :
    matmul dot_S5000x44_S44x128_S5000x128_1_0_0_1_n_n none A B (constant S5000x128 .f32 0x00000000#32) (ix2 p q)
      = ∑ k : Fin 44, A (ix2 p k) * B (ix2 k q) := by
  show FloatOps.matmul dot_S5000x44_S44x128_S5000x128_1_0_0_1_n_n none A B (constant S5000x128 .f32 0x00000000#32) (ix2 p q) = _
  rw [Ideal.matmul_constant_zero_apply,
    ← Equiv.sum_comp (contrEquiv1 dot_S5000x44_S44x128_S5000x128_1_0_0_1_n_n 44 rfl rfl).symm]
  refine Finset.sum_congr rfl fun k _ => ?_
  have hk := contrEquiv1_symm_val dot_S5000x44_S44x128_S5000x128_1_0_0_1_n_n 44 rfl rfl k
  have hl : dot_S5000x44_S44x128_S5000x128_1_0_0_1_n_n.lhsIdx (ix2 p q)
      ((contrEquiv1 dot_S5000x44_S44x128_S5000x128_1_0_0_1_n_n 44 rfl rfl).symm k) = ix2 p k := by
    funext a; apply Fin.ext
    match a with
    | ⟨0, _⟩ => exact lhs_dot_0 _ _
    | ⟨1, _⟩ => exact (lhs_dot_1 _ _).trans hk
  have hr : dot_S5000x44_S44x128_S5000x128_1_0_0_1_n_n.rhsIdx (ix2 p q)
      ((contrEquiv1 dot_S5000x44_S44x128_S5000x128_1_0_0_1_n_n 44 rfl rfl).symm k) = ix2 k q := by
    funext a; apply Fin.ext
    match a with
    | ⟨0, _⟩ => exact (rhs_dot_0 _ _).trans hk
    | ⟨1, _⟩ => exact rhs_dot_1 _ _
  rw [hl, hr]

/-! ## The body's payload at an index -/

/-- What one grid point stores at `(p, q)` of its block: the layer's formula over the blocks it loaded. -/
theorem pay_ix2 (x0 x1 : Vec Ideal S5000x44 .f32) (x2 : Vec Ideal S5000x1 .f32) (x3 x4 : Vec Ideal S44x128 .f32)
    (x5 : Vec Ideal S1x128 .f32) (p : Fin 5000) (q : Fin 128) :
    k0_pay1 x0 x1 x2 x3 x4 x5 (ix2 p q)
      = max (((∑ k : Fin 44, x0 (ix2 p k) * x3 (ix2 k q))
          + (∑ k : Fin 44, (x1 (ix2 p k) * x2 (ix2 p (0 : Fin 1))) * x4 (ix2 k q))) + x5 (ix2 (0 : Fin 1) q)) 0 := by
  unfold k0_pay1
  rw [truncf_apply, maximumf_zero_splat_apply, addf_apply, addf_apply, matmul_zero_ix2, matmul_zero_ix2,
    broadcastTo_1b_ab_apply, shapeCast_self]
  simp only [truncf_apply, mulf_apply, shapeCast_self, broadcastTo_a1_ab_apply]

/-! ## From the blocks to the array -/

theorem off_zero : (![0, 0] : Fin 2 → Nat) = fun _ => 0 := funext fun a => by fin_cases a <;> rfl

/-- The block index of every window at every grid point: the row-blocked windows sit at block `t`, the whole ones
    at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the block of grid point `t` is row `5000 t + p` of the array. -/
def rowOf (t : Fin cfg0.N) (p : Fin 5000) : Fin 100000 :=
  ⟨t.val * 5000 + p.val, by have ht : t.val < 20 := t.isLt; have := p.isLt; omega⟩

theorem blk0_ix2 (c : Dev nD) (t : Fin cfg0.N) (p : Fin 5000) (k : Fin 44) :
    iblk0 V c 0 t (ix2 p k) = V c main_arg0 (ix2 (rowOf t p) k) := by
  show V c main_arg0 (((cfg0.win 0).blk t).view.emb (ix2 p k)) = _
  refine congrArg (V c main_arg0) (funext fun a => Fin.ext ?_)
  obtain ⟨e00, e01, -⟩ := idx_facts t
  match a with
  | ⟨0, _⟩ => show win0_0.index t (0 : Fin 2) * 5000 + 1 * p.val = t.val * 5000 + p.val; omega
  | ⟨1, _⟩ => show win0_0.index t (1 : Fin 2) * 44 + 1 * k.val = k.val; omega

theorem blk1_ix2 (c : Dev nD) (t : Fin cfg0.N) (p : Fin 5000) (k : Fin 44) :
    iblk0 V c 1 t (ix2 p k) = V c main_v20 (ix2 (rowOf t p) k) := by
  show V c main_v20 (((cfg0.win 1).blk t).view.emb (ix2 p k)) = _
  refine congrArg (V c main_v20) (funext fun a => Fin.ext ?_)
  obtain ⟨-, -, e10, e11, -⟩ := idx_facts t
  match a with
  | ⟨0, _⟩ => show win0_1.index t (0 : Fin 2) * 5000 + 1 * p.val = t.val * 5000 + p.val; omega
  | ⟨1, _⟩ => show win0_1.index t (1 : Fin 2) * 44 + 1 * k.val = k.val; omega

theorem blk2_ix2 (c : Dev nD) (t : Fin cfg0.N) (p : Fin 5000) (u : Fin 1) :
    iblk0 V c 2 t (ix2 p u) = V c main_v8 (ix2 (rowOf t p) u) := by
  show V c main_v8 (((cfg0.win 2).blk t).view.emb (ix2 p u)) = _
  refine congrArg (V c main_v8) (funext fun a => Fin.ext ?_)
  obtain ⟨-, -, -, -, e20, e21, -⟩ := idx_facts t
  match a with
  | ⟨0, _⟩ => show win0_2.index t (0 : Fin 2) * 5000 + 1 * p.val = t.val * 5000 + p.val; omega
  | ⟨1, _⟩ => show win0_2.index t (1 : Fin 2) * 1 + 1 * u.val = u.val; omega

theorem blk3_ix2 (c : Dev nD) (t : Fin cfg0.N) (k : Fin 44) (q : Fin 128) :
    iblk0 V c 3 t (ix2 k q) = V c main_arg5 (ix2 k q) := by
  show V c main_arg5 (((cfg0.win 3).blk t).view.emb (ix2 k q)) = _
  refine congrArg (V c main_arg5) (funext fun a => Fin.ext ?_)
  obtain ⟨-, -, -, -, -, -, e30, e31, -⟩ := idx_facts t
  match a with
  | ⟨0, _⟩ => show win0_3.index t (0 : Fin 2) * 44 + 1 * k.val = k.val; omega
  | ⟨1, _⟩ => show win0_3.index t (1 : Fin 2) * 128 + 1 * q.val = q.val; omega

theorem blk4_ix2 (c : Dev nD) (t : Fin cfg0.N) (k : Fin 44) (q : Fin 128) :
    iblk0 V c 4 t (ix2 k q) = V c main_arg6 (ix2 k q) := by
  show V c main_arg6 (((cfg0.win 4).blk t).view.emb (ix2 k q)) = _
  refine congrArg (V c main_arg6) (funext fun a => Fin.ext ?_)
  obtain ⟨-, -, -, -, -, -, -, -, e40, e41, -⟩ := idx_facts t
  match a with
  | ⟨0, _⟩ => show win0_4.index t (0 : Fin 2) * 44 + 1 * k.val = k.val; omega
  | ⟨1, _⟩ => show win0_4.index t (1 : Fin 2) * 128 + 1 * q.val = q.val; omega

theorem blk5_ix2 (c : Dev nD) (t : Fin cfg0.N) (u : Fin 1) (q : Fin 128) :
    iblk0 V c 5 t (ix2 u q) = V c main_v21 (ix2 u q) := by
  show V c main_v21 (((cfg0.win 5).blk t).view.emb (ix2 u q)) = _
  refine congrArg (V c main_v21) (funext fun a => Fin.ext ?_)
  obtain ⟨-, -, -, -, -, -, -, -, -, -, e50, e51, -⟩ := idx_facts t
  match a with
  | ⟨0, _⟩ => show win0_5.index t (0 : Fin 2) * 1 + 1 * u.val = u.val; omega
  | ⟨1, _⟩ => show win0_5.index t (1 : Fin 2) * 128 + 1 * q.val = q.val; omega

/-- Where the output block of grid point `t` puts its entry `(p, q)`. -/
theorem emb6_ix2 (t : Fin cfg0.N) (p : Fin 5000) (q : Fin 128) :
    ((cfg0.win 6).blk t).view.emb (ix2 p q) = (ix2 (rowOf t p) q : S100000x128.Idx) := by
  funext a; apply Fin.ext
  obtain ⟨-, -, -, -, -, -, -, -, -, -, -, -, e60, e61⟩ := idx_facts t
  match a with
  | ⟨0, _⟩ => show win0_6.index t (0 : Fin 2) * 5000 + 1 * p.val = t.val * 5000 + p.val; omega
  | ⟨1, _⟩ => show win0_6.index t (1 : Fin 2) * 128 + 1 * q.val = q.val; omega

/-- What grid point `t` writes back is block `t` of the layer of the arrays the region was entered with. -/
theorem flushed_eq (c : Dev nD) (t : Fin cfg0.N) :
    (dat0 (F := Ideal) V c).flushed 6 t = ((cfg0.win 6).blk t).view.read (Elt Ideal)
      (Spec.sage (V c main_arg0) (V c main_v20) (V c main_v8) (V c main_arg5) (V c main_arg6) (Spec.row (V c main_v21))) := by
  show (cfg0.win 6).cut (grid0.coords t) ((dat0 V c).after 6 t) = _
  rw [after0_6]
  unfold out0_6
  rw [View.canon_unit_zero off_zero]
  simp only [View.ld_unit_zero (S := S5000x44) off_zero, View.ld_unit_zero (S := S5000x1) off_zero,
    View.ld_unit_zero (S := S44x128) off_zero, View.ld_unit_zero (S := S1x128) off_zero]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = Spec.sage (V c main_arg0) (V c main_v20) (V c main_v8) (V c main_arg5) (V c main_arg6) (Spec.row (V c main_v21))
        (((cfg0.win 6).blk t).view.emb (ix2 p q))
  rw [emb6_ix2, Spec.sage_ix2]
  refine (pay_ix2 (iblk0 V c 0 t) (iblk0 V c 1 t) (iblk0 V c 2 t) (iblk0 V c 3 t) (iblk0 V c 4 t) (iblk0 V c 5 t) p q).trans ?_
  unfold Spec.sageAt
  simp only [blk0_ix2, blk1_ix2, blk2_ix2, blk3_ix2, blk4_ix2, blk5_ix2, Spec.row_ix1]

/-- An index of the array is in the block of grid point `t` iff each coordinate is in the block's range on its axis. -/
theorem mem_blk6 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v22).slice (win0_6.rect t)).set ↔ _
  rw [View.set_slice_whole, Rect.mem_set_unit]
  exact Iff.rfl

/-- Row `r` of the array lies in the block of grid point `r / 5000`: the 20 row blocks cover the array. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < 20 := by omega
  obtain ⟨t, ht⟩ : ∃ t : Fin cfg0.N, t.val = (i 0).val / 5000 := ⟨⟨_, hlt⟩, rfl⟩
  refine ⟨t, flush0_6 t, ?_⟩
  rw [mem_blk6]
  obtain ⟨-, -, -, -, -, -, -, -, -, -, -, -, e60, e61⟩ := idx_facts t
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- Region 0's output array after its 20 points is the first graph layer of the arrays it was entered with. -/
theorem reg0_arr (c : Dev nD) :
    ((dat0 (F := Ideal) V c).arrAt 6 cfg0.N : S100000x128.Idx → EReal)
      = Spec.sage (V c main_arg0) (V c main_v20) (V c main_v8) (V c main_arg5) (V c main_arg6) (Spec.row (V c main_v21)) :=
  (dat0 (F := Ideal) V c).arrAt_eq_of_cover 6
    (Spec.sage (V c main_arg0) (V c main_v20) (V c main_v8) (V c main_arg5) (V c main_arg6) (Spec.row (V c main_v21)))
    (fun t _ => flushed_eq V c t) cover6

end Cert.KernelIdeal.Val

end
-- ==== Proof.KReg1.lean ====
/-
  The second layer's region with the readout fused: the accumulator left after the 20 row blocks is the per-graph sum
  of the second layer's rows.

  The road.  Each of the two control cases leaves in the accumulator's staging buffer one store's value: what the block
  held (zero at the first point) plus the point's partial product, the one-hot matrix of the tile's graph ids,
  transposed, times the tile's second-layer rows.  Read at (g, f) over the extended reals that product is the sum over
  the tile's 5000 rows of the row's second-layer value at f when the row's id, read signed, is g, and 0 otherwise
  (1 · x = x and 0 · x = 0 for every extended real).  By induction on the point the accumulator after point n holds
  the shares of blocks 0 … n; the one write-back, after point 19, covers the whole array; and the 20 blocks of 5000
  rows are the 100000 rows.
-/
import proofs.«418824_j4922032521409_2_alg».proof.Proof.Gen.KernelIdeal.Frame
import proofs.«418824_j4922032521409_2_alg».proof.Proof.Spec
import proofs.«418824_j4922032521409_2_alg».proof.Proof.LibBroadcastColumn
import proofs.«418824_j4922032521409_2_alg».proof.Proof.LibIdealAtIndex
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

namespace R1

/-! ## What each control case leaves in the accumulator's staging buffer -/

section Pieces
variable {F : FTy → Type} [FloatOps F]

theorem hz2 : (![0, 0] : Fin 2 → Nat) = fun _ => 0 := funext fun a => by fin_cases a <;> rfl

/-- At a later point the body leaves the block it found plus the point's partial product. -/
theorem out1_B_7_eq (c : Dev nD) (i : grid1.Coords) (arg1 : Memref sig .tc .vmem S5000x128 .bf16) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (hc0 : ¬cond1_0 i)
    (x0 : Vec F S5000x128 .bf16) (x1 : Vec F S5000x128 .f32) (x2 : Vec F S5000x1 .f32) (x3 : Vec F S5000x1 .i32) (x4 : Vec F S128x128 .f32) (x5 : Vec F S128x128 .f32) (x6 : Vec F S1x128 .f32) (xo7 : Vec F S128x128 .f32) :
    out1_B_7 c i arg1 harg1 arg2 harg2 arg3 harg3 arg4 harg4 arg5 harg5 arg6 harg6 arg7 harg7 arg8 harg8 hc0 x0 x1 x2 x3 x4 x5 x6 xo7
      = k1_pay1 (k1_pay3 x0 x1 x2 x4 x5 x6 x3) xo7 := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 x5 x6 xo7)]
  unfold kernelRun1_B
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, View.ld_unit_zero (S := S5000x128) hz2, View.ld_unit_zero (S := S5000x1) hz2,
    View.ld_unit_zero (S := S128x128) hz2, View.ld_unit_zero (S := S1x128) hz2]

/-- At the first point the body zeroes the block, then leaves zero plus the point's partial product. -/
theorem out1_A_7_eq (c : Dev nD) (i : grid1.Coords) (arg1 : Memref sig .tc .vmem S5000x128 .bf16) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (hc0 : cond1_0 i)
    (x0 : Vec F S5000x128 .bf16) (x1 : Vec F S5000x128 .f32) (x2 : Vec F S5000x1 .f32) (x3 : Vec F S5000x1 .i32) (x4 : Vec F S128x128 .f32) (x5 : Vec F S128x128 .f32) (x6 : Vec F S1x128 .f32) :
    out1_A_7 c i arg1 harg1 arg2 harg2 arg3 harg3 arg4 harg4 arg5 harg5 arg6 harg6 arg7 harg7 arg8 harg8 hc0 x0 x1 x2 x3 x4 x5 x6
      = k1_pay1 (k1_pay3 x0 x1 x2 x4 x5 x6 x3) k1_pay2 := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4 x5 x6)]
  unfold kernelRun1_A
  dsimp only
  sl_unfold_words
  rw [View.canon_cons_unit_zero (S := S128x128) hz2, View.readCov_unit_zero (S := S128x128) _ hz2]
  simp only [View.readAt_eq_ld, harg1.read_unread, harg2.read_unread, harg3.read_unread, harg4.read_unread, harg5.read_unread,
    harg6.read_unread, harg7.read_unread, View.ld_unit_zero (S := S5000x128) hz2, View.ld_unit_zero (S := S5000x1) hz2,
    View.ld_unit_zero (S := S128x128) hz2, View.ld_unit_zero (S := S1x128) hz2, View.readCov_unit_zero (S := S128x128) _ hz2]

end Pieces

/-! ## The two matrix products at an index -/

section Products

/-- The plain product's dimension numbers: rows by columns, the left operand's columns against the right's rows. -/
abbrev DP := dot_S5000x128_S128x128_S5000x128_1_0_0_1_n_n
/-- The transposed-left product's dimension numbers: both operands contracted along their rows. -/
abbrev DT := dot_S5000x128_S5000x128_S128x128_0_0_1_1_n_n

theorem lhsP_0 (j : S5000x128.Idx) (k : DP.contr.Idx) : (DP.lhsIdx j k 0 : ℕ) = j 0 := by
  simp [DotDims.lhsIdx, DP, dot_S5000x128_S128x128_S5000x128_1_0_0_1_n_n]; rfl
theorem lhsP_1 (j : S5000x128.Idx) (k : DP.contr.Idx) : (DP.lhsIdx j k 1 : ℕ) = k ⟨0, by decide⟩ := by
  simp [DotDims.lhsIdx, DP, dot_S5000x128_S128x128_S5000x128_1_0_0_1_n_n]; rfl
theorem rhsP_0 (j : S5000x128.Idx) (k : DP.contr.Idx) : (DP.rhsIdx j k 0 : ℕ) = k ⟨0, by decide⟩ := by
  simp [DotDims.rhsIdx, DP, dot_S5000x128_S128x128_S5000x128_1_0_0_1_n_n]; rfl
theorem rhsP_1 (j : S5000x128.Idx) (k : DP.contr.Idx) : (DP.rhsIdx j k 1 : ℕ) = j 1 := by
  simp [DotDims.rhsIdx, DP, dot_S5000x128_S128x128_S5000x128_1_0_0_1_n_n]; rfl

theorem lhsT_0 (j : S128x128.Idx) (k : DT.contr.Idx) : (DT.lhsIdx j k 0 : ℕ) = k ⟨0, by decide⟩ := by
  simp [DotDims.lhsIdx, DT, dot_S5000x128_S5000x128_S128x128_0_0_1_1_n_n]; rfl
theorem lhsT_1 (j : S128x128.Idx) (k : DT.contr.Idx) : (DT.lhsIdx j k 1 : ℕ) = j 0 := by
  simp [DotDims.lhsIdx, DT, dot_S5000x128_S5000x128_S128x128_0_0_1_1_n_n]; rfl
theorem rhsT_0 (j : S128x128.Idx) (k : DT.contr.Idx) : (DT.rhsIdx j k 0 : ℕ) = k ⟨0, by decide⟩ := by
  simp [DotDims.rhsIdx, DT, dot_S5000x128_S5000x128_S128x128_0_0_1_1_n_n]; rfl
theorem rhsT_1 (j : S128x128.Idx) (k : DT.contr.Idx) : (DT.rhsIdx j k 1 : ℕ) = j 1 := by
  simp [DotDims.rhsIdx, DT, dot_S5000x128_S5000x128_S128x128_0_0_1_1_n_n]; rfl

/-- The plain product into the zero block at row p, column q: the sum over the 128 shared coordinates. -/
theorem matmulP_apply {φ₁ φ₂ : FTy} (A : FVec Ideal S5000x128 φ₁) (B : FVec Ideal S128x128 φ₂) (p : Fin 5000) (q : Fin 128) :
    matmul DP none A B (constant S5000x128 .f32 0x00000000#32) (ix2 p q) = ∑ k : Fin 128, A (ix2 p k) * B (ix2 k q) := by
  show FloatOps.matmul DP none A B (constant S5000x128 .f32 0x00000000#32) (ix2 p q) = _
  rw [Ideal.matmul_constant_zero_apply, ← Equiv.sum_comp (contrEquiv1 DP 128 rfl rfl).symm]
  refine Finset.sum_congr rfl fun k _ => ?_
  have ck := contrEquiv1_symm_val DP 128 rfl rfl k
  congr 2
  · apply Shape.idx_ext₂
    · rw [lhsP_0]
    · rw [lhsP_1]; exact ck
  · apply Shape.idx_ext₂
    · rw [rhsP_0]; exact ck
    · rw [rhsP_1]

/-- The product contracted along both operands' rows, into the zero block, at (g, f): the sum over the 5000 rows. -/
theorem matmulT_apply {φ₁ φ₂ : FTy} (A : FVec Ideal S5000x128 φ₁) (B : FVec Ideal S5000x128 φ₂) (g f : Fin 128) :
    matmul DT none A B (constant S128x128 .f32 0x00000000#32) (ix2 g f) = ∑ p : Fin 5000, A (ix2 p g) * B (ix2 p f) := by
  show FloatOps.matmul DT none A B (constant S128x128 .f32 0x00000000#32) (ix2 g f) = _
  rw [Ideal.matmul_constant_zero_apply, ← Equiv.sum_comp (contrEquiv1 DT 5000 rfl rfl).symm]
  refine Finset.sum_congr rfl fun k _ => ?_
  have ck := contrEquiv1_symm_val DT 5000 rfl rfl k
  congr 2
  · apply Shape.idx_ext₂
    · rw [lhsT_0]; exact ck
    · rw [lhsT_1]
  · apply Shape.idx_ext₂
    · rw [rhsT_0]; exact ck
    · rw [rhsT_1]

end Products

/-! ## The point's partial product at an index -/

section Payload

theorem toInt_ofNat_small (g : Fin 128) : (BitVec.ofNat 32 g.val).toInt = (g.val : Int) := by
  have hg := g.isLt
  rw [BitVec.toInt_ofNat']
  apply Int.bmod_eq_of_le <;> omega

/-- The one-hot entry as a word converted to a float: 1 when the row's id, read signed, is the column, else 0. -/
theorem onehot_scalar (x : BitVec 32) (g : Fin 128) :
    (((((IntOp.cmpi .eq x (BitVec.ofNat 32 g.val)).setWidth 32).toInt : ℝ)) : EReal)
      = if x.toInt = (g.val : Int) then 1 else 0 := by
  by_cases h : x = BitVec.ofNat 32 g.val
  · have e1 : IntOp.cmpi .eq x (BitVec.ofNat 32 g.val) = 1#1 := by
      simp only [IntOp.cmpi, h, beq_self_eq_true]; rfl
    have e2 : x.toInt = (g.val : Int) := by rw [h, toInt_ofNat_small]
    rw [e1, if_pos e2]
    norm_num
  · have e1 : IntOp.cmpi .eq x (BitVec.ofNat 32 g.val) = 0#1 := by
      have : (x == BitVec.ofNat 32 g.val) = false := by simpa using h
      simp only [IntOp.cmpi, this]; rfl
    have e2 : ¬ x.toInt = (g.val : Int) := by
      intro e
      apply h
      apply BitVec.eq_of_toInt_eq
      rw [e, toInt_ofNat_small]
    rw [e1, if_neg e2]
    norm_num

variable (h1 : Vec Ideal S5000x128 .bf16) (ag : Vec Ideal S5000x128 .f32) (dg : Vec Ideal S5000x1 .f32)
  (Ws Wn : Vec Ideal S128x128 .f32) (b : Vec Ideal S1x128 .f32) (gid : Vec Ideal S5000x1 .i32)

/-- The second layer's row tile, as the kernel spells it. -/
def h2tile : FVec Ideal S5000x128 .f32 :=
  maximumf
    (addf
      (addf
        (matmul DP none (shapeCast S5000x128 h1 shapeCasts_S5000x128_S5000x128 : FVec Ideal S5000x128 .bf16)
          (truncf .bf16 (Ws : FVec Ideal S128x128 .f32) bitsLt_bf16_f32) (constant S5000x128 .f32 0x00000000#32))
        (matmul DP none
          (truncf .bf16 (mulf (shapeCast S5000x128 ag shapeCasts_S5000x128_S5000x128 : FVec Ideal S5000x128 .f32)
            (broadcastTo S5000x128 (shapeCast S5000x1 dg shapeCasts_S5000x1_S5000x1 : FVec Ideal S5000x1 .f32) broadcasts_S5000x1_S5000x128)) bitsLt_bf16_f32)
          (truncf .bf16 (Wn : FVec Ideal S128x128 .f32) bitsLt_bf16_f32) (constant S5000x128 .f32 0x00000000#32)))
      (broadcastTo S5000x128 (shapeCast S1x128 b shapeCasts_S1x128_S1x128 : FVec Ideal S1x128 .f32) broadcasts_S1x128_S5000x128))
    (broadcast S5000x128 (Scalar.ofBits .f32 0x00000000#32))

/-- The one-hot matrix of the tile's graph ids, as the kernel spells it. -/
def onehot : FVec Ideal S5000x128 .f32 :=
  sitofp .f32 (extui 32 (cmpi .eq
    (broadcastTo S5000x128 (shapeCast S5000x1 gid shapeCasts_S5000x1_S5000x1 : IVec S5000x1 32) broadcasts_S5000x1_S5000x128)
    (iota .tc S5000x128 32 [1] iota_S5000x128_d1_w32)) natLt_1_32)

/-- The point's partial product is the one-hot matrix, transposed, times the row tile. -/
theorem k1_pay3_eq : k1_pay3 (F := Ideal) h1 ag dg Ws Wn b gid
    = matmul DT none (truncf .bf16 (onehot gid) bitsLt_bf16_f32) (truncf .bf16 (h2tile h1 ag dg Ws Wn b) bitsLt_bf16_f32)
        (constant S128x128 .f32 0x00000000#32) := rfl

/-- Row p, feature q of the tile's second layer. -/
def h2At (p : Fin 5000) (q : Fin 128) : EReal :=
  max (((∑ k : Fin 128, h1 (ix2 p k) * Ws (ix2 k q))
      + (∑ k : Fin 128, (ag (ix2 p k) * dg (ix2 p (0 : Fin 1))) * Wn (ix2 k q))) + b (ix2 (0 : Fin 1) q)) 0

theorem h2tile_apply (p : Fin 5000) (q : Fin 128) : h2tile h1 ag dg Ws Wn b (ix2 p q) = h2At h1 ag dg Ws Wn b p q := by
  unfold h2tile h2At
  rw [maximumf_zero_splat_apply, addf_apply, addf_apply, matmulP_apply, matmulP_apply, broadcastTo_1b_ab_apply, shapeCast_self]
  simp only [truncf_apply, mulf_apply, shapeCast_self, broadcastTo_a1_ab_apply]

theorem onehot_apply (p : Fin 5000) (g : Fin 128) :
    onehot gid (ix2 p g) = if (gid (ix2 p (0 : Fin 1))).toInt = (g.val : Int) then 1 else 0 := by
  unfold onehot
  rw [sitofp_apply, extui_apply]
  show ((((IntOp.cmpi .eq _ _).setWidth 32).toInt : ℝ) : EReal) = _
  rw [broadcastTo_a1_ab_apply, shapeCast_self, iota_single_apply]
  exact onehot_scalar _ g

/-- The partial product at (g, f): the tile's rows of graph g, summed. -/
theorem k1_pay3_apply (g f : Fin 128) :
    k1_pay3 (F := Ideal) h1 ag dg Ws Wn b gid (ix2 g f)
      = ∑ p : Fin 5000, if (gid (ix2 p (0 : Fin 1))).toInt = (g.val : Int) then h2At h1 ag dg Ws Wn b p f else 0 := by
  rw [k1_pay3_eq, matmulT_apply]
  refine Finset.sum_congr rfl fun p _ => ?_
  rw [truncf_apply, truncf_apply, onehot_apply, h2tile_apply]
  split
  · exact one_mul _
  · exact zero_mul _

/-- The store's value at an index: what the block held plus the partial product. -/
theorem k1_pay1_apply (a : FVec Ideal S128x128 .f32) (o : Vec Ideal S128x128 .f32) (j : S128x128.Idx) :
    k1_pay1 (F := Ideal) a o j = o j + a j := by
  unfold k1_pay1
  rw [addf_apply, shapeCast_self]

/-- The zero block at an index. -/
theorem k1_pay2_apply (j : S128x128.Idx) : k1_pay2 (F := Ideal) j = 0 := by
  unfold k1_pay2
  rw [broadcast_apply]
  exact Ideal.ofBits_zero_f32

end Payload

variable (V : (c : Dev nD) → (b : Ref sig .tc) → Buf (Elt Ideal) ((c : Thread nD τ).loc b))

/-! ## The arrays the region is entered with, and the blocks its windows read of them -/

section Blocks

/-- The first layer's rows. -/
abbrev harr (c : Dev nD) : Vec Ideal S100000x128 .bf16 := V c main_v22
/-- The neighbour sums. -/
abbrev aarr (c : Dev nD) : Vec Ideal S100000x128 .f32 := V c main_v33
/-- The reciprocal degrees. -/
abbrev darr (c : Dev nD) : Vec Ideal S100000x1 .f32 := V c main_v8
/-- The graph ids. -/
abbrev garr (c : Dev nD) : Vec Ideal S100000x1 .i32 := V c main_v35
/-- The two weight matrices and the bias. -/
abbrev wsarr (c : Dev nD) : Vec Ideal S128x128 .f32 := V c main_arg8
abbrev wnarr (c : Dev nD) : Vec Ideal S128x128 .f32 := V c main_arg9
abbrev barr (c : Dev nD) : Vec Ideal S1x128 .f32 := V c main_v34

abbrev hblk (c : Dev nD) (t : Fin cfg1.N) : Vec Ideal S5000x128 .bf16 := iblk1 V c 0 t
abbrev ablk (c : Dev nD) (t : Fin cfg1.N) : Vec Ideal S5000x128 .f32 := iblk1 V c 1 t
abbrev dblk (c : Dev nD) (t : Fin cfg1.N) : Vec Ideal S5000x1 .f32 := iblk1 V c 2 t
abbrev gblk (c : Dev nD) (t : Fin cfg1.N) : Vec Ideal S5000x1 .i32 := iblk1 V c 3 t
abbrev wsblk (c : Dev nD) (t : Fin cfg1.N) : Vec Ideal S128x128 .f32 := iblk1 V c 4 t
abbrev wnblk (c : Dev nD) (t : Fin cfg1.N) : Vec Ideal S128x128 .f32 := iblk1 V c 5 t
abbrev bblk (c : Dev nD) (t : Fin cfg1.N) : Vec Ideal S1x128 .f32 := iblk1 V c 6 t

/-- The grid has 20 points. -/
theorem t20 (t : Fin cfg1.N) : t.val < 20 := lt_of_lt_of_eq t.isLt (show cfg1.N = 20 from N_1)

/-- Row p of block n is row 5000·n + p of the array. -/
def rowN (n : ℕ) (hn : n < 20) (p : Fin 5000) : Fin 100000 := ⟨5000 * n + p.val, by have := p.isLt; omega⟩

theorem rowN_val (n : ℕ) (hn : n < 20) (p : Fin 5000) : (rowN n hn p).val = 5000 * n + p.val := rfl

abbrev rowAt (t : Fin cfg1.N) (p : Fin 5000) : Fin 100000 := rowN t.val (t20 t) p

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
theorem idx1_3 : ∀ t : Fin cfg1.N, win1_3.index t 0 = t.val ∧ win1_3.index t 1 = 0 :=
  (by decide +kernel : ∀ t : Fin grid1.N, win1_3.index t 0 = t.val ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)

theorem hblk_apply (c : Dev nD) (t : Fin cfg1.N) (p : Fin 5000) (q : Fin 128) :
    hblk V c t (ix2 p q) = harr V c (ix2 (rowAt t p) q) := by
  unfold hblk iblk1
  rw [View.read_apply]
  show V c main_v22 _ = V c main_v22 _
  congr 1
  funext a; apply Fin.ext
  match a with
  | ⟨0, _⟩ => show win1_0.index t 0 * 5000 + 1 * p.val = 5000 * t.val + p.val; rw [(idx1_0 t).1]; omega
  | ⟨1, _⟩ => show win1_0.index t 1 * 128 + 1 * q.val = q.val; rw [(idx1_0 t).2]; omega

theorem ablk_apply (c : Dev nD) (t : Fin cfg1.N) (p : Fin 5000) (q : Fin 128) :
    ablk V c t (ix2 p q) = aarr V c (ix2 (rowAt t p) q) := by
  unfold ablk iblk1
  rw [View.read_apply]
  show V c main_v33 _ = V c main_v33 _
  congr 1
  funext a; apply Fin.ext
  match a with
  | ⟨0, _⟩ => show win1_1.index t 0 * 5000 + 1 * p.val = 5000 * t.val + p.val; rw [(idx1_1 t).1]; omega
  | ⟨1, _⟩ => show win1_1.index t 1 * 128 + 1 * q.val = q.val; rw [(idx1_1 t).2]; omega

theorem dblk_apply (c : Dev nD) (t : Fin cfg1.N) (p : Fin 5000) (u : Fin 1) :
    dblk V c t (ix2 p u) = darr V c (ix2 (rowAt t p) u) := by
  unfold dblk iblk1
  rw [View.read_apply]
  show V c main_v8 _ = V c main_v8 _
  congr 1
  funext a; apply Fin.ext
  match a with
  | ⟨0, _⟩ => show win1_2.index t 0 * 5000 + 1 * p.val = 5000 * t.val + p.val; rw [(idx1_2 t).1]; omega
  | ⟨1, _⟩ => show win1_2.index t 1 * 1 + 1 * u.val = u.val; rw [(idx1_2 t).2]; omega

theorem gblk_apply (c : Dev nD) (t : Fin cfg1.N) (p : Fin 5000) (u : Fin 1) :
    gblk V c t (ix2 p u) = garr V c (ix2 (rowAt t p) u) := by
  unfold gblk iblk1
  rw [View.read_apply]
  show V c main_v35 _ = V c main_v35 _
  congr 1
  funext a; apply Fin.ext
  match a with
  | ⟨0, _⟩ => show win1_3.index t 0 * 5000 + 1 * p.val = 5000 * t.val + p.val; rw [(idx1_3 t).1]; omega
  | ⟨1, _⟩ => show win1_3.index t 1 * 1 + 1 * u.val = u.val; rw [(idx1_3 t).2]; omega

theorem wsblk_apply (c : Dev nD) (t : Fin cfg1.N) (k : Fin 128) (q : Fin 128) :
    wsblk V c t (ix2 k q) = wsarr V c (ix2 k q) := by
  unfold wsblk iblk1
  rw [View.read_apply]
  show V c main_arg8 _ = V c main_arg8 _
  congr 1
  funext a; apply Fin.ext
  match a with
  | ⟨0, _⟩ => show win1_4.index t 0 * 128 + 1 * k.val = k.val; rw [(idx1_4 t).1]; omega
  | ⟨1, _⟩ => show win1_4.index t 1 * 128 + 1 * q.val = q.val; rw [(idx1_4 t).2]; omega

theorem wnblk_apply (c : Dev nD) (t : Fin cfg1.N) (k : Fin 128) (q : Fin 128) :
    wnblk V c t (ix2 k q) = wnarr V c (ix2 k q) := by
  unfold wnblk iblk1
  rw [View.read_apply]
  show V c main_arg9 _ = V c main_arg9 _
  congr 1
  funext a; apply Fin.ext
  match a with
  | ⟨0, _⟩ => show win1_5.index t 0 * 128 + 1 * k.val = k.val; rw [(idx1_5 t).1]; omega
  | ⟨1, _⟩ => show win1_5.index t 1 * 128 + 1 * q.val = q.val; rw [(idx1_5 t).2]; omega

theorem bblk_apply (c : Dev nD) (t : Fin cfg1.N) (u : Fin 1) (q : Fin 128) :
    bblk V c t (ix2 u q) = barr V c (ix2 u q) := by
  unfold bblk iblk1
  rw [View.read_apply]
  show V c main_v34 _ = V c main_v34 _
  congr 1
  funext a; apply Fin.ext
  match a with
  | ⟨0, _⟩ => show win1_6.index t 0 * 1 + 1 * u.val = u.val; rw [(idx1_6 t).1]; omega
  | ⟨1, _⟩ => show win1_6.index t 1 * 128 + 1 * q.val = q.val; rw [(idx1_6 t).2]; omega

end Blocks

/-! ## The accumulator after each point -/

section Invariant

/-- The reference's summand at row r: the second layer's row r at feature f when the row is of graph g, else 0. -/
def term (c : Dev nD) (g f : Fin 128) (r : Fin 100000) : EReal :=
  if (garr V c (ix2 r (0 : Fin 1))).toInt = (g.val : Int) then
    Spec.sageAt (harr V c) (aarr V c) (darr V c) (wsarr V c) (wnarr V c) (Spec.row (barr V c)) r f
  else 0

/-- Block n's share of entry (g, f). -/
def part (c : Dev nD) (n : ℕ) (hn : n < 20) (g f : Fin 128) : EReal := ∑ p : Fin 5000, term V c g f (rowN n hn p)

/-- A point's partial product over its blocks is its block's share. -/
theorem tile_apply (c : Dev nD) (t : Fin cfg1.N) (g f : Fin 128) :
    k1_pay3 (F := Ideal) (hblk V c t) (ablk V c t) (dblk V c t) (wsblk V c t) (wnblk V c t) (bblk V c t) (gblk V c t) (ix2 g f)
      = part V c t.val (t20 t) g f := by
  rw [k1_pay3_apply]
  unfold part term
  refine Finset.sum_congr rfl fun p _ => ?_
  rw [gblk_apply]
  unfold h2At Spec.sageAt
  simp only [hblk_apply, ablk_apply, dblk_apply, wsblk_apply, wnblk_apply, bblk_apply, Spec.row_ix1]

/-- At the first point the block is zeroed, so it leaves the first block's share. -/
theorem outs_first (c : Dev nD) (t : Fin cfg1.N) (h0 : t.val % 20 = 0) (g f : Fin 128) :
    (outsAt1 V c t.val t.isLt : Vec Ideal S128x128 .f32) (ix2 g f) = part V c t.val (t20 t) g f := by
  rw [outsAt1_A V c t h0]
  refine (congrFun (out1_A_7_eq (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) (ms1_7 t) (hs1_7 t) ((hcond1_0 t).mpr h0)
    (iblk1 V c 0 t) (iblk1 V c 1 t) (iblk1 V c 2 t) (iblk1 V c 3 t) (iblk1 V c 4 t) (iblk1 V c 5 t) (iblk1 V c 6 t)) (ix2 g f)).trans ?_
  rw [k1_pay1_apply, k1_pay2_apply, zero_add]
  exact tile_apply V c t g f

/-- At a later point the body adds the point's share to what the point before left. -/
theorem outs_step (c : Dev nD) (t : Fin cfg1.N) (h0 : ¬t.val % 20 = 0) (g f : Fin 128) :
    (outsAt1 V c t.val t.isLt : Vec Ideal S128x128 .f32) (ix2 g f)
      = (outsAt1 V c (t.val - 1) (Nat.lt_of_le_of_lt (Nat.sub_le _ _) t.isLt) : Vec Ideal S128x128 .f32) (ix2 g f)
        + part V c t.val (t20 t) g f := by
  rw [outsAt1_B V c t h0]
  refine (congrFun (out1_B_7_eq (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) (ms1_7 t) (hs1_7 t) (fun h => h0 ((hcond1_0 t).mp h))
    (iblk1 V c 0 t) (iblk1 V c 1 t) (iblk1 V c 2 t) (iblk1 V c 3 t) (iblk1 V c 4 t) (iblk1 V c 5 t) (iblk1 V c 6 t)
    (outsAt1 V c (t.val - 1) (Nat.lt_of_le_of_lt (Nat.sub_le _ _) t.isLt))) (ix2 g f)).trans ?_
  rw [k1_pay1_apply]
  exact congrArg _ (tile_apply V c t g f)

theorem lt20_of (n : ℕ) (hn : n < cfg1.N) (i : Fin (n + 1)) : i.val < 20 := by
  have := i.isLt; have hN : cfg1.N = 20 := N_1; omega

/-- After point n the accumulator holds, at (g, f), the shares of blocks 0 … n. -/
theorem outs_apply (c : Dev nD) : ∀ (n : ℕ) (hn : n < cfg1.N) (g f : Fin 128),
    (outsAt1 V c n hn : Vec Ideal S128x128 .f32) (ix2 g f) = ∑ i : Fin (n + 1), part V c i.val (lt20_of n hn i) g f
  | 0, hn, g, f => by
    refine (outs_first V c ⟨0, hn⟩ rfl g f).trans ?_
    rw [Fin.sum_univ_one]
    rfl
  | n + 1, hn, g, f => by
    have hN : cfg1.N = 20 := N_1
    have hB : ¬(⟨n + 1, hn⟩ : Fin cfg1.N).val % 20 = 0 := by dsimp only; omega
    refine (outs_step V c ⟨n + 1, hn⟩ hB g f).trans ?_
    rw [Fin.sum_univ_castSucc]
    exact congrArg₂ (· + ·) (outs_apply c n (Nat.lt_of_succ_lt hn) g f) rfl

end Invariant

/-! ## The one write-back, and the sum over all rows -/

section Final

/-- The last point. -/
abbrev t19 : Fin cfg1.N := ⟨19, by rw [show cfg1.N = 20 from N_1]; decide⟩

/-- What the accumulator holds after the last point, as contents of the output array (its one block is the array). -/
abbrev result (c : Dev nD) : Buf (Elt Ideal) ((c : Thread nD τ).loc main_v36) := outsAt1 V c 19 t19.isLt

/-- The one write-back, at point 19, writes it: block (0, 0) of the [128,128] array read through zero offsets is the array. -/
theorem flushed_eq (c : Dev nD) (t : Fin cfg1.N) (hf : (cfg1.win 7).flush t = true) :
    (dat1 V c).flushed 7 t = ((cfg1.win 7).blk t).view.read (Elt Ideal) (result V c) := by
  have hN : cfg1.N = 20 := N_1
  have h19 : t.val = 19 := by have := (flush1_7 t).mp hf; have := t.isLt; omega
  obtain rfl : t = t19 := Fin.ext h19
  show (cfg1.win 7).cut (grid1.coords t19) ((dat1 V c).after 7 t19) = _
  rw [after1_7]
  have hz' : (fun a => win1_7.index t19 a * main_v36.ty.shape.size a) = fun _ => 0 := funext fun a => by fin_cases a <;> decide +kernel
  exact (Memref.read_access_unit_zero (Elt Ideal) main_v36 hz' (fun a => by rw [congrFun hz' a]; simp) (result V c)).symm

/-- So the output array ends holding what the accumulator held after point 19. -/
theorem final_o (c : Dev nD) : (dat1 V c).arrAt 7 cfg1.N = result V c :=
  (dat1 V c).arrAt_eq_of_cover 7 (result V c) (flushed_eq V c) fun i =>
    ⟨t19, (flush1_7 t19).mpr rfl, by
      show i ∈ ((View.whole main_v36).slice (win1_7.rect t19)).set
      rw [View.set_slice_whole, Rect.mem_set_unit]
      intro a
      have h0 : (i 0 : Nat) < 128 := (i 0).isLt
      have h1 : (i 1 : Nat) < 128 := (i 1).isLt
      match a with
      | ⟨0, _⟩ => show win1_7.index t19 0 * win1_7.size 0 ≤ (i 0 : Nat) ∧ (i 0 : Nat) < win1_7.index t19 0 * win1_7.size 0 + win1_7.xsize (grid1.coords t19) 0
                  rw [show win1_7.index t19 0 * win1_7.size 0 = 0 from by decide +kernel, show win1_7.xsize (grid1.coords t19) 0 = 128 from by decide +kernel]; omega
      | ⟨1, _⟩ => show win1_7.index t19 1 * win1_7.size 1 ≤ (i 1 : Nat) ∧ (i 1 : Nat) < win1_7.index t19 1 * win1_7.size 1 + win1_7.xsize (grid1.coords t19) 1
                  rw [show win1_7.index t19 1 * win1_7.size 1 = 0 from by decide +kernel, show win1_7.xsize (grid1.coords t19) 1 = 128 from by decide +kernel]; omega⟩

/-- The 20 blocks of 5000 rows are the 100000 rows: row 5000·i + p is row p of block i. -/
theorem sum_blocks (G : Fin 100000 → EReal) :
    ∑ i : Fin 20, ∑ p : Fin 5000, G (rowN i.val i.isLt p) = ∑ r : Fin 100000, G r := by
  rw [← Fintype.sum_prod_type', ← Equiv.sum_comp (finProdFinEquiv (m := 20) (n := 5000)) G]
  refine Finset.sum_congr rfl fun x _ => congrArg G (Fin.ext ?_)
  show 5000 * x.1.val + x.2.val = x.2.val + 5000 * x.1.val
  omega

end Final

end R1

open R1

variable (V : (c : Dev nD) → (b : Ref sig .tc) → Buf (Elt Ideal) ((c : Thread nD τ).loc b))

/-- Region 1's output array after its 20 points is the readout of the second graph layer of the arrays it was entered with. -/
theorem reg1_arr (c : Dev nD) :
    ((dat1 (F := Ideal) V c).arrAt 7 cfg1.N : S128x128.Idx → EReal)
      = Spec.readout (Spec.col (V c main_v35))
          (Spec.sage (V c main_v22) (V c main_v33) (V c main_v8) (V c main_arg8) (V c main_arg9) (Spec.row (V c main_v34))) := by
  refine (final_o V c).trans ?_
  funext j
  obtain ⟨g, f, rfl⟩ : ∃ (g : Fin 128) (f : Fin 128), j = ix2 g f := ⟨j 0, j 1, eq_ix2 j⟩
  rw [Spec.readout_ix2]
  refine (outs_apply V c 19 t19.isLt g f).trans ?_
  unfold Spec.readoutAt
  refine (sum_blocks (term V c g f)).trans ?_
  refine Finset.sum_congr rfl fun r _ => ?_
  unfold term
  rw [Spec.col_ix1, Spec.sage_ix2]

end Cert.KernelIdeal.Val

end
-- ==== Proof.KReg2.lean ====
/-
  The head's region: one point, whole arrays; what it leaves is the head of the specification.

  First the stored vector at a graph `g`: three dense layers (a plain product into the zero splat, the bias row
  broadcast over the rows), the first two followed by `max · 0`, then the scalar tail `-log σ` of the logit. Then
  the array: at the one point every window's block is its whole array, so what the point writes back is the head
  of the entry arrays, and its block covers the output.
-/
import proofs.«418824_j4922032521409_2_alg».proof.Proof.Gen.KernelIdeal.Frame
import proofs.«418824_j4922032521409_2_alg».proof.Proof.Spec
import proofs.«418824_j4922032521409_2_alg».proof.Proof.LibIdealAtIndex
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

namespace R2

/-- A plain product into the zero splat, read at an index: the sum over the contracted coordinate. -/
theorem matmul_plain_zero_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  subst hd
  simp only [matmul]
  rw [Ideal.matmul_constant_zero_apply, ← StackMember.dotGeneral_plain_apply prec A B a b]
  show _ = FloatOps.dotGeneral _ prec _ A B (ix2 a b)
  rw [Ideal.dotGeneral_apply]

theorem dot1_eq : dot_S128x132_S132x512_S128x512_1_0_0_1_n_n = DotDims.plain 128 132 512 := rfl
theorem dot2_eq : dot_S128x512_S512x512_S128x512_1_0_0_1_n_n = DotDims.plain 128 512 512 := rfl
theorem dot3_eq : dot_S128x512_S512x1_S128x1_1_0_0_1_n_n = DotDims.plain 128 512 1 := rfl

/-- A dense layer before its activation, as the vector operations spell it (operands narrowed, a plain product into
    the zero splat, the one bias row broadcast over the rows), read at an index: the specification's. -/
theorem dense_vec_apply {M K N : Nat} (d : DotDims ⟨2, ![M, K]⟩ ⟨2, ![K, N]⟩ ⟨2, ![M, N]⟩) (hd : d = DotDims.plain M K N)
    (x : FVec Ideal ⟨2, ![M, K]⟩ .f32) (W : FVec Ideal ⟨2, ![K, N]⟩ .f32) (b : FVec Ideal ⟨2, ![1, N]⟩ .f32)
    (hx hW : FTy.bf16.bits < FTy.f32.bits)
    (hsc : (⟨2, ![1, N]⟩ : Shape).ShapeCasts ⟨2, ![1, N]⟩) (hbc : (⟨2, ![1, N]⟩ : Shape).Broadcasts ⟨2, ![M, N]⟩)
    (p : Fin M) (q : Fin N) :
    addf (matmul d none (truncf .bf16 x hx) (truncf .bf16 W hW) (constant ⟨2, ![M, N]⟩ .f32 0x00000000#32))
        (broadcastTo ⟨2, ![M, N]⟩ (shapeCast ⟨2, ![1, N]⟩ b hsc) hbc) (ix2 p q)
      = Spec.denseAt x W (Spec.row b) p q := by
  rw [addf_apply, matmul_plain_zero_apply d hd, shapeCast_self, broadcastTo_1b_ab_apply]
  rfl

/-- The same followed by the maximum with the zero splat, as a whole matrix. -/
theorem dense_relu_vec {M K N : Nat} (d : DotDims ⟨2, ![M, K]⟩ ⟨2, ![K, N]⟩ ⟨2, ![M, N]⟩) (hd : d = DotDims.plain M K N)
    (x : FVec Ideal ⟨2, ![M, K]⟩ .f32) (W : FVec Ideal ⟨2, ![K, N]⟩ .f32) (b : FVec Ideal ⟨2, ![1, N]⟩ .f32)
    (hx hW : FTy.bf16.bits < FTy.f32.bits)
    (hsc : (⟨2, ![1, N]⟩ : Shape).ShapeCasts ⟨2, ![1, N]⟩) (hbc : (⟨2, ![1, N]⟩ : Shape).Broadcasts ⟨2, ![M, N]⟩) :
    maximumf (addf (matmul d none (truncf .bf16 x hx) (truncf .bf16 W hW) (constant ⟨2, ![M, N]⟩ .f32 0x00000000#32))
        (broadcastTo ⟨2, ![M, N]⟩ (shapeCast ⟨2, ![1, N]⟩ b hsc) hbc)) (broadcast ⟨2, ![M, N]⟩ (Scalar.ofBits .f32 0x00000000#32))
      = Spec.denseRelu x W (Spec.row b) := by
  funext i
  obtain ⟨p, q, rfl⟩ : ∃ (p : Fin M) (q : Fin N), i = ix2 p q := ⟨i 0, i 1, eq_ix2 i⟩
  rw [maximumf_zero_splat_apply, dense_vec_apply d hd, Spec.denseRelu_ix2]

/-- The kernel's negated logit at graph `g`: minus the third dense layer of the two activated ones. -/
theorem k2_pay2_apply (x0 : Vec Ideal S128x132 .f32) (x1 : Vec Ideal S132x512 .f32) (x2 : Vec Ideal S1x512 .f32)
    (x3 : Vec Ideal S512x512 .f32) (x4 : Vec Ideal S1x512 .f32) (x5 : Vec Ideal S512x1 .f32) (x6 : Vec Ideal S1x1 .f32) (g : Fin 128) :
    k2_pay2 x0 x1 x2 x3 x4 x5 x6 (ix2 g (0 : Fin 1))
      = -(Spec.denseAt (Spec.denseRelu (Spec.denseRelu x0 x1 (Spec.row x2)) x3 (Spec.row x4)) x5 (Spec.row x6) g (0 : Fin 1)) := by
  unfold k2_pay2
  simp only [shapeCast_self x0]
  rw [dense_relu_vec _ dot1_eq, dense_relu_vec _ dot2_eq, subf_apply, broadcast_apply, dense_vec_apply _ dot3_eq]
  show Ideal.ofBits .f32 0x00000000#32 - _ = _
  rw [Ideal.ofBits_zero_f32, zero_sub]

section Elementwise
variable {s : Shape} {φ : FTy}
/-- An absolute value at an index is the larger of the element and its negation … -/
theorem absf_apply (a : FVec Ideal s φ) (i : s.Idx) : absf a i = max (a i) (-(a i)) := rfl
/-- … an exponential the extended reals' … -/
theorem exp_apply (a : FVec Ideal s φ) (i : s.Idx) : exp a i = Ideal.exp (a i) := rfl
/-- … and `log (1 + ·)` the extended reals'. -/
theorem log1p_apply (a : FVec Ideal s φ) (i : s.Idx) : log1p a i = Ideal.log1p (a i) := rfl
end Elementwise

/-- No extended real differs from itself. -/
theorem cmp_one_self (a : EReal) : Ideal.cmp .one a a = 0#1 := by
  simp [Ideal.cmp]

/-- The scalar tail of the head on `a = -z`: the branch on `a ≠ a` is never taken, `0 - ·` negates, `· - 0` and
    `· + 0` do nothing. -/
theorem nls_tail (z : EReal) :
    (0 : EReal) - (0 - Scalar.select (Ideal.cmp .one (-z - 0) (-z - 0)) (-z + 0)
        (max (-z) 0 + Ideal.log1p (Ideal.exp (0 - max (-z - 0) (-(-z - 0)))))) = Spec.nls z := by
  rw [cmp_one_self, select_zero]
  unfold Spec.nls
  simp only [zero_sub, sub_zero, neg_neg]

/-- The f32 zero word is the extended real `0`. -/
theorem ofBits_zero : (FloatOps.ofBits .f32 0x00000000#32 : Ideal .f32) = 0 := Ideal.ofBits_zero_f32

/-- The kernel's stored value at graph `g`: the head of the specification there. -/
theorem k2_pay1_apply (x0 : Vec Ideal S128x132 .f32) (x1 : Vec Ideal S132x512 .f32) (x2 : Vec Ideal S1x512 .f32)
    (x3 : Vec Ideal S512x512 .f32) (x4 : Vec Ideal S1x512 .f32) (x5 : Vec Ideal S512x1 .f32) (x6 : Vec Ideal S1x1 .f32) (g : Fin 128) :
    k2_pay1 (k2_pay2 x0 x1 x2 x3 x4 x5 x6) (k2_pay3 x0 x1 x2 x3 x4 x5 x6) (k2_pay4 x0 x1 x2 x3 x4 x5 x6)
        (k2_pay5 x0 x1 x2 x3 x4 x5 x6) (k2_pay6 (F := Ideal)) (ix2 g (0 : Fin 1))
      = Spec.headAt x0 x1 (Spec.row x2) x3 (Spec.row x4) x5 (Spec.row x6) g := by
  unfold k2_pay1 k2_pay3 k2_pay5 k2_pay4 k2_pay6
  simp only [subf_apply, addf_apply, broadcast_apply, select_apply, cmpf_apply, maximumf_apply, absf_apply, exp_apply, log1p_apply,
    k2_pay2_apply, Scalar.ofBits, ofBits_zero, Ideal.ofBits_zero_f32]
  unfold Spec.headAt
  generalize Spec.denseAt (Spec.denseRelu (Spec.denseRelu x0 x1 (Spec.row x2)) x3 (Spec.row x4)) x5 (Spec.row x6) g (0 : Fin 1) = z
  exact nls_tail z

/-! ## From the one point's block to the array -/

variable (V : (c : Dev nD) → (b : Ref sig .tc) → Buf (Elt Ideal) ((c : Thread nD τ).loc b))

theorem off_zero2 : (![0, 0] : Fin 2 → Nat) = fun _ => 0 := funext fun a => by fin_cases a <;> rfl

/-- At the region's one point every window's block index is zero on both axes: each block is its whole array. -/
theorem index_zero2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Window 0's block is the array `main_v37`. -/
theorem iblk2_0_eq (c : Dev nD) (t : Fin cfg2.N) : iblk2 V c 0 t = V c main_v37 := by
  funext y
  show V c main_v37 (((cfg2.win 0).blk t).view.emb y) = V c main_v37 y
  refine congrArg (V c main_v37) (funext fun a => Fin.ext ?_)
  obtain ⟨e0, e1, -, -, -, -, -, -, -, -, -, -, -, -, -, -⟩ := index_zero2 t
  match a with
  | ⟨0, _⟩ => show win2_0.index t (0 : Fin 2) * 128 + 1 * (y 0).val = (y 0).val; omega
  | ⟨1, _⟩ => show win2_0.index t (1 : Fin 2) * 132 + 1 * (y 1).val = (y 1).val; omega

/-- Window 1's block is the array `main_arg11`. -/
theorem iblk2_1_eq (c : Dev nD) (t : Fin cfg2.N) : iblk2 V c 1 t = V c main_arg11 := by
  funext y
  show V c main_arg11 (((cfg2.win 1).blk t).view.emb y) = V c main_arg11 y
  refine congrArg (V c main_arg11) (funext fun a => Fin.ext ?_)
  obtain ⟨-, -, e0, e1, -, -, -, -, -, -, -, -, -, -, -, -⟩ := index_zero2 t
  match a with
  | ⟨0, _⟩ => show win2_1.index t (0 : Fin 2) * 132 + 1 * (y 0).val = (y 0).val; omega
  | ⟨1, _⟩ => show win2_1.index t (1 : Fin 2) * 512 + 1 * (y 1).val = (y 1).val; omega

/-- Window 2's block is the array `main_v38`. -/
theorem iblk2_2_eq (c : Dev nD) (t : Fin cfg2.N) : iblk2 V c 2 t = V c main_v38 := by
  funext y
  show V c main_v38 (((cfg2.win 2).blk t).view.emb y) = V c main_v38 y
  refine congrArg (V c main_v38) (funext fun a => Fin.ext ?_)
  obtain ⟨-, -, -, -, e0, e1, -, -, -, -, -, -, -, -, -, -⟩ := index_zero2 t
  match a with
  | ⟨0, _⟩ => show win2_2.index t (0 : Fin 2) * 1 + 1 * (y 0).val = (y 0).val; omega
  | ⟨1, _⟩ => show win2_2.index t (1 : Fin 2) * 512 + 1 * (y 1).val = (y 1).val; omega

/-- Window 3's block is the array `main_arg13`. -/
theorem iblk2_3_eq (c : Dev nD) (t : Fin cfg2.N) : iblk2 V c 3 t = V c main_arg13 := by
  funext y
  show V c main_arg13 (((cfg2.win 3).blk t).view.emb y) = V c main_arg13 y
  refine congrArg (V c main_arg13) (funext fun a => Fin.ext ?_)
  obtain ⟨-, -, -, -, -, -, e0, e1, -, -, -, -, -, -, -, -⟩ := index_zero2 t
  match a with
  | ⟨0, _⟩ => show win2_3.index t (0 : Fin 2) * 512 + 1 * (y 0).val = (y 0).val; omega
  | ⟨1, _⟩ => show win2_3.index t (1 : Fin 2) * 512 + 1 * (y 1).val = (y 1).val; omega

/-- Window 4's block is the array `main_v39`. -/
theorem iblk2_4_eq (c : Dev nD) (t : Fin cfg2.N) : iblk2 V c 4 t = V c main_v39 := by
  funext y
  show V c main_v39 (((cfg2.win 4).blk t).view.emb y) = V c main_v39 y
  refine congrArg (V c main_v39) (funext fun a => Fin.ext ?_)
  obtain ⟨-, -, -, -, -, -, -, -, e0, e1, -, -, -, -, -, -⟩ := index_zero2 t
  match a with
  | ⟨0, _⟩ => show win2_4.index t (0 : Fin 2) * 1 + 1 * (y 0).val = (y 0).val; omega
  | ⟨1, _⟩ => show win2_4.index t (1 : Fin 2) * 512 + 1 * (y 1).val = (y 1).val; omega

/-- Window 5's block is the array `main_arg15`. -/
theorem iblk2_5_eq (c : Dev nD) (t : Fin cfg2.N) : iblk2 V c 5 t = V c main_arg15 := by
  funext y
  show V c main_arg15 (((cfg2.win 5).blk t).view.emb y) = V c main_arg15 y
  refine congrArg (V c main_arg15) (funext fun a => Fin.ext ?_)
  obtain ⟨-, -, -, -, -, -, -, -, -, -, e0, e1, -, -, -, -⟩ := index_zero2 t
  match a with
  | ⟨0, _⟩ => show win2_5.index t (0 : Fin 2) * 512 + 1 * (y 0).val = (y 0).val; omega
  | ⟨1, _⟩ => show win2_5.index t (1 : Fin 2) * 1 + 1 * (y 1).val = (y 1).val; omega

/-- Window 6's block is the array `main_v40`. -/
theorem iblk2_6_eq (c : Dev nD) (t : Fin cfg2.N) : iblk2 V c 6 t = V c main_v40 := by
  funext y
  show V c main_v40 (((cfg2.win 6).blk t).view.emb y) = V c main_v40 y
  refine congrArg (V c main_v40) (funext fun a => Fin.ext ?_)
  obtain ⟨-, -, -, -, -, -, -, -, -, -, -, -, e0, e1, -, -⟩ := index_zero2 t
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- The stored vector, whole: the head of the specification of the loaded arrays. -/
theorem payload_eq (x0 : Vec Ideal S128x132 .f32) (x1 : Vec Ideal S132x512 .f32) (x2 : Vec Ideal S1x512 .f32)
    (x3 : Vec Ideal S512x512 .f32) (x4 : Vec Ideal S1x512 .f32) (x5 : Vec Ideal S512x1 .f32) (x6 : Vec Ideal S1x1 .f32) :
    k2_pay1 (k2_pay2 x0 x1 x2 x3 x4 x5 x6) (k2_pay3 x0 x1 x2 x3 x4 x5 x6) (k2_pay4 x0 x1 x2 x3 x4 x5 x6)
        (k2_pay5 x0 x1 x2 x3 x4 x5 x6) (k2_pay6 (F := Ideal))
      = Spec.head x0 x1 (Spec.row x2) x3 (Spec.row x4) x5 (Spec.row x6) := by
  funext i
  obtain ⟨g, u, rfl⟩ : ∃ (g : Fin 128) (u : Fin 1), i = ix2 g u := ⟨i 0, i 1, eq_ix2 i⟩
  obtain rfl : u = 0 := Subsingleton.elim _ _
  rw [k2_pay1_apply, Spec.head_ix2]

/-- What the output window's write-back takes of a staging buffer holding `G` is `G` read through the window's
    block, the whole array: at the one point the block sits at offset zero. -/
theorem cut7_eq_read (t : Fin cfg2.N) (G : S128x1.Idx → EReal) :
    (cfg2.win 7).cut (grid2.coords t) G = ((cfg2.win 7).blk t).view.read (Elt Ideal) G := by
  funext j
  show G ((cfg2.win 7).xinj (grid2.coords t) j) = G (((cfg2.win 7).blk t).view.emb j)
  refine congrArg G (funext fun a => Fin.ext ?_)
  obtain ⟨-, -, -, -, -, -, -, -, -, -, -, -, -, -, e0, e1⟩ := index_zero2 t
  match a with
  | ⟨0, _⟩ => show (j 0).val = win2_7.index t (0 : Fin 2) * 128 + 1 * (j 0).val; omega
  | ⟨1, _⟩ => show (j 1).val = win2_7.index t (1 : Fin 2) * 1 + 1 * (j 1).val; omega

/-- What the one point writes back is the block of the specification's head of the entry arrays. -/
theorem flushed7_eq (c : Dev nD) (t : Fin cfg2.N) :
    (dat2 V c).flushed 7 t = ((cfg2.win 7).blk t).view.read (Elt Ideal)
      (Spec.head (V c main_v37) (V c main_arg11) (Spec.row (V c main_v38)) (V c main_arg13) (Spec.row (V c main_v39))
        (V c main_arg15) (Spec.row (V c main_v40))) := by
  show (cfg2.win 7).cut (grid2.coords t) ((dat2 V c).after 7 t) = _
  rw [after2_7]
  unfold out2_7
  rw [View.canon_unit_zero off_zero2]
  simp only [View.ld_unit_zero (S := S128x132) off_zero2, View.ld_unit_zero (S := S132x512) off_zero2,
    View.ld_unit_zero (S := S1x512) off_zero2, View.ld_unit_zero (S := S512x512) off_zero2,
    View.ld_unit_zero (S := S512x1) off_zero2, View.ld_unit_zero (S := S1x1) off_zero2]
  rw [iblk2_0_eq, iblk2_1_eq, iblk2_2_eq, iblk2_3_eq, iblk2_4_eq, iblk2_5_eq, iblk2_6_eq, payload_eq]
  exact cut7_eq_read t _

/-- An index of the output array is in the point's block iff each coordinate is in the block's range on its axis. -/
theorem mem_blk7 (t : Fin cfg2.N) (i : S128x1.Idx) :
    i ∈ ((cfg2.win 7).blk t).view.set ↔ ∀ a : Fin 2, win2_7.index t a * S128x1.size a ≤ (i a).val ∧ (i a).val < win2_7.index t a * S128x1.size a + S128x1.size a := by
  show i ∈ ((View.whole main_v41).slice (win2_7.rect t)).set ↔ _
  rw [View.set_slice_whole, Rect.mem_set_unit]
  exact Iff.rfl

/-- The one point's block covers the output array. -/
theorem cover7 (i : S128x1.Idx) : ∃ t : Fin cfg2.N, (cfg2.win 7).flush t = true ∧ i ∈ ((cfg2.win 7).blk t).view.set := by
  refine ⟨t2_0, flush2_7 t2_0, ?_⟩
  rw [mem_blk7]
  obtain ⟨-, -, -, -, -, -, -, -, -, -, -, -, -, -, e0, e1⟩ := index_zero2 t2_0
  have h0 : (i 0).val < 128 := (i 0).isLt
  have h1 : (i 1).val < 1 := (i 1).isLt
  intro a
  match a with
  | ⟨0, _⟩ => show win2_7.index t2_0 (0 : Fin 2) * 128 ≤ (i 0).val ∧ (i 0).val < win2_7.index t2_0 (0 : Fin 2) * 128 + 128; omega
  | ⟨1, _⟩ => show win2_7.index t2_0 (1 : Fin 2) * 1 ≤ (i 1).val ∧ (i 1).val < win2_7.index t2_0 (1 : Fin 2) * 1 + 1; omega

end R2

open R2

variable (V : (c : Dev nD) → (b : Ref sig .tc) → Buf (Elt Ideal) ((c : Thread nD τ).loc b))

/-- Region 2's output array after its one point is the head of the arrays it was entered with. -/
theorem reg2_arr (c : Dev nD) :
    ((dat2 (F := Ideal) V c).arrAt 7 cfg2.N : S128x1.Idx → EReal)
      = Spec.head (V c main_v37) (V c main_arg11) (Spec.row (V c main_v38)) (V c main_arg13) (Spec.row (V c main_v39))
          (V c main_arg15) (Spec.row (V c main_v40)) :=
  (dat2 V c).arrAt_eq_of_cover 7 _ (fun t _ => flushed7_eq V c t) cover7

end Cert.KernelIdeal.Val

end
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KValue.lean ====
/-
  The kernel program's result as one function of its arguments.  The result buffer ends at what the head's region
  wrote; that region read the readout (what the second layer's region accumulated) beside the static features; the second
  region read the first layer's output (what the first region wrote, also gathered along the edges in between) — each
  region's array is the specification's function of the arrays the region found, and the host stretches between them are
  the neighbour sums, the reciprocal degree and changes of shape.  A bias stood up as a one-row matrix reads back as the
  bias, the graph ids stood up as a column read back as the ids.
-/
import proofs.«418824_j4922032521409_2_alg».proof.Proof.KRun
import proofs.«418824_j4922032521409_2_alg».proof.Proof.KHost
import proofs.«418824_j4922032521409_2_alg».proof.Proof.KReg0
import proofs.«418824_j4922032521409_2_alg».proof.Proof.KReg1
import proofs.«418824_j4922032521409_2_alg».proof.Proof.KReg2
import proofs.«418824_j4922032521409_2_alg».proof.Proof.Chain
import proofs.«418824_j4922032521409_2_alg».proof.Proof.LibColumnCast
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- A vector laid as the one row of a matrix reads back as the vector. -/
theorem row_shapeCast {n : Nat} (b : (⟨1, ![n]⟩ : Shape).Idx → EReal) (h : (⟨1, ![n]⟩ : Shape).ShapeCasts ⟨2, ![1, n]⟩) :
    Spec.row (shapeCast ⟨2, ![1, n]⟩ b h) = b := by
  funext j
  obtain ⟨f, rfl⟩ : ∃ f : Fin n, j = ix1 f := ⟨j 0, eq_ix1 j⟩
  rw [Spec.row_ix1]
  exact shapeCast_a_1a_apply b h 0 f

/-- A vector of words stood up as a column reads back as the vector. -/
theorem col_shapeCast {n w : Nat} (g : (⟨1, ![n]⟩ : Shape).Idx → BitVec w) (h : (⟨1, ![n]⟩ : Shape).ShapeCasts ⟨2, ![n, 1]⟩) :
    Spec.col (shapeCast ⟨2, ![n, 1]⟩ g h) = g := by
  funext j
  obtain ⟨r, rfl⟩ : ∃ r : Fin n, j = ix1 r := ⟨j 0, eq_ix1 j⟩
  rw [Spec.col_ix1]
  exact shapeCast_a_a1_apply g h r 0

variable (m : (ℓ : Loc nD τ sig) → Buf (Elt Ideal) ℓ) (ρ : Dev nD → PrngReg) (c : Dev nD)

/-- What the first region leaves in its output array: the first layer. -/
theorem W2_v22 : (W2 m ρ c (Proc.devRef .tc main_v22) : S100000x128.Idx → EReal)
    = Chain.h1 (m ((c : Thread nD τ).loc main_arg0)) (m ((c : Thread nD τ).loc main_arg2)) (m ((c : Thread nD τ).loc main_arg3))
        (m ((c : Thread nD τ).loc main_arg5)) (m ((c : Thread nD τ).loc main_arg6)) (m ((c : Thread nD τ).loc main_arg7)) := by
  refine (W2_arr m ρ c 6).trans ((reg0_arr (V1 m ρ) c).trans ?_)
  rw [show V1 m ρ c main_arg0 = _ from V1_arg0 m ρ c, show V1 m ρ c main_v20 = _ from V1_v20 m ρ c,
    show V1 m ρ c main_v8 = _ from V1_v8 m ρ c, show V1 m ρ c main_arg5 = _ from V1_arg5 m ρ c,
    show V1 m ρ c main_arg6 = _ from V1_arg6 m ρ c, show V1 m ρ c main_v21 = _ from V1_v21 m ρ c]
  rw [row_shapeCast]
  rfl

/-- What the second region leaves in its output array: the readout of the second layer. -/
theorem W4_v36 : (W4 m ρ c (Proc.devRef .tc main_v36) : S128x128.Idx → EReal)
    = Spec.readout (m ((c : Thread nD τ).loc main_arg4))
        (Chain.h2 (m ((c : Thread nD τ).loc main_arg0)) (m ((c : Thread nD τ).loc main_arg2)) (m ((c : Thread nD τ).loc main_arg3))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))) := by
  refine (W4_arr m ρ c 7).trans ((reg1_arr (V3 m ρ) c).trans ?_)
  rw [show V3 m ρ c main_v35 = _ from V3_v35 m ρ c, show V3 m ρ c main_v22 = _ from V3_v22 m ρ c,
    show V3 m ρ c main_v33 = _ from V3_v33 m ρ c, show V3 m ρ c main_v8 = _ from V3_v8 m ρ c,
    show V3 m ρ c main_arg8 = _ from V3_arg8 m ρ c, show V3 m ρ c main_arg9 = _ from V3_arg9 m ρ c,
    show V3 m ρ c main_v34 = _ from V3_v34 m ρ c]
  rw [row_shapeCast, col_shapeCast, W2_v22]
  rfl

/-- What the head's region leaves in the result buffer: the whole computation. -/
theorem W6_v41 : (W6 m ρ c (Proc.devRef .tc main_v41) : S128x1.Idx → EReal)
    = Chain.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) := by
  refine (W6_arr m ρ c 7).trans ((reg2_arr (V5 m ρ) c).trans ?_)
  rw [show V5 m ρ c main_v37 = _ from V5_v37 m ρ c, show V5 m ρ c main_arg11 = _ from V5_arg11 m ρ c,
    show V5 m ρ c main_v38 = _ from V5_v38 m ρ c, show V5 m ρ c main_arg13 = _ from V5_arg13 m ρ c,
    show V5 m ρ c main_v39 = _ from V5_v39 m ρ c, show V5 m ρ c main_arg15 = _ from V5_arg15 m ρ c,
    show V5 m ρ c main_v40 = _ from V5_v40 m ρ c]
  rw [row_shapeCast, row_shapeCast, row_shapeCast, W4_v36]
  rfl

end Cert.KernelIdeal.Val

end
-- ==== Proof.RTerm.lean ====
/-
  The reference's @main as ONE term of its argument arrays: its host operations composed, stage by stage — the
  reciprocal clamped in-degree `inv`, the wrapped source ids `srcIdx`, the neighbour sums `agg44` / `agg128`, a graph
  layer `layer44` / `layer128` (two products with the weights, the bias, `max · 0`), the per-graph sum `gnn`, the head's
  three dense layers and `-log σ` spelt through `softplus`.
-/
import proofs.«418824_j4922032521409_2_alg».proof.ReferenceIdeal

noncomputable section

namespace Cert.ReferenceIdeal.RTerm

open Idealize.ShloMosaic Cert.ReferenceIdeal

variable {F : FTy → Type} [FloatOps F] [Facts]
open Facts₀ Facts

/-- The f32 zero splat over a shape. -/
abbrev zeros (s : Shape) (h : S_.BroadcastsInDim s (![] : Fin 0 → Fin s.rank)) : FVec F s .f32 :=
  broadcastInDim s ![] h (constant S_ .f32 0x00000000#32)

def inv (dst : IVec S1600000 32) : FVec F S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def agg44 (x : FVec F S100000x44 .f32) (src dst : IVec S1600000 32) : FVec F S100000x44 .f32 :=
  Host.scatterAdd scatter_S100000x44_S1600000x1_S1600000x44_1_0_0_1
    (broadcastInDim S100000x44 ![] bcast_S_S100000x44 (constant S_ .f32 0x00000000#32))
    (broadcastInDim S1600000x1 ![0] bcast_S1600000_S1600000x1_0 dst)
    (Host.gather gather_S100000x44_S1600000x1_S1600000x44_1_0_n_n_0_1_144 x (srcIdx src))

def agg128 (h : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (srcIdx src))

/-- A graph layer over 44 input features. -/
def layer44 (h agg : FVec F S100000x44 .f32) (iv : FVec F S100000x1 .f32) (Ws Wn : FVec F S44x128 .f32) (b : FVec F S128 .f32) :
    FVec F S100000x128 .f32 :=
  maximumf
    (addf
      (addf (Host.dotGeneral dot_S100000x44_S44x128_S100000x128_1_0_0_1_n_n none h Ws)
        (Host.dotGeneral dot_S100000x44_S44x128_S100000x128_1_0_0_1_n_n none
          (mulf agg (broadcastInDim S100000x44 ![0, 1] bcast_S100000x1_S100000x44_0_1 iv)) Wn))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- A graph layer over 128 input features. -/
def layer128 (h agg : FVec F S100000x128 .f32) (iv : FVec F S100000x1 .f32) (Ws Wn : FVec F S128x128 .f32) (b : FVec F S128 .f32) :
    FVec F S100000x128 .f32 :=
  maximumf
    (addf
      (addf (Host.dotGeneral dot_S100000x128_S128x128_S100000x128_1_0_0_1_n_n none h Ws)
        (Host.dotGeneral dot_S100000x128_S128x128_S100000x128_1_0_0_1_n_n none
          (mulf agg (broadcastInDim S100000x128 ![0, 1] bcast_S100000x1_S100000x128_0_1 iv)) Wn))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The per-graph sum of the rows. -/
def gnn (gid : IVec S100000 32) (h : FVec F S100000x128 .f32) : FVec F S128x128 .f32 :=
  Host.scatterAdd scatter_S128x128_S100000x1_S100000x128_1_0_0_1
    (broadcastInDim S128x128 ![] bcast_S_S128x128 (constant S_ .f32 0x00000000#32))
    (broadcastInDim S100000x1 ![0] bcast_S100000_S100000x1_0 gid) h

/-- `softplus` as jax spells it. -/
def softplus (a : FVec F S128x1 .f32) : FVec F S128x1 .f32 :=
  select (cmpf .une (subf a (broadcastInDim S128x1 ![] bcast_S_S128x1 (constant S_ .f32 0x00000000#32)))
      (subf a (broadcastInDim S128x1 ![] bcast_S_S128x1 (constant S_ .f32 0x00000000#32))))
    (addf a (broadcastInDim S128x1 ![] bcast_S_S128x1 (constant S_ .f32 0x00000000#32)))
    (addf (maximumf a (broadcastInDim S128x1 ![] bcast_S_S128x1 (constant S_ .f32 0x00000000#32)))
      (Host.log1p (Host.exp (Host.negf (Host.absf
        (subf a (broadcastInDim S128x1 ![] bcast_S_S128x1 (constant S_ .f32 0x00000000#32))))))))

/-- The head: two dense layers with `max · 0`, the logit, and `-log σ`. -/
def headR (xall : FVec F S128x132 .f32) (fc1W : FVec F S132x512 .f32) (fc1b : FVec F S512 .f32) (fc2W : FVec F S512x512 .f32)
    (fc2b : FVec F S512 .f32) (pW : FVec F S512x1 .f32) (pb : FVec F S1 .f32) : FVec F S128x1 .f32 :=
  Host.negf (Host.negf (softplus (Host.negf
    (addf
      (Host.dotGeneral dot_S128x512_S512x1_S128x1_1_0_0_1_n_n none
        (maximumf
          (addf
            (Host.dotGeneral dot_S128x512_S512x512_S128x512_1_0_0_1_n_n none
              (maximumf
                (addf (Host.dotGeneral dot_S128x132_S132x512_S128x512_1_0_0_1_n_n none xall fc1W)
                  (broadcastInDim S128x512 ![0, 1] bcast_S1x512_S128x512_0_1 (broadcastInDim S1x512 ![1] bcast_S512_S1x512_1 fc1b)))
                (broadcastInDim S128x512 ![] bcast_S_S128x512 (constant S_ .f32 0x00000000#32)))
              fc2W)
            (broadcastInDim S128x512 ![0, 1] bcast_S1x512_S128x512_0_1 (broadcastInDim S1x512 ![1] bcast_S512_S1x512_1 fc2b)))
          (broadcastInDim S128x512 ![] bcast_S_S128x512 (constant S_ .f32 0x00000000#32)))
        pW)
      (broadcastInDim S128x1 ![0, 1] bcast_S1x1_S128x1_0_1 (broadcastInDim S1x1 ![1] bcast_S1_S1x1_1 pb))))))

/-- The first layer's output. -/
def h1 (x : FVec F S100000x44 .f32) (src dst : IVec S1600000 32) (W1s W1n : FVec F S44x128 .f32) (b1 : FVec F S128 .f32) :
    FVec F S100000x128 .f32 :=
  layer44 x (agg44 x src dst) (inv dst) W1s W1n b1

/-- The second layer's output. -/
def h2 (x : FVec F S100000x44 .f32) (src dst : IVec S1600000 32) (W1s W1n : FVec F S44x128 .f32) (b1 : FVec F S128 .f32)
    (W2s W2n : FVec F S128x128 .f32) (b2 : FVec F S128 .f32) : FVec F S100000x128 .f32 :=
  layer128 (h1 x src dst W1s W1n b1) (agg128 (h1 x src dst W1s W1n b1) src dst) (inv dst) W2s W2n b2

/-- The head's input. -/
def xall (x : FVec F S100000x44 .f32) (sf : FVec F S128x4 .f32) (src dst : IVec S1600000 32) (gid : IVec S100000 32)
    (W1s W1n : FVec F S44x128 .f32) (b1 : FVec F S128 .f32) (W2s W2n : FVec F S128x128 .f32) (b2 : FVec F S128 .f32) :
    FVec F S128x132 .f32 :=
  concatenate S128x132 1 [⟨S128x128, gnn gid (h2 x src dst W1s W1n b1 W2s W2n b2)⟩, ⟨S128x4, sf⟩] concatenates_S128x128_S128x4_S128x132_d1

/-- The reference's result. -/
def out (x : FVec F S100000x44 .f32) (sf : FVec F S128x4 .f32) (src dst : IVec S1600000 32) (gid : IVec S100000 32)
    (W1s W1n : FVec F S44x128 .f32) (b1 : FVec F S128 .f32) (W2s W2n : FVec F S128x128 .f32) (b2 : FVec F S128 .f32)
    (fc1W : FVec F S132x512 .f32) (fc1b : FVec F S512 .f32) (fc2W : FVec F S512x512 .f32) (fc2b : FVec F S512 .f32)
    (pW : FVec F S512x1 .f32) (pb : FVec F S1 .f32) : FVec F S128x1 .f32 :=
  headR (xall x sf src dst gid W1s W1n b1 W2s W2n b2) fc1W fc1b fc2W fc2b pW pb

end Cert.ReferenceIdeal.RTerm

end
-- ==== Proof.RRun.lean ====
/-
  The reference's run read back: @main is a straight line of host operations (its outlined functions — the three
  `max · 0`, `softplus` inside `-log σ` — unfolded at their calls), so every weakly fair execution terminates with the
  result buffer at the operations' composed term of the argument arrays, the arguments unchanged.
-/
import proofs.«418824_j4922032521409_2_alg».proof.Proof.Gen.ReferenceIdeal
import proofs.«418824_j4922032521409_2_alg».proof.Proof.RTerm
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
-- the gather, the scatter-add and the concatenation are opaque here: the run composes them and never opens one
attribute [local irreducible] Host.gather Host.scatterAdd concatenate

/-- A one-buffer write set lies in a list of references that holds the buffer. -/
theorem singleton_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The line in eight stretches -/

/-- The reciprocal clamped in-degree: ones scattered by destination, clamped below by one, inverted, as a column. -/
abbrev w0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg3 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)) ]
/-- The buffers this stretch writes. -/
abbrev w0_W : List (Ref sig .tc) := [main_cst, main_v0, main_cst_0, main_v1, main_v2, main_v3, main_cst_1, main_v4, main_v5, main_cst_2, main_v6, main_v7, main_v8]
theorem w0_writes : (w0 : List (HloOp τ sig (Elt F))).Forall fun op => op.writes ⊆ (w0_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A buffer the stretch does not write keeps its contents through it. -/
theorem w0_keep (X : Valuation τ sig (Elt F)) (r : Ref sig .tc) (h : r ∉ w0_W) :
    after w0 X (no_index (Proc.devRef .tc r)) = X (Proc.devRef .tc r) :=
  after_of_writes_sub w0 X w0_writes h

/-- The wrapped source ids (a negative id moved up by the node count), as a column. -/
abbrev w1 : List (HloOp τ sig (Elt F)) :=
  [ nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_arg2 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v11 (broadcastInDim S1600000 ![] bcast_S_S1600000 : (⟨S_, .i32⟩ : BufTy).Contents (Elt F) → (⟨S1600000, .i32⟩ : BufTy).Contents (Elt F)),
    binary main_arg2 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg2 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)) ]
/-- The buffers this stretch writes. -/
abbrev w1_W : List (Ref sig .tc) := [main_c, main_v9, main_v10, main_c_3, main_v11, main_v12, main_v13, main_v14]
theorem w1_writes : (w1 : List (HloOp τ sig (Elt F))).Forall fun op => op.writes ⊆ (w1_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A buffer the stretch does not write keeps its contents through it. -/
theorem w1_keep (X : Valuation τ sig (Elt F)) (r : Ref sig .tc) (h : r ∉ w1_W) :
    after w1 X (no_index (Proc.devRef .tc r)) = X (Proc.devRef .tc r) :=
  after_of_writes_sub w1 X w1_writes h

/-- The first graph layer: the rows gathered by source and summed by destination, scaled by the reciprocal degree, the two products with the weights, the bias, `max · 0`. -/
abbrev w2 : List (HloOp τ sig (Elt F)) :=
  [ binary main_arg0 main_v14 main_v15 ((fun x i => Host.gather gather_S100000x44_S1600000x1_S1600000x44_1_0_n_n_0_1_144 x i) : (⟨S100000x44, .f32⟩ : BufTy).Contents (Elt F) → (⟨S1600000x1, .i32⟩ : BufTy).Contents (Elt F) → (⟨S1600000x44, .f32⟩ : BufTy).Contents (Elt F)),
    nullary main_cst_4 (constant S_ .f32 0x00000000#32),
    unary main_cst_4 main_v16 (broadcastInDim S100000x44 ![] bcast_S_S100000x44 : (⟨S_, .f32⟩ : BufTy).Contents (Elt F) → (⟨S100000x44, .f32⟩ : BufTy).Contents (Elt F)),
    unary main_arg3 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x44_S1600000x1_S1600000x44_1_0_0_1 x i u) : (⟨S100000x44, .f32⟩ : BufTy).Contents (Elt F) → (⟨S1600000x1, .i32⟩ : BufTy).Contents (Elt F) → (⟨S1600000x44, .f32⟩ : BufTy).Contents (Elt F) → (⟨S100000x44, .f32⟩ : BufTy).Contents (Elt F)),
    unary main_v8 main_v19 (broadcastInDim S100000x44 ![0, 1] bcast_S100000x1_S100000x44_0_1 : (⟨S100000x1, .f32⟩ : BufTy).Contents (Elt F) → (⟨S100000x44, .f32⟩ : BufTy).Contents (Elt F)),
    binary main_v18 main_v19 main_v20 (mulf : (⟨S100000x44, .f32⟩ : BufTy).Contents (Elt F) → (⟨S100000x44, .f32⟩ : BufTy).Contents (Elt F) → (⟨S100000x44, .f32⟩ : BufTy).Contents (Elt F)),
    binary main_arg0 main_arg5 main_v21 ((fun l r => Host.dotGeneral dot_S100000x44_S44x128_S100000x128_1_0_0_1_n_n none l r) : (⟨S100000x44, .f32⟩ : BufTy).Contents (Elt F) → (⟨S44x128, .f32⟩ : BufTy).Contents (Elt F) → (⟨S100000x128, .f32⟩ : BufTy).Contents (Elt F)),
    binary main_v20 main_arg6 main_v22 ((fun l r => Host.dotGeneral dot_S100000x44_S44x128_S100000x128_1_0_0_1_n_n none l r) : (⟨S100000x44, .f32⟩ : BufTy).Contents (Elt F) → (⟨S44x128, .f32⟩ : BufTy).Contents (Elt F) → (⟨S100000x128, .f32⟩ : BufTy).Contents (Elt F)),
    binary main_v21 main_v22 main_v23 (addf : (⟨S100000x128, .f32⟩ : BufTy).Contents (Elt F) → (⟨S100000x128, .f32⟩ : BufTy).Contents (Elt F) → (⟨S100000x128, .f32⟩ : BufTy).Contents (Elt F)),
    unary main_arg7 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v26 : TRef sig ⟨S100000x128, .f32⟩) main_call0.v0 main_call0.v1 maximumf ]
/-- The buffers this stretch writes. -/
abbrev w2_W : List (Ref sig .tc) := [main_v15, main_cst_4, main_v16, main_v17, main_v18, main_v19, main_v20, main_v21, main_v22, main_v23, main_v24, main_v25, main_v26, main_call0_cst, main_call0_v0, main_v27]
theorem w2_writes : (w2 : List (HloOp τ sig (Elt F))).Forall fun op => op.writes ⊆ (w2_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A buffer the stretch does not write keeps its contents through it. -/
theorem w2_keep (X : Valuation τ sig (Elt F)) (r : Ref sig .tc) (h : r ∉ w2_W) :
    after w2 X (no_index (Proc.devRef .tc r)) = X (Proc.devRef .tc r) :=
  after_of_writes_sub w2 X w2_writes h

/-- The wrapped source ids again (the program recomputes them for the second layer). -/
abbrev w3 : List (HloOp τ sig (Elt F)) :=
  [ nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_arg2 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)),
    binary main_arg2 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_arg2 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)) ]
/-- The buffers this stretch writes. -/
abbrev w3_W : List (Ref sig .tc) := [main_c_5, main_v28, main_v29, main_c_6, main_v30, main_v31, main_v32, main_v33]
theorem w3_writes : (w3 : List (HloOp τ sig (Elt F))).Forall fun op => op.writes ⊆ (w3_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A buffer the stretch does not write keeps its contents through it. -/
theorem w3_keep (X : Valuation τ sig (Elt F)) (r : Ref sig .tc) (h : r ∉ w3_W) :
    after w3 X (no_index (Proc.devRef .tc r)) = X (Proc.devRef .tc r) :=
  after_of_writes_sub w3 X w3_writes h

/-- The second graph layer, over the first's output. -/
abbrev w4 : List (HloOp τ sig (Elt F)) :=
  [ binary main_v27 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v35 (broadcastInDim S100000x128 ![] bcast_S_S100000x128 : (⟨S_, .f32⟩ : BufTy).Contents (Elt F) → (⟨S100000x128, .f32⟩ : BufTy).Contents (Elt F)),
    unary main_arg3 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v38 (broadcastInDim S100000x128 ![0, 1] bcast_S100000x1_S100000x128_0_1 : (⟨S100000x1, .f32⟩ : BufTy).Contents (Elt F) → (⟨S100000x128, .f32⟩ : BufTy).Contents (Elt F)),
    binary main_v37 main_v38 main_v39 (mulf : (⟨S100000x128, .f32⟩ : BufTy).Contents (Elt F) → (⟨S100000x128, .f32⟩ : BufTy).Contents (Elt F) → (⟨S100000x128, .f32⟩ : BufTy).Contents (Elt F)),
    binary main_v27 main_arg8 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v39 main_arg9 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v40 main_v41 main_v42 (addf : (⟨S100000x128, .f32⟩ : BufTy).Contents (Elt F) → (⟨S100000x128, .f32⟩ : BufTy).Contents (Elt F) → (⟨S100000x128, .f32⟩ : BufTy).Contents (Elt F)),
    unary main_arg10 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v45 : TRef sig ⟨S100000x128, .f32⟩) main_call1.v0 main_call1.v1 maximumf ]
/-- The buffers this stretch writes. -/
abbrev w4_W : List (Ref sig .tc) := [main_v34, main_cst_7, main_v35, main_v36, main_v37, main_v38, main_v39, main_v40, main_v41, main_v42, main_v43, main_v44, main_v45, main_call1_cst, main_call1_v0, main_v46]
theorem w4_writes : (w4 : List (HloOp τ sig (Elt F))).Forall fun op => op.writes ⊆ (w4_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A buffer the stretch does not write keeps its contents through it. -/
theorem w4_keep (X : Valuation τ sig (Elt F)) (r : Ref sig .tc) (h : r ∉ w4_W) :
    after w4 X (no_index (Proc.devRef .tc r)) = X (Proc.devRef .tc r) :=
  after_of_writes_sub w4 X w4_writes h

/-- The per-graph sum of the rows, and the graph features joined to it. -/
abbrev w5 : List (HloOp τ sig (Elt F)) :=
  [ nullary main_cst_8 (constant S_ .f32 0x00000000#32),
    unary main_cst_8 main_v47 (broadcastInDim S128x128 ![] bcast_S_S128x128 : (⟨S_, .f32⟩ : BufTy).Contents (Elt F) → (⟨S128x128, .f32⟩ : BufTy).Contents (Elt F)),
    unary main_arg4 main_v48 (broadcastInDim S100000x1 ![0] bcast_S100000_S100000x1_0 : (⟨S100000, .i32⟩ : BufTy).Contents (Elt F) → (⟨S100000x1, .i32⟩ : BufTy).Contents (Elt F)),
    ternary main_v47 main_v48 main_v46 main_v49 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    binary main_v49 main_arg1 main_v50 ((fun a b => concatenate S128x132 1 [⟨S128x128, a⟩, ⟨S128x4, b⟩] concatenates_S128x128_S128x4_S128x132_d1) : (⟨S128x128, .f32⟩ : BufTy).Contents (Elt F) → (⟨S128x4, .f32⟩ : BufTy).Contents (Elt F) → (⟨S128x132, .f32⟩ : BufTy).Contents (Elt F)) ]
/-- The buffers this stretch writes. -/
abbrev w5_W : List (Ref sig .tc) := [main_cst_8, main_v47, main_v48, main_v49, main_v50]
theorem w5_writes : (w5 : List (HloOp τ sig (Elt F))).Forall fun op => op.writes ⊆ (w5_W.map (Proc.devRef (τ := τ) .tc)).toFinset :=
  ⟨singleton_sub_of_mem (by decide), singleton_sub_of_mem (by decide), singleton_sub_of_mem (by decide), singleton_sub_of_mem (by decide), singleton_sub_of_mem (by decide)⟩
/-- A buffer the stretch does not write keeps its contents through it. -/
theorem w5_keep (X : Valuation τ sig (Elt F)) (r : Ref sig .tc) (h : r ∉ w5_W) :
    after w5 X (no_index (Proc.devRef .tc r)) = X (Proc.devRef .tc r) :=
  after_of_writes_sub w5 X w5_writes h

/-- The head's two dense layers with `max · 0` and the logit. -/
abbrev w6 : List (HloOp τ sig (Elt F)) :=
  [ binary main_v50 main_arg11 main_v51 ((fun l r => Host.dotGeneral dot_S128x132_S132x512_S128x512_1_0_0_1_n_n none l r) : (⟨S128x132, .f32⟩ : BufTy).Contents (Elt F) → (⟨S132x512, .f32⟩ : BufTy).Contents (Elt F) → (⟨S128x512, .f32⟩ : BufTy).Contents (Elt F)),
    unary main_arg12 main_v52 (broadcastInDim S1x512 ![1] bcast_S512_S1x512_1 : (⟨S512, .f32⟩ : BufTy).Contents (Elt F) → (⟨S1x512, .f32⟩ : BufTy).Contents (Elt F)),
    unary main_v52 main_v53 (broadcastInDim S128x512 ![0, 1] bcast_S1x512_S128x512_0_1 : (⟨S1x512, .f32⟩ : BufTy).Contents (Elt F) → (⟨S128x512, .f32⟩ : BufTy).Contents (Elt F)),
    binary main_v51 main_v53 main_v54 (addf : (⟨S128x512, .f32⟩ : BufTy).Contents (Elt F) → (⟨S128x512, .f32⟩ : BufTy).Contents (Elt F) → (⟨S128x512, .f32⟩ : BufTy).Contents (Elt F)),
    TRef.nullary main_call2.cst (constant S_ .f32 0x00000000#32),
    TRef.unary main_call2.cst main_call2.v0 (broadcastInDim S128x512 ![] bcast_S_S128x512),
    TRef.binary (.of main_v54 : TRef sig ⟨S128x512, .f32⟩) main_call2.v0 main_call2.v1 maximumf,
    binary main_v55 main_arg13 main_v56 ((fun l r => Host.dotGeneral dot_S128x512_S512x512_S128x512_1_0_0_1_n_n none l r) : (⟨S128x512, .f32⟩ : BufTy).Contents (Elt F) → (⟨S512x512, .f32⟩ : BufTy).Contents (Elt F) → (⟨S128x512, .f32⟩ : BufTy).Contents (Elt F)),
    unary main_arg14 main_v57 (broadcastInDim S1x512 ![1] bcast_S512_S1x512_1 : (⟨S512, .f32⟩ : BufTy).Contents (Elt F) → (⟨S1x512, .f32⟩ : BufTy).Contents (Elt F)),
    unary main_v57 main_v58 (broadcastInDim S128x512 ![0, 1] bcast_S1x512_S128x512_0_1 : (⟨S1x512, .f32⟩ : BufTy).Contents (Elt F) → (⟨S128x512, .f32⟩ : BufTy).Contents (Elt F)),
    binary main_v56 main_v58 main_v59 (addf : (⟨S128x512, .f32⟩ : BufTy).Contents (Elt F) → (⟨S128x512, .f32⟩ : BufTy).Contents (Elt F) → (⟨S128x512, .f32⟩ : BufTy).Contents (Elt F)),
    TRef.nullary main_call3.cst (constant S_ .f32 0x00000000#32),
    TRef.unary main_call3.cst main_call3.v0 (broadcastInDim S128x512 ![] bcast_S_S128x512),
    TRef.binary (.of main_v59 : TRef sig ⟨S128x512, .f32⟩) main_call3.v0 main_call3.v1 maximumf,
    binary main_v60 main_arg15 main_v61 ((fun l r => Host.dotGeneral dot_S128x512_S512x1_S128x1_1_0_0_1_n_n none l r) : (⟨S128x512, .f32⟩ : BufTy).Contents (Elt F) → (⟨S512x1, .f32⟩ : BufTy).Contents (Elt F) → (⟨S128x1, .f32⟩ : BufTy).Contents (Elt F)),
    unary main_arg16 main_v62 (broadcastInDim S1x1 ![1] bcast_S1_S1x1_1 : (⟨S1, .f32⟩ : BufTy).Contents (Elt F) → (⟨S1x1, .f32⟩ : BufTy).Contents (Elt F)),
    unary main_v62 main_v63 (broadcastInDim S128x1 ![0, 1] bcast_S1x1_S128x1_0_1 : (⟨S1x1, .f32⟩ : BufTy).Contents (Elt F) → (⟨S128x1, .f32⟩ : BufTy).Contents (Elt F)),
    binary main_v61 main_v63 main_v64 (addf : (⟨S128x1, .f32⟩ : BufTy).Contents (Elt F) → (⟨S128x1, .f32⟩ : BufTy).Contents (Elt F) → (⟨S128x1, .f32⟩ : BufTy).Contents (Elt F)) ]
/-- The buffers this stretch writes. -/
abbrev w6_W : List (Ref sig .tc) := [main_v51, main_v52, main_v53, main_v54, main_call2_cst, main_call2_v0, main_v55, main_v56, main_v57, main_v58, main_v59, main_call3_cst, main_call3_v0, main_v60, main_v61, main_v62, main_v63, main_v64]
theorem w6_writes : (w6 : List (HloOp τ sig (Elt F))).Forall fun op => op.writes ⊆ (w6_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A buffer the stretch does not write keeps its contents through it. -/
theorem w6_keep (X : Valuation τ sig (Elt F)) (r : Ref sig .tc) (h : r ∉ w6_W) :
    after w6 X (no_index (Proc.devRef .tc r)) = X (Proc.devRef .tc r) :=
  after_of_writes_sub w6 X w6_writes h

/-- `-log σ` of the logit, through `softplus`, and the final negation. -/
abbrev w7 : List (HloOp τ sig (Elt F)) :=
  [ TRef.unary (.of main_v64 : TRef sig ⟨S128x1, .f32⟩) main_call4.v0 Host.negf,
    TRef.nullary main_call4.call0.cst (constant S_ .f32 0x00000000#32),
    TRef.unary main_call4.call0.cst main_call4.call0.v0 (broadcastInDim S128x1 ![] bcast_S_S128x1),
    TRef.binary main_call4.v0 main_call4.call0.v0 main_call4.call0.v1 maximumf,
    TRef.unary main_call4.call0.cst main_call4.call0.v2 (broadcastInDim S128x1 ![] bcast_S_S128x1),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S128x1 ![] bcast_S_S128x1),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    unary main_v65 main_v66 (Host.negf : (⟨S128x1, .f32⟩ : BufTy).Contents (Elt F) → (⟨S128x1, .f32⟩ : BufTy).Contents (Elt F)) ]
/-- The buffers this stretch writes. -/
abbrev w7_W : List (Ref sig .tc) := [main_call4_v0, main_call4_call0_cst, main_call4_call0_v0, main_call4_call0_v1, main_call4_call0_v2, main_call4_call0_v3, main_call4_call0_v4, main_call4_call0_v5, main_call4_call0_v6, main_call4_call0_v7, main_call4_call0_v8, main_call4_call0_v9, main_call4_call0_v10, main_call4_call0_v11, main_call4_v1, main_v65, main_v66]
theorem w7_writes : (w7 : List (HloOp τ sig (Elt F))).Forall fun op => op.writes ⊆ (w7_W.map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩
/-- A buffer the stretch does not write keeps its contents through it. -/
theorem w7_keep (X : Valuation τ sig (Elt F)) (r : Ref sig .tc) (h : r ∉ w7_W) :
    after w7 X (no_index (Proc.devRef .tc r)) = X (Proc.devRef .tc r) :=
  after_of_writes_sub w7 X w7_writes h

/-! ## What each stretch leaves at the buffer the next ones read -/

theorem w0_v8 (X : Valuation τ sig (Elt F)) :
    after w0 X (no_index (Proc.devRef .tc main_v8)) = RTerm.inv (X (Proc.devRef .tc main_arg3)) := by
  after_results_simp
  rfl

theorem w1_v14 (X : Valuation τ sig (Elt F)) :
    after w1 X (no_index (Proc.devRef .tc main_v14)) = RTerm.srcIdx (X (Proc.devRef .tc main_arg2)) := by
  after_results_simp
  rfl

theorem w2_v27 (X : Valuation τ sig (Elt F)) :
    after w2 X (no_index (Proc.devRef .tc main_v27))
      = RTerm.layer44 (X (Proc.devRef .tc main_arg0))
          (Host.scatterAdd scatter_S100000x44_S1600000x1_S1600000x44_1_0_0_1
            (broadcastInDim S100000x44 ![] bcast_S_S100000x44 (constant S_ .f32 0x00000000#32))
            (broadcastInDim S1600000x1 ![0] bcast_S1600000_S1600000x1_0 (X (Proc.devRef .tc main_arg3)))
            (Host.gather gather_S100000x44_S1600000x1_S1600000x44_1_0_n_n_0_1_144 (X (Proc.devRef .tc main_arg0)) (X (Proc.devRef .tc main_v14))))
          (X (Proc.devRef .tc main_v8)) (X (Proc.devRef .tc main_arg5)) (X (Proc.devRef .tc main_arg6)) (X (Proc.devRef .tc main_arg7)) := by
  after_results_simp
  rfl

theorem w3_v33 (X : Valuation τ sig (Elt F)) :
    after w3 X (no_index (Proc.devRef .tc main_v33)) = RTerm.srcIdx (X (Proc.devRef .tc main_arg2)) := by
  after_results_simp
  rfl

theorem w4_v46 (X : Valuation τ sig (Elt F)) :
    after w4 X (no_index (Proc.devRef .tc main_v46))
      = RTerm.layer128 (X (Proc.devRef .tc main_v27))
          (Host.scatterAdd scatter_S100000x128_S1600000x1_S1600000x128_1_0_0_1
            (broadcastInDim S100000x128 ![] bcast_S_S100000x128 (constant S_ .f32 0x00000000#32))
            (broadcastInDim S1600000x1 ![0] bcast_S1600000_S1600000x1_0 (X (Proc.devRef .tc main_arg3)))
            (Host.gather gather_S100000x128_S1600000x1_S1600000x128_1_0_n_n_0_1_1128 (X (Proc.devRef .tc main_v27)) (X (Proc.devRef .tc main_v33))))
          (X (Proc.devRef .tc main_v8)) (X (Proc.devRef .tc main_arg8)) (X (Proc.devRef .tc main_arg9)) (X (Proc.devRef .tc main_arg10)) := by
  after_results_simp
  rfl

theorem w5_v50 (X : Valuation τ sig (Elt F)) :
    after w5 X (no_index (Proc.devRef .tc main_v50))
      = concatenate S128x132 1 [⟨S128x128, RTerm.gnn (X (Proc.devRef .tc main_arg4)) (X (Proc.devRef .tc main_v46))⟩, ⟨S128x4, (X (Proc.devRef .tc main_arg1))⟩]
          concatenates_S128x128_S128x4_S128x132_d1 := by
  after_results_simp
  rfl

theorem w6_v64 (X : Valuation τ sig (Elt F)) :
    after w6 X (no_index (Proc.devRef .tc main_v64))
      = addf
          (Host.dotGeneral dot_S128x512_S512x1_S128x1_1_0_0_1_n_n none
            (maximumf
              (addf
                (Host.dotGeneral dot_S128x512_S512x512_S128x512_1_0_0_1_n_n none
                  (maximumf
                    (addf (Host.dotGeneral dot_S128x132_S132x512_S128x512_1_0_0_1_n_n none (X (Proc.devRef .tc main_v50)) (X (Proc.devRef .tc main_arg11)))
                      (broadcastInDim S128x512 ![0, 1] bcast_S1x512_S128x512_0_1 (broadcastInDim S1x512 ![1] bcast_S512_S1x512_1 (X (Proc.devRef .tc main_arg12)))))
                    (broadcastInDim S128x512 ![] bcast_S_S128x512 (constant S_ .f32 0x00000000#32)))
                  (X (Proc.devRef .tc main_arg13)))
                (broadcastInDim S128x512 ![0, 1] bcast_S1x512_S128x512_0_1 (broadcastInDim S1x512 ![1] bcast_S512_S1x512_1 (X (Proc.devRef .tc main_arg14)))))
              (broadcastInDim S128x512 ![] bcast_S_S128x512 (constant S_ .f32 0x00000000#32)))
            (X (Proc.devRef .tc main_arg15)))
          (broadcastInDim S128x1 ![0, 1] bcast_S1x1_S128x1_0_1 (broadcastInDim S1x1 ![1] bcast_S1_S1x1_1 (X (Proc.devRef .tc main_arg16)))) := by
  after_results_simp
  rfl

theorem w7_v66 (X : Valuation τ sig (Elt F)) :
    after w7 X (no_index (Proc.devRef .tc main_v66)) = Host.negf (Host.negf (RTerm.softplus (Host.negf (X (Proc.devRef .tc main_v64))))) := by
  after_results_simp
  rfl

/-! ## @main as the line -/

/-- @main's operations in order, the calls unfolded: each `max · 0` is three (the scalar zero, its broadcast, the
    maximum) into its call's buffers; `-log σ` is the negation, `softplus`'s fourteen, the negation. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg3 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_arg2 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v11 (broadcastInDim S1600000 ![] bcast_S_S1600000 : (⟨S_, .i32⟩ : BufTy).Contents (Elt F) → (⟨S1600000, .i32⟩ : BufTy).Contents (Elt F)),
    binary main_arg2 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg2 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_arg0 main_v14 main_v15 ((fun x i => Host.gather gather_S100000x44_S1600000x1_S1600000x44_1_0_n_n_0_1_144 x i) : (⟨S100000x44, .f32⟩ : BufTy).Contents (Elt F) → (⟨S1600000x1, .i32⟩ : BufTy).Contents (Elt F) → (⟨S1600000x44, .f32⟩ : BufTy).Contents (Elt F)),
    nullary main_cst_4 (constant S_ .f32 0x00000000#32),
    unary main_cst_4 main_v16 (broadcastInDim S100000x44 ![] bcast_S_S100000x44 : (⟨S_, .f32⟩ : BufTy).Contents (Elt F) → (⟨S100000x44, .f32⟩ : BufTy).Contents (Elt F)),
    unary main_arg3 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x44_S1600000x1_S1600000x44_1_0_0_1 x i u) : (⟨S100000x44, .f32⟩ : BufTy).Contents (Elt F) → (⟨S1600000x1, .i32⟩ : BufTy).Contents (Elt F) → (⟨S1600000x44, .f32⟩ : BufTy).Contents (Elt F) → (⟨S100000x44, .f32⟩ : BufTy).Contents (Elt F)),
    unary main_v8 main_v19 (broadcastInDim S100000x44 ![0, 1] bcast_S100000x1_S100000x44_0_1 : (⟨S100000x1, .f32⟩ : BufTy).Contents (Elt F) → (⟨S100000x44, .f32⟩ : BufTy).Contents (Elt F)),
    binary main_v18 main_v19 main_v20 (mulf : (⟨S100000x44, .f32⟩ : BufTy).Contents (Elt F) → (⟨S100000x44, .f32⟩ : BufTy).Contents (Elt F) → (⟨S100000x44, .f32⟩ : BufTy).Contents (Elt F)),
    binary main_arg0 main_arg5 main_v21 ((fun l r => Host.dotGeneral dot_S100000x44_S44x128_S100000x128_1_0_0_1_n_n none l r) : (⟨S100000x44, .f32⟩ : BufTy).Contents (Elt F) → (⟨S44x128, .f32⟩ : BufTy).Contents (Elt F) → (⟨S100000x128, .f32⟩ : BufTy).Contents (Elt F)),
    binary main_v20 main_arg6 main_v22 ((fun l r => Host.dotGeneral dot_S100000x44_S44x128_S100000x128_1_0_0_1_n_n none l r) : (⟨S100000x44, .f32⟩ : BufTy).Contents (Elt F) → (⟨S44x128, .f32⟩ : BufTy).Contents (Elt F) → (⟨S100000x128, .f32⟩ : BufTy).Contents (Elt F)),
    binary main_v21 main_v22 main_v23 (addf : (⟨S100000x128, .f32⟩ : BufTy).Contents (Elt F) → (⟨S100000x128, .f32⟩ : BufTy).Contents (Elt F) → (⟨S100000x128, .f32⟩ : BufTy).Contents (Elt F)),
    unary main_arg7 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v26 : TRef sig ⟨S100000x128, .f32⟩) main_call0.v0 main_call0.v1 maximumf,
    nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_arg2 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)),
    binary main_arg2 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_arg2 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v27 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v35 (broadcastInDim S100000x128 ![] bcast_S_S100000x128 : (⟨S_, .f32⟩ : BufTy).Contents (Elt F) → (⟨S100000x128, .f32⟩ : BufTy).Contents (Elt F)),
    unary main_arg3 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v38 (broadcastInDim S100000x128 ![0, 1] bcast_S100000x1_S100000x128_0_1 : (⟨S100000x1, .f32⟩ : BufTy).Contents (Elt F) → (⟨S100000x128, .f32⟩ : BufTy).Contents (Elt F)),
    binary main_v37 main_v38 main_v39 (mulf : (⟨S100000x128, .f32⟩ : BufTy).Contents (Elt F) → (⟨S100000x128, .f32⟩ : BufTy).Contents (Elt F) → (⟨S100000x128, .f32⟩ : BufTy).Contents (Elt F)),
    binary main_v27 main_arg8 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v39 main_arg9 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v40 main_v41 main_v42 (addf : (⟨S100000x128, .f32⟩ : BufTy).Contents (Elt F) → (⟨S100000x128, .f32⟩ : BufTy).Contents (Elt F) → (⟨S100000x128, .f32⟩ : BufTy).Contents (Elt F)),
    unary main_arg10 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v45 : TRef sig ⟨S100000x128, .f32⟩) main_call1.v0 main_call1.v1 maximumf,
    nullary main_cst_8 (constant S_ .f32 0x00000000#32),
    unary main_cst_8 main_v47 (broadcastInDim S128x128 ![] bcast_S_S128x128 : (⟨S_, .f32⟩ : BufTy).Contents (Elt F) → (⟨S128x128, .f32⟩ : BufTy).Contents (Elt F)),
    unary main_arg4 main_v48 (broadcastInDim S100000x1 ![0] bcast_S100000_S100000x1_0 : (⟨S100000, .i32⟩ : BufTy).Contents (Elt F) → (⟨S100000x1, .i32⟩ : BufTy).Contents (Elt F)),
    ternary main_v47 main_v48 main_v46 main_v49 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    binary main_v49 main_arg1 main_v50 ((fun a b => concatenate S128x132 1 [⟨S128x128, a⟩, ⟨S128x4, b⟩] concatenates_S128x128_S128x4_S128x132_d1) : (⟨S128x128, .f32⟩ : BufTy).Contents (Elt F) → (⟨S128x4, .f32⟩ : BufTy).Contents (Elt F) → (⟨S128x132, .f32⟩ : BufTy).Contents (Elt F)),
    binary main_v50 main_arg11 main_v51 ((fun l r => Host.dotGeneral dot_S128x132_S132x512_S128x512_1_0_0_1_n_n none l r) : (⟨S128x132, .f32⟩ : BufTy).Contents (Elt F) → (⟨S132x512, .f32⟩ : BufTy).Contents (Elt F) → (⟨S128x512, .f32⟩ : BufTy).Contents (Elt F)),
    unary main_arg12 main_v52 (broadcastInDim S1x512 ![1] bcast_S512_S1x512_1 : (⟨S512, .f32⟩ : BufTy).Contents (Elt F) → (⟨S1x512, .f32⟩ : BufTy).Contents (Elt F)),
    unary main_v52 main_v53 (broadcastInDim S128x512 ![0, 1] bcast_S1x512_S128x512_0_1 : (⟨S1x512, .f32⟩ : BufTy).Contents (Elt F) → (⟨S128x512, .f32⟩ : BufTy).Contents (Elt F)),
    binary main_v51 main_v53 main_v54 (addf : (⟨S128x512, .f32⟩ : BufTy).Contents (Elt F) → (⟨S128x512, .f32⟩ : BufTy).Contents (Elt F) → (⟨S128x512, .f32⟩ : BufTy).Contents (Elt F)),
    TRef.nullary main_call2.cst (constant S_ .f32 0x00000000#32),
    TRef.unary main_call2.cst main_call2.v0 (broadcastInDim S128x512 ![] bcast_S_S128x512),
    TRef.binary (.of main_v54 : TRef sig ⟨S128x512, .f32⟩) main_call2.v0 main_call2.v1 maximumf,
    binary main_v55 main_arg13 main_v56 ((fun l r => Host.dotGeneral dot_S128x512_S512x512_S128x512_1_0_0_1_n_n none l r) : (⟨S128x512, .f32⟩ : BufTy).Contents (Elt F) → (⟨S512x512, .f32⟩ : BufTy).Contents (Elt F) → (⟨S128x512, .f32⟩ : BufTy).Contents (Elt F)),
    unary main_arg14 main_v57 (broadcastInDim S1x512 ![1] bcast_S512_S1x512_1 : (⟨S512, .f32⟩ : BufTy).Contents (Elt F) → (⟨S1x512, .f32⟩ : BufTy).Contents (Elt F)),
    unary main_v57 main_v58 (broadcastInDim S128x512 ![0, 1] bcast_S1x512_S128x512_0_1 : (⟨S1x512, .f32⟩ : BufTy).Contents (Elt F) → (⟨S128x512, .f32⟩ : BufTy).Contents (Elt F)),
    binary main_v56 main_v58 main_v59 (addf : (⟨S128x512, .f32⟩ : BufTy).Contents (Elt F) → (⟨S128x512, .f32⟩ : BufTy).Contents (Elt F) → (⟨S128x512, .f32⟩ : BufTy).Contents (Elt F)),
    TRef.nullary main_call3.cst (constant S_ .f32 0x00000000#32),
    TRef.unary main_call3.cst main_call3.v0 (broadcastInDim S128x512 ![] bcast_S_S128x512),
    TRef.binary (.of main_v59 : TRef sig ⟨S128x512, .f32⟩) main_call3.v0 main_call3.v1 maximumf,
    binary main_v60 main_arg15 main_v61 ((fun l r => Host.dotGeneral dot_S128x512_S512x1_S128x1_1_0_0_1_n_n none l r) : (⟨S128x512, .f32⟩ : BufTy).Contents (Elt F) → (⟨S512x1, .f32⟩ : BufTy).Contents (Elt F) → (⟨S128x1, .f32⟩ : BufTy).Contents (Elt F)),
    unary main_arg16 main_v62 (broadcastInDim S1x1 ![1] bcast_S1_S1x1_1 : (⟨S1, .f32⟩ : BufTy).Contents (Elt F) → (⟨S1x1, .f32⟩ : BufTy).Contents (Elt F)),
    unary main_v62 main_v63 (broadcastInDim S128x1 ![0, 1] bcast_S1x1_S128x1_0_1 : (⟨S1x1, .f32⟩ : BufTy).Contents (Elt F) → (⟨S128x1, .f32⟩ : BufTy).Contents (Elt F)),
    binary main_v61 main_v63 main_v64 (addf : (⟨S128x1, .f32⟩ : BufTy).Contents (Elt F) → (⟨S128x1, .f32⟩ : BufTy).Contents (Elt F) → (⟨S128x1, .f32⟩ : BufTy).Contents (Elt F)),
    TRef.unary (.of main_v64 : TRef sig ⟨S128x1, .f32⟩) main_call4.v0 Host.negf,
    TRef.nullary main_call4.call0.cst (constant S_ .f32 0x00000000#32),
    TRef.unary main_call4.call0.cst main_call4.call0.v0 (broadcastInDim S128x1 ![] bcast_S_S128x1),
    TRef.binary main_call4.v0 main_call4.call0.v0 main_call4.call0.v1 maximumf,
    TRef.unary main_call4.call0.cst main_call4.call0.v2 (broadcastInDim S128x1 ![] bcast_S_S128x1),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S128x1 ![] bcast_S_S128x1),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    unary main_v65 main_v66 (Host.negf : (⟨S128x1, .f32⟩ : BufTy).Contents (Elt F) → (⟨S128x1, .f32⟩ : BufTy).Contents (Elt F)) ]

set_option maxRecDepth 8192 in
set_option maxHeartbeats 1600000 in
/-- @main is that straight line: its two windows and the functions' definitions unfolded at their calls, both sides
    are one chain of host steps once sequencing is reassociated. -/
theorem main_eq (c : Dev nD) : main (F := F) c = seq ops := by
  simp only [main, main_part0, main_part1, fn_relu.body, fn_relu_0.body, fn_softplus.body, fn_log_sigmoid.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub ..⟩

/-! ## The whole line -/

/-- The second layer's output after the first five stretches: each stretch's result read at the next one's operands,
    the arguments carried through the stretches that do not write them. -/
theorem w04_v46 (V : Valuation τ sig (Elt F)) :
    after w4 (after w3 (after w2 (after w1 (after w0 V)))) (Proc.devRef .tc main_v46)
      = RTerm.h2 (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp (disch := decide) only [w4_v46, w3_v33, w2_v27, w1_v14, w0_v8, w4_keep, w3_keep, w2_keep, w1_keep, w0_keep]
  rfl

/-- A buffer the first five stretches do not write keeps its contents through them. -/
theorem w04_keep (V : Valuation τ sig (Elt F)) (r : Ref sig .tc) (h0 : r ∉ w0_W) (h1 : r ∉ w1_W) (h2 : r ∉ w2_W)
    (h3 : r ∉ w3_W) (h4 : r ∉ w4_W) :
    after w4 (after w3 (after w2 (after w1 (after w0 V)))) (Proc.devRef .tc r) = V (Proc.devRef .tc r) := by
  rw [w4_keep _ r h4, w3_keep _ r h3, w2_keep _ r h2, w1_keep _ r h1, w0_keep _ r h0]

/-- The line is its eight stretches one after the other. -/
theorem after_ops (V : Valuation τ sig (Elt F)) :
    after ops V = after w7 (after w6 (after w5 (after w4 (after w3 (after w2 (after w1 (after w0 V))))))) := rfl

/-- The result buffer after the line is the reference's term of the arguments: the head's stretches read the joined
    per-graph sums, those the second layer's output, and the composed term is `RTerm.out` by unfolding its stages. -/
theorem out_eq (V : Valuation τ sig (Elt F)) :
    after ops V (Proc.devRef .tc main_v66)
      = RTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]
  simp (disch := decide) only [w7_v66, w6_v64, w5_v50, w7_keep, w6_keep, w5_keep, w4_keep, w3_keep, w2_keep, w1_keep,
    w0_keep]
  rw [w04_v46, w04_keep V main_arg4 (by decide) (by decide) (by decide) (by decide) (by decide),
    w04_keep V main_arg1 (by decide) (by decide) (by decide) (by decide) (by decide)]
  rfl

/-- A buffer no stretch writes keeps its contents through the line. -/
theorem ops_keep (V : Valuation τ sig (Elt F)) (r : Ref sig .tc) (h0 : r ∉ w0_W) (h1 : r ∉ w1_W) (h2 : r ∉ w2_W)
    (h3 : r ∉ w3_W) (h4 : r ∉ w4_W) (h5 : r ∉ w5_W) (h6 : r ∉ w6_W) (h7 : r ∉ w7_W) :
    after ops V (Proc.devRef .tc r) = V (Proc.devRef .tc r) := by
  rw [after_ops, w7_keep _ r h7, w6_keep _ r h6, w5_keep _ r h5, w04_keep V r h0 h1 h2 h3 h4]

/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = RTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v66).trans (out_eq (launchContents m c)),
      (h c main_arg0).trans (ops_keep (launchContents m c) main_arg0 (by decide) (by decide) (by decide) (by decide) (by decide) (by decide) (by decide) (by decide)),
      (h c main_arg1).trans (ops_keep (launchContents m c) main_arg1 (by decide) (by decide) (by decide) (by decide) (by decide) (by decide) (by decide) (by decide)),
      (h c main_arg2).trans (ops_keep (launchContents m c) main_arg2 (by decide) (by decide) (by decide) (by decide) (by decide) (by decide) (by decide) (by decide)),
      (h c main_arg3).trans (ops_keep (launchContents m c) main_arg3 (by decide) (by decide) (by decide) (by decide) (by decide) (by decide) (by decide) (by decide)),
      (h c main_arg4).trans (ops_keep (launchContents m c) main_arg4 (by decide) (by decide) (by decide) (by decide) (by decide) (by decide) (by decide) (by decide)),
      (h c main_arg5).trans (ops_keep (launchContents m c) main_arg5 (by decide) (by decide) (by decide) (by decide) (by decide) (by decide) (by decide) (by decide)),
      (h c main_arg6).trans (ops_keep (launchContents m c) main_arg6 (by decide) (by decide) (by decide) (by decide) (by decide) (by decide) (by decide) (by decide)),
      (h c main_arg7).trans (ops_keep (launchContents m c) main_arg7 (by decide) (by decide) (by decide) (by decide) (by decide) (by decide) (by decide) (by decide)),
      (h c main_arg8).trans (ops_keep (launchContents m c) main_arg8 (by decide) (by decide) (by decide) (by decide) (by decide) (by decide) (by decide) (by decide)),
      (h c main_arg9).trans (ops_keep (launchContents m c) main_arg9 (by decide) (by decide) (by decide) (by decide) (by decide) (by decide) (by decide) (by decide)),
      (h c main_arg10).trans (ops_keep (launchContents m c) main_arg10 (by decide) (by decide) (by decide) (by decide) (by decide) (by decide) (by decide) (by decide)),
      (h c main_arg11).trans (ops_keep (launchContents m c) main_arg11 (by decide) (by decide) (by decide) (by decide) (by decide) (by decide) (by decide) (by decide)),
      (h c main_arg12).trans (ops_keep (launchContents m c) main_arg12 (by decide) (by decide) (by decide) (by decide) (by decide) (by decide) (by decide) (by decide)),
      (h c main_arg13).trans (ops_keep (launchContents m c) main_arg13 (by decide) (by decide) (by decide) (by decide) (by decide) (by decide) (by decide) (by decide)),
      (h c main_arg14).trans (ops_keep (launchContents m c) main_arg14 (by decide) (by decide) (by decide) (by decide) (by decide) (by decide) (by decide) (by decide)),
      (h c main_arg15).trans (ops_keep (launchContents m c) main_arg15 (by decide) (by decide) (by decide) (by decide) (by decide) (by decide) (by decide) (by decide)),
      (h c main_arg16).trans (ops_keep (launchContents m c) main_arg16 (by decide) (by decide) (by decide) (by decide) (by decide) (by decide) (by decide) (by decide))⟩)
    (run_seq scopedRefs_eq scopedSems_eq defs main (fun _ => ops) main_eq (fun _ => ops_sub) m ρ)

end Cert.ReferenceIdeal.Value

end
-- ==== Proof.RLayer.lean ====
/-
  The reference's graph layer read index by index over the extended reals: its two products with the weights are sums
  over the input features, the reciprocal degree is multiplied into the neighbour sum first, then the bias, then
  `max · 0` — the layer of the specification.
-/
import proofs.«418824_j4922032521409_2_alg».proof.Proof.Gen.ReferenceIdeal
import proofs.«418824_j4922032521409_2_alg».proof.Proof.RTerm
import proofs.«418824_j4922032521409_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.Stage

open Cert.ReferenceIdeal Cert.ReferenceIdeal.Gen Idealize.ShloMosaic Idealize.ShloMosaic.ValueIdx

/-! The per-index readings the two layers are put together from, in a namespace of their own. -/
namespace Layer

/-! ## What both layers share: the bias row and the zero splat at an index -/

/-- The bias as one row, stretched down the rows, reads the bias at the feature. -/
theorem bcast_bias_apply (b : FVec Ideal S128 .f32) (r : Fin 100000) (f : Fin 128) :
    broadcastInDim S100000x128 ![0, 1] bcast_S1x128_S100000x128_0_1 (broadcastInDim S1x128 ![1] bcast_S128_S1x128_1 b) (ix2 r f)
      = b (ix1 f) := by
  have e1 := broadcastInDim_apply ![0, 1] bcast_S1x128_S100000x128_0_1 (broadcastInDim S1x128 ![1] bcast_S128_S1x128_1 b)
    (ix2 r f) (ix2 (0 : Fin 1) f) (by
      intro a
      match a with
      | ⟨0, _⟩ => rfl
      | ⟨1, _⟩ => rfl)
  have e2 := broadcastInDim_apply ![1] bcast_S128_S1x128_1 b (ix2 (0 : Fin 1) f) (ix1 f) (by
      intro a
      match a with
      | ⟨0, _⟩ => rfl)
  exact e1.trans e2

/-- The zero word splat over the output reads 0. -/
theorem zeros_apply (i : S100000x128.Idx) :
    broadcastInDim S100000x128 ![] bcast_S_S100000x128 (constant (F := Ideal) S_ .f32 0x00000000#32) i = (0 : EReal) := by
  rw [broadcastInDim_scalar_apply, constant_apply, Ideal.ofBits_zero_f32]

/-! ## The layer over 44 input features -/

/-- The left operand's row coordinate is the output's row. -/
theorem lhs44_0 (j : S100000x128.Idx) (k : dot_S100000x44_S44x128_S100000x128_1_0_0_1_n_n.contr.Idx) :
    (dot_S100000x44_S44x128_S100000x128_1_0_0_1_n_n.lhsIdx j k 0).val = (j 0).val := by
  unfold DotDims.lhsIdx
  rw [dif_neg (show ¬(0 : Fin S100000x44.rank) ∈ dot_S100000x44_S44x128_S100000x128_1_0_0_1_n_n.lhsBatch by decide),
    dif_pos (show (0 : Fin S100000x44.rank) ∈ dot_S100000x44_S44x128_S100000x128_1_0_0_1_n_n.lhsNonContracting by decide)]
  rfl

/-- The left operand's column coordinate is the contracted position. -/
theorem lhs44_1 (j : S100000x128.Idx) (k : dot_S100000x44_S44x128_S100000x128_1_0_0_1_n_n.contr.Idx) :
    (dot_S100000x44_S44x128_S100000x128_1_0_0_1_n_n.lhsIdx j k 1).val = (k ⟨0, by decide⟩).val :=
  dot_S100000x44_S44x128_S100000x128_1_0_0_1_n_n.lhsIdx_val_of_single rfl j k

/-- The right operand's row coordinate is the contracted position. -/
theorem rhs44_0 (j : S100000x128.Idx) (k : dot_S100000x44_S44x128_S100000x128_1_0_0_1_n_n.contr.Idx) :
    (dot_S100000x44_S44x128_S100000x128_1_0_0_1_n_n.rhsIdx j k 0).val = (k ⟨0, by decide⟩).val :=
  dot_S100000x44_S44x128_S100000x128_1_0_0_1_n_n.rhsIdx_val_of_single rfl j k

/-- The right operand's column coordinate is the output's feature. -/
theorem rhs44_1 (j : S100000x128.Idx) (k : dot_S100000x44_S44x128_S100000x128_1_0_0_1_n_n.contr.Idx) :
    (dot_S100000x44_S44x128_S100000x128_1_0_0_1_n_n.rhsIdx j k 1).val = (j 1).val := by
  unfold DotDims.rhsIdx
  rw [dif_neg (show ¬(1 : Fin S44x128.rank) ∈ dot_S100000x44_S44x128_S100000x128_1_0_0_1_n_n.rhsBatch by decide),
    dif_pos (show (1 : Fin S44x128.rank) ∈ dot_S100000x44_S44x128_S100000x128_1_0_0_1_n_n.rhsNonContracting by decide)]
  rfl

/-- The product with the weights at (r, f): the sum over the 44 input features. -/
theorem dot44_apply (A : FVec Ideal S100000x44 .f32) (W : FVec Ideal S44x128 .f32) (r : Fin 100000) (f : Fin 128) :
    Host.dotGeneral (F := Ideal) dot_S100000x44_S44x128_S100000x128_1_0_0_1_n_n none A W (ix2 r f)
      = ∑ k : Fin 44, A (ix2 r k) * W (ix2 k f) := by
  simp only [Host.dotGeneral]
  rw [Ideal.dotGeneral_apply,
    ← Equiv.sum_comp (contrEquiv1 dot_S100000x44_S44x128_S100000x128_1_0_0_1_n_n 44 rfl rfl).symm]
  refine Finset.sum_congr rfl fun c _ => ?_
  have hk := contrEquiv1_symm_val dot_S100000x44_S44x128_S100000x128_1_0_0_1_n_n 44 rfl rfl c
  have hl : dot_S100000x44_S44x128_S100000x128_1_0_0_1_n_n.lhsIdx (ix2 r f)
      ((contrEquiv1 dot_S100000x44_S44x128_S100000x128_1_0_0_1_n_n 44 rfl rfl).symm c) = ix2 r c := by
    funext a; apply Fin.ext
    match a with
    | ⟨0, _⟩ => exact lhs44_0 _ _
    | ⟨1, _⟩ => exact (lhs44_1 _ _).trans hk
  have hr : dot_S100000x44_S44x128_S100000x128_1_0_0_1_n_n.rhsIdx (ix2 r f)
      ((contrEquiv1 dot_S100000x44_S44x128_S100000x128_1_0_0_1_n_n 44 rfl rfl).symm c) = ix2 c f := by
    funext a; apply Fin.ext
    match a with
    | ⟨0, _⟩ => exact (rhs44_0 _ _).trans hk
    | ⟨1, _⟩ => exact rhs44_1 _ _
  rw [hl, hr]

/-- The reciprocal degree's column stretched over the 44 features reads the column at the row. -/
theorem bcast_col44_apply (iv : FVec Ideal S100000x1 .f32) (r : Fin 100000) (k : Fin 44) :
    broadcastInDim S100000x44 ![0, 1] bcast_S100000x1_S100000x44_0_1 iv (ix2 r k) = iv (ix2 r (0 : Fin 1)) := by
  refine broadcastInDim_apply ![0, 1] bcast_S100000x1_S100000x44_0_1 iv (ix2 r k) (ix2 r (0 : Fin 1)) ?_
  intro a
  match a with
  | ⟨0, _⟩ => rfl
  | ⟨1, _⟩ => rfl

/-! ## The layer over 128 input features -/

/-- The left operand's row coordinate is the output's row. -/
theorem lhs128_0 (j : S100000x128.Idx) (k : dot_S100000x128_S128x128_S100000x128_1_0_0_1_n_n.contr.Idx) :
    (dot_S100000x128_S128x128_S100000x128_1_0_0_1_n_n.lhsIdx j k 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The left operand's column coordinate is the contracted position. -/
theorem lhs128_1 (j : S100000x128.Idx) (k : dot_S100000x128_S128x128_S100000x128_1_0_0_1_n_n.contr.Idx) :
    (dot_S100000x128_S128x128_S100000x128_1_0_0_1_n_n.lhsIdx j k 1).val = (k ⟨0, by decide⟩).val :=
  dot_S100000x128_S128x128_S100000x128_1_0_0_1_n_n.lhsIdx_val_of_single rfl j k

/-- The right operand's row coordinate is the contracted position. -/
theorem rhs128_0 (j : S100000x128.Idx) (k : dot_S100000x128_S128x128_S100000x128_1_0_0_1_n_n.contr.Idx) :
    (dot_S100000x128_S128x128_S100000x128_1_0_0_1_n_n.rhsIdx j k 0).val = (k ⟨0, by decide⟩).val :=
  dot_S100000x128_S128x128_S100000x128_1_0_0_1_n_n.rhsIdx_val_of_single rfl j k

/-- The right operand's column coordinate is the output's feature. -/
theorem rhs128_1 (j : S100000x128.Idx) (k : dot_S100000x128_S128x128_S100000x128_1_0_0_1_n_n.contr.Idx) :
    (dot_S100000x128_S128x128_S100000x128_1_0_0_1_n_n.rhsIdx j k 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The product with the weights at (r, f): the sum over the 128 input features. -/
theorem dot128_apply (A : FVec Ideal S100000x128 .f32) (W : FVec Ideal S128x128 .f32) (r : Fin 100000) (f : Fin 128) :
    Host.dotGeneral (F := Ideal) dot_S100000x128_S128x128_S100000x128_1_0_0_1_n_n none A W (ix2 r f)
      = ∑ k : Fin 128, A (ix2 r k) * W (ix2 k f) := by
  simp only [Host.dotGeneral]
  rw [Ideal.dotGeneral_apply,
    ← Equiv.sum_comp (contrEquiv1 dot_S100000x128_S128x128_S100000x128_1_0_0_1_n_n 128 rfl rfl).symm]
  refine Finset.sum_congr rfl fun c _ => ?_
  have hk := contrEquiv1_symm_val dot_S100000x128_S128x128_S100000x128_1_0_0_1_n_n 128 rfl rfl c
  have hl : dot_S100000x128_S128x128_S100000x128_1_0_0_1_n_n.lhsIdx (ix2 r f)
      ((contrEquiv1 dot_S100000x128_S128x128_S100000x128_1_0_0_1_n_n 128 rfl rfl).symm c) = ix2 r c := by
    funext a; apply Fin.ext
    match a with
    | ⟨0, _⟩ => exact lhs128_0 _ _
    | ⟨1, _⟩ => exact (lhs128_1 _ _).trans hk
  have hr : dot_S100000x128_S128x128_S100000x128_1_0_0_1_n_n.rhsIdx (ix2 r f)
      ((contrEquiv1 dot_S100000x128_S128x128_S100000x128_1_0_0_1_n_n 128 rfl rfl).symm c) = ix2 c f := by
    funext a; apply Fin.ext
    match a with
    | ⟨0, _⟩ => exact (rhs128_0 _ _).trans hk
    | ⟨1, _⟩ => exact rhs128_1 _ _
  rw [hl, hr]

/-- The reciprocal degree's column stretched over the 128 features reads the column at the row. -/
theorem bcast_col128_apply (iv : FVec Ideal S100000x1 .f32) (r : Fin 100000) (k : Fin 128) :
    broadcastInDim S100000x128 ![0, 1] bcast_S100000x1_S100000x128_0_1 iv (ix2 r k) = iv (ix2 r (0 : Fin 1)) := by
  refine broadcastInDim_apply ![0, 1] bcast_S100000x1_S100000x128_0_1 iv (ix2 r k) (ix2 r (0 : Fin 1)) ?_
  intro a
  match a with
  | ⟨0, _⟩ => rfl
  | ⟨1, _⟩ => rfl

end Layer

open Layer

/-! ## The two layers -/

/-- The reference's layer over 44 input features is the layer of the specification. -/
theorem layer44_eq (h agg : FVec Ideal S100000x44 .f32) (iv : FVec Ideal S100000x1 .f32) (Ws Wn : FVec Ideal S44x128 .f32)
    (b : FVec Ideal S128 .f32) : RTerm.layer44 (F := Ideal) h agg iv Ws Wn b = Spec.sage h agg iv Ws Wn b := by
  funext i
  obtain ⟨r, f, rfl⟩ : ∃ (r : Fin 100000) (f : Fin 128), i = ix2 r f := ⟨i 0, i 1, eq_ix2 i⟩
  rw [Spec.sage_ix2]
  unfold RTerm.layer44 Spec.sageAt
  rw [maximumf_apply, addf_apply, addf_apply, dot44_apply, dot44_apply, bcast_bias_apply, zeros_apply]
  -- the two sides now differ only inside the neighbour sum: the stretched column against the column's entry
  refine congrArg (fun s => max ((_ + s) + _) 0) ?_
  refine Finset.sum_congr rfl fun k _ => ?_
  rw [mulf_apply, bcast_col44_apply]

/-- The reference's layer over 128 input features is the layer of the specification. -/
theorem layer128_eq (h agg : FVec Ideal S100000x128 .f32) (iv : FVec Ideal S100000x1 .f32) (Ws Wn : FVec Ideal S128x128 .f32)
    (b : FVec Ideal S128 .f32) : RTerm.layer128 (F := Ideal) h agg iv Ws Wn b = Spec.sage h agg iv Ws Wn b := by
  funext i
  obtain ⟨r, f, rfl⟩ : ∃ (r : Fin 100000) (f : Fin 128), i = ix2 r f := ⟨i 0, i 1, eq_ix2 i⟩
  rw [Spec.sage_ix2]
  unfold RTerm.layer128 Spec.sageAt
  rw [maximumf_apply, addf_apply, addf_apply, dot128_apply, dot128_apply, bcast_bias_apply, zeros_apply]
  -- the two sides now differ only inside the neighbour sum: the stretched column against the column's entry
  refine congrArg (fun s => max ((_ + s) + _) 0) ?_
  refine Finset.sum_congr rfl fun k _ => ?_
  rw [mulf_apply, bcast_col128_apply]

end Cert.ReferenceIdeal.Stage

end
-- ==== Proof.LibScatterRows.lean ====
/-
  A float scatter-add of ROWS, read at an index, at the ideal values.

  The scatter `operand[idx[b, 0], :] += updates[b, :]` — operand `[N, W]`, scatter indices `[B, 1]`, updates `[B, W]`,
  update window axis `[1]`, inserted window axis `[0]`, scatter-dims-to-operand-dims `[0]`, index vector axis `1` — is what
  `jax.ops.segment_sum` and `x.at[idx].add(v)` of a rank-2 array lower to. Update element `(b, n')` lands on operand
  element `(idx[b, 0], n')` when the index, read signed, is a row of the operand, and is dropped otherwise. So at the
  extended reals element `(c, n)` of the result is the operand's plus the sum over ALL rows `b` of the updates of
  `updates[b, n]` where `idx[b, 0] = c` and of zero elsewhere: a masked sum over the batch, the form a kernel that
  multiplies by a `0/1` mask and contracts the batch axis computes.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

variable {N B W w : Nat}

/-- The dimension numbers of a row scatter over operand `[N, W]`, scatter indices `[B, 1]` and updates `[B, W]`; their
    conditions `wf` are decided on a program's literal shapes. -/
abbrev rowDims (N B W : Nat) (wf : ScatterDims.WF ⟨2, ![N, W]⟩ ⟨2, ![B, 1]⟩ ⟨2, ![B, W]⟩ [1] [0] [0] 1) :
    ScatterDims ⟨2, ![N, W]⟩ ⟨2, ![B, 1]⟩ ⟨2, ![B, W]⟩ where
  updateWindowDims := [1]
  insertedWindowDims := [0]
  scatterDimsToOperandDims := [0]
  indexVectorDim := 1
  wf := wf

variable (wf : ScatterDims.WF ⟨2, ![N, W]⟩ ⟨2, ![B, 1]⟩ ⟨2, ![B, W]⟩ [1] [0] [0] 1)

/-- The scatter-indices index `[b, 0]` that update row `b` reads its start from. -/
abbrev rowIdx (b : Fin B) : (⟨2, ![B, 1]⟩ : Shape).Idx := ix2 b ⟨0, Nat.one_pos⟩

/-- On the row axis the window starts at the scatter index of the update's row, read signed. -/
theorem start_row (j : (⟨2, ![B, W]⟩ : Shape).Idx) (idx : IVec ⟨2, ![B, 1]⟩ w) :
    (rowDims N B W wf).start j idx 0 = (idx (rowIdx (j 0))).toInt := by
  unfold ScatterDims.start
  rw [dif_pos (show (0 : Fin 2) ∈ (rowDims N B W wf).scatterDimsToOperandDims from List.mem_singleton.mpr rfl)]
  have hsi : (rowDims N B W wf).siIdx j ⟨List.idxOf (0 : Fin 2) (rowDims N B W wf).scatterDimsToOperandDims,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

/-- On the column axis, which the index map does not name, the window starts at zero. -/
theorem start_col (j : (⟨2, ![B, W]⟩ : Shape).Idx) (idx : IVec ⟨2, ![B, 1]⟩ w) :
    (rowDims N B W wf).start j idx 1 = 0 := by
  unfold ScatterDims.start
  rw [dif_neg (show ¬ (1 : Fin 2) ∈ ([0] : List (Fin 2)) by decide)]

/-- The row axis is inserted: no window coordinate on it. -/
theorem window_row (j : (⟨2, ![B, W]⟩ : Shape).Idx) : (rowDims N B W wf).window j 0 = 0 := by
  unfold ScatterDims.window
  have h : ¬ (0 : Fin 2) ∈ (rowDims N B W wf).sKept := by
    show ¬ (0 : Fin 2) ∈ (List.finRange 2).filter (· ∉ ([0] : List (Fin 2)))
    decide
  rw [dif_neg h]

/-- The column axis carries the update's column. -/
theorem window_col (j : (⟨2, ![B, W]⟩ : Shape).Idx) : (rowDims N B W wf).window j 1 = (j 1).val := by
  unfold ScatterDims.window
  have h : (1 : Fin 2) ∈ (rowDims N B W wf).sKept := by
    show (1 : Fin 2) ∈ (List.finRange 2).filter (· ∉ ([0] : List (Fin 2)))
    decide
  rw [dif_pos h]
  rfl

/-- WHERE AN UPDATE LANDS: update element `j = (b, n')` lands on operand element `i = (c, n)` exactly when the scatter
    index of row `b`, read signed, is `c` and the columns agree. -/
theorem resultIdx?_eq_some_iff (j : (⟨2, ![B, W]⟩ : Shape).Idx) (idx : IVec ⟨2, ![B, 1]⟩ w) (i : (⟨2, ![N, W]⟩ : Shape).Idx) :
    (rowDims N B W wf).resultIdx? j idx = some i ↔ (idx (rowIdx (j 0))).toInt = ((i 0).val : Int) ∧ (j 1).val = (i 1).val := by
  have hi0 : (i 0).val < N := (i 0).isLt
  have hi1 : (i 1).val < W := (i 1).isLt
  have hj1 : (j 1).val < W := (j 1).isLt
  unfold ScatterDims.resultIdx?
  split
  · rename_i h
    constructor
    · intro he
      have he' := Option.some.inj he
      have h0 := congrArg (fun f => (f 0).val) he'
      have h1 := congrArg (fun f => (f 1).val) he'
      have hb0 := h 0
      have hb1 := h 1
      simp only [start_row, start_col, window_row, window_col] at h0 h1 hb0 hb1
      constructor <;> omega
    · rintro ⟨h0, h1⟩
      congr 1
      funext a
      refine Fin.ext ?_
      match a with
      | ⟨0, _⟩ =>
        show ((rowDims N B W wf).start j idx 0 + ((rowDims N B W wf).window j 0 : Int)).toNat = (i 0).val
        rw [start_row, window_row]; omega
      | ⟨1, _⟩ =>
        show ((rowDims N B W wf).start j idx 1 + ((rowDims N B W wf).window j 1 : Int)).toNat = (i 1).val
        rw [start_col, window_col]; omega
  · rename_i h
    constructor
    · intro he; exact absurd he (by simp)
    · rintro ⟨h0, h1⟩
      exfalso; apply h
      intro a
      match a with
      | ⟨0, _⟩ =>
        show 0 ≤ (rowDims N B W wf).start j idx 0 + ((rowDims N B W wf).window j 0 : Int)
          ∧ (rowDims N B W wf).start j idx 0 + ((rowDims N B W wf).window j 0 : Int) < (N : Int)
        rw [start_row, window_row]; omega
      | ⟨1, _⟩ =>
        show 0 ≤ (rowDims N B W wf).start j idx 1 + ((rowDims N B W wf).window j 1 : Int)
          ∧ (rowDims N B W wf).start j idx 1 + ((rowDims N B W wf).window j 1 : Int) < (W : Int)
        rw [start_col, window_col]; omega

/-- THE SCATTER-ADD OF ROWS READ AT `(c, n)`, at the ideal values: the operand there plus, over every update row `b`,
    the update `(b, n)` where row `b`'s scatter index is `c` and zero where it is not. An index outside `[0, N)` equals
    no `c`, so its row contributes nothing. -/
theorem hostScatterAdd_rows_apply (x : (⟨2, ![N, W]⟩ : Shape).Idx → EReal) (idx : IVec ⟨2, ![B, 1]⟩ w)
    (upd : (⟨2, ![B, W]⟩ : Shape).Idx → EReal) (c : Fin N) (n : Fin W) :
    Ideal.hostScatterAdd (rowDims N B W wf) x idx upd (ix2 c n)
      = x (ix2 c n) + ∑ b : Fin B, if (idx (rowIdx b)).toInt = (c.val : Int) then upd (ix2 b n) else 0 := by
  unfold Ideal.hostScatterAdd
  congr 1
  rw [Finset.sum_filter, sum_idx2]
  refine Finset.sum_congr rfl fun b _ => ?_
  rw [Finset.sum_eq_single n]
  · simp only [resultIdx?_eq_some_iff]
    show (if (idx (rowIdx b)).toInt = (c.val : Int) ∧ n.val = n.val then upd (ix2 b n) else 0) = _
    simp only [and_true]
  · intro n' _ hne
    rw [if_neg]
    rw [resultIdx?_eq_some_iff]
    rintro ⟨_, h1⟩
    exact hne (Fin.ext h1)
  · intro h; exact absurd (Finset.mem_univ n) h

end Idealize.ShloMosaic.ScatterRows

end
-- ==== Proof.RHead.lean ====
/-
  The reference's last two stages read index by index over the extended reals: the per-graph scatter-add of rows into
  zeros is the masked sum over all rows; the head's three dense layers and `-log σ` through `softplus` are the head of
  the specification.
-/
import proofs.«418824_j4922032521409_2_alg».proof.Proof.Gen.ReferenceIdeal
import proofs.«418824_j4922032521409_2_alg».proof.Proof.RTerm
import proofs.«418824_j4922032521409_2_alg».proof.Proof.Spec
import proofs.«418824_j4922032521409_2_alg».proof.Proof.LibScatterRows
import Idealize.ShloMosaic.Lib.ValueIdx
import Idealize.ShloMosaic.Lib.Pipeline.Value
import Idealize.ShloMosaic.PureOps.Ideal.Laws

noncomputable section

open scoped BigOperators

namespace Cert.ReferenceIdeal.Stage

open Cert.ReferenceIdeal Cert.ReferenceIdeal.Gen Idealize.ShloMosaic Idealize.ShloMosaic.ValueIdx

/-! The operations both stages are made of, each read at one index. -/
namespace HeadAt

/-! ## Broadcasts read at an index -/

/-- The splat of the f32 zero word reads `0` everywhere. -/
theorem zeros_apply {s : Shape} (h : S_.BroadcastsInDim s (![] : Fin 0 → Fin s.rank)) (i : s.Idx) :
    broadcastInDim s ![] h (constant (F := Ideal) S_ .f32 0x00000000#32) i = (0 : EReal) := by
  rw [broadcastInDim_apply ![] h _ i ix0 (fun a => a.elim0), constant_apply]
  exact Ideal.ofBits_zero_f32

/-- A vector made one row and then repeated over `M` rows reads, at `(i, j)`, its element `j`. -/
theorem bias_apply {α : Type} {M N : Nat}
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) (i : Fin M) (j : Fin N) :
    broadcastInDim ⟨2, ![M, N]⟩ ![0, 1] h2 (broadcastInDim ⟨2, ![1, N]⟩ ![1] h1 b) (ix2 i j) = b (ix1 j) := by
  have hj := j.isLt
  rw [broadcastInDim_apply ![0, 1] h2 _ (ix2 i j) (ix2 (0 : Fin 1) j) (fun a => by
    match a with
    | ⟨0, _⟩ => rfl
    | ⟨1, _⟩ =>
      show j.val = if N = 1 then 0 else j.val
      split
      · omega
      · rfl)]
  exact broadcastInDim_apply ![1] h1 b (ix2 (0 : Fin 1) j) (ix1 j) (fun a => by
    match a with
    | ⟨0, _⟩ =>
      show j.val = if N = 1 then 0 else j.val
      split
      · omega
      · rfl)

/-- A vector made one column reads, at `(r, 0)`, its element `r`. -/
theorem column_apply {α : Type} {B : Nat}
    (h : (⟨1, ![B]⟩ : Shape).BroadcastsInDim ⟨2, ![B, 1]⟩ (![0] : Fin 1 → Fin 2))
    (v : (⟨1, ![B]⟩ : Shape).Idx → α) (r : Fin B) :
    broadcastInDim ⟨2, ![B, 1]⟩ ![0] h v (ScatterRows.rowIdx r) = v (ix1 r) :=
  broadcastInDim_apply ![0] h v (ScatterRows.rowIdx r) (ix1 r) (fun a => by
    match a with
    | ⟨0, _⟩ =>
      show r.val = if B = 1 then 0 else r.val
      split
      · have := r.isLt; omega
      · rfl)

/-! ## A plain product read at an index -/

/-- The dimension numbers of a plain product `[M, K] × [K, N]`: the left operand's columns contracted with the right
    operand's rows; their conditions `wf` are decided on a program's literal shapes. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Plain
variable {M K N : Nat} (wf : DotDims.WF ⟨2, ![M, K]⟩ ⟨2, ![K, N]⟩ ⟨2, ![M, N]⟩ [1] [0] [0] [1] [] [])

/-- The left operand's row is the result's row. -/
theorem plain_lhs_0 (j : (⟨2, ![M, N]⟩ : Shape).Idx) (k : (plainDims M K N wf).contr.Idx) :
    ((plainDims M K N wf).lhsIdx j k 0).val = (j 0).val := rfl
/-- The left operand's column is the contraction position. -/
theorem plain_lhs_1 (j : (⟨2, ![M, N]⟩ : Shape).Idx) (k : (plainDims M K N wf).contr.Idx) :
    ((plainDims M K N wf).lhsIdx j k 1).val = (k ⟨0, Nat.one_pos⟩).val := rfl
/-- The right operand's row is the contraction position. -/
theorem plain_rhs_0 (j : (⟨2, ![M, N]⟩ : Shape).Idx) (k : (plainDims M K N wf).contr.Idx) :
    ((plainDims M K N wf).rhsIdx j k 0).val = (k ⟨0, Nat.one_pos⟩).val := rfl
/-- The right operand's column is the result's column. -/
theorem plain_rhs_1 (j : (⟨2, ![M, N]⟩ : Shape).Idx) (k : (plainDims M K N wf).contr.Idx) :
    ((plainDims M K N wf).rhsIdx j k 1).val = (j 1).val := rfl

/-- The product at `(i, j)` over the extended reals: the sum over the contracted axis of the operands' products. -/
theorem dot_plain_apply (x : Spec.Mat M K) (W : Spec.Mat K N) (i : Fin M) (j : Fin N) :
    FloatOps.dotGeneral (F := Ideal) (φ₁ := .f32) (φ₂ := .f32) (plainDims M K N wf) none .single x W (ix2 i j)
      = ∑ k : Fin K, x (ix2 i k) * W (ix2 k j) := by
  rw [Ideal.dotGeneral_apply]
  rw [← Equiv.sum_comp (contrEquiv1 (plainDims M K N wf) K rfl rfl).symm]
  refine Finset.sum_congr rfl fun k _ => ?_
  have hk := contrEquiv1_symm_val (plainDims M K N wf) K rfl rfl k
  have hl : (plainDims M K N wf).lhsIdx (ix2 i j) ((contrEquiv1 (plainDims M K N wf) K rfl rfl).symm k) = ix2 i k := by
    funext a; refine Fin.ext ?_
    match a with
    | ⟨0, _⟩ => exact plain_lhs_0 wf _ _
    | ⟨1, _⟩ => exact (plain_lhs_1 wf _ _).trans hk
  have hr : (plainDims M K N wf).rhsIdx (ix2 i j) ((contrEquiv1 (plainDims M K N wf) K rfl rfl).symm k) = ix2 k j := by
    funext a; refine Fin.ext ?_
    match a with
    | ⟨0, _⟩ => exact (plain_rhs_0 wf _ _).trans hk
    | ⟨1, _⟩ => exact plain_rhs_1 wf _ _
  rw [hl, hr]

/-- A dense layer of the reference — the product plus the bias repeated over the rows — at `(i, j)`. -/
theorem dense_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : Spec.Mat M K) (W : Spec.Mat K N) (b : Spec.Row N) (i : Fin M) (j : Fin N) :
    addf (F := Ideal) (φ := .f32)
        (FloatOps.dotGeneral (F := Ideal) (φ₁ := .f32) (φ₂ := .f32) (plainDims M K N wf) none .single x W)
        (broadcastInDim ⟨2, ![M, N]⟩ ![0, 1] h2 (broadcastInDim ⟨2, ![1, N]⟩ ![1] h1 b)) (ix2 i j)
      = Spec.denseAt x W b i j := by
  rw [addf_apply, dot_plain_apply, bias_apply]
  rfl

/-- The layer followed by `max · 0` is the specification's. -/
theorem denseRelu_eq (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz : S_.BroadcastsInDim ⟨2, ![M, N]⟩ (![] : Fin 0 → Fin 2))
    (x : Spec.Mat M K) (W : Spec.Mat K N) (b : Spec.Row N) :
    maximumf (F := Ideal) (φ := .f32)
        (addf (F := Ideal) (φ := .f32)
          (FloatOps.dotGeneral (F := Ideal) (φ₁ := .f32) (φ₂ := .f32) (plainDims M K N wf) none .single x W)
          (broadcastInDim ⟨2, ![M, N]⟩ ![0, 1] h2 (broadcastInDim ⟨2, ![1, N]⟩ ![1] h1 b)))
        (broadcastInDim ⟨2, ![M, N]⟩ ![] hz (constant S_ .f32 0x00000000#32))
      = Spec.denseRelu x W b := by
  funext q
  obtain ⟨i, j, rfl⟩ : ∃ (i : Fin M) (j : Fin N), q = ix2 i j := ⟨q 0, q 1, eq_ix2 q⟩
  rw [Spec.denseRelu_ix2, maximumf_apply, zeros_apply, dense_apply]

end Plain

/-! ## The scalar tail of the head -/

/-- The host's negation at an index is the negation of the element. -/
theorem hostNegf_apply {s : Shape} (a : FVec Ideal s .f32) (i : s.Idx) : Host.negf a i = -(a i) := rfl

/-- `softplus` as the reference spells it, at an index: the guard compares a value with itself and never fires. -/
theorem softplus_apply (a : FVec Ideal S128x1 .f32) (q : S128x1.Idx) :
    RTerm.softplus (F := Ideal) a q = max (a q) 0 + Ideal.log1p (Ideal.exp (-(max (a q) (-(a q))))) := by
  unfold RTerm.softplus
  rw [select_apply, cmpf_apply, Ideal.cmpf_def]
  have hc : Ideal.cmp .une (subf a (broadcastInDim S128x1 ![] Facts₀.bcast_S_S128x1 (constant S_ .f32 0x00000000#32)) q)
      (subf a (broadcastInDim S128x1 ![] Facts₀.bcast_S_S128x1 (constant S_ .f32 0x00000000#32)) q) = 0#1 := by
    unfold Ideal.cmp
    simp
  rw [hc, select_zero, addf_apply, maximumf_apply, zeros_apply]
  show _ + Ideal.log1p (Ideal.exp (-(max (subf a _ q) (-(subf a _ q))))) = _
  rw [subf_apply, zeros_apply, sub_zero]

end HeadAt

open HeadAt

/-! ## The per-graph sum -/

/-- The reference's per-graph scatter-add into zeros is the readout of the specification. -/
theorem gnn_eq (gid : IVec S100000 32) (h : FVec Ideal S100000x128 .f32) : RTerm.gnn (F := Ideal) gid h = Spec.readout gid h := by
  funext q
  obtain ⟨g, f, rfl⟩ : ∃ (g : Fin 128) (f : Fin 128), q = ix2 g f := ⟨q 0, q 1, eq_ix2 q⟩
  rw [Spec.readout_ix2]
  unfold RTerm.gnn Spec.readoutAt
  show Ideal.hostScatterAdd
    (ScatterRows.rowDims 128 100000 128 Facts₀.scatter_S128x128_S100000x1_S100000x128_1_0_0_1_wf) _ _ _ (ix2 g f) = _
  rw [ScatterRows.hostScatterAdd_rows_apply, zeros_apply, zero_add]
  refine Finset.sum_congr rfl fun r _ => ?_
  rw [column_apply]

/-! ## The head -/

/-- The reference's head is the head of the specification. -/
theorem head_eq (xall : FVec Ideal S128x132 .f32) (fc1W : FVec Ideal S132x512 .f32) (fc1b : FVec Ideal S512 .f32)
    (fc2W : FVec Ideal S512x512 .f32) (fc2b : FVec Ideal S512 .f32) (pW : FVec Ideal S512x1 .f32) (pb : FVec Ideal S1 .f32) :
    RTerm.headR (F := Ideal) xall fc1W fc1b fc2W fc2b pW pb = Spec.head xall fc1W fc1b fc2W fc2b pW pb := by
  funext q
  obtain ⟨g, u, rfl⟩ : ∃ (g : Fin 128) (u : Fin 1), q = ix2 g u := ⟨q 0, q 1, eq_ix2 q⟩
  obtain rfl : u = 0 := Subsingleton.elim _ _
  rw [Spec.head_ix2]
  unfold RTerm.headR Spec.headAt Spec.nls
  have e1 : maximumf (F := Ideal)
      (addf (Host.dotGeneral dot_S128x132_S132x512_S128x512_1_0_0_1_n_n none xall fc1W)
        (broadcastInDim S128x512 ![0, 1] Facts₀.bcast_S1x512_S128x512_0_1 (broadcastInDim S1x512 ![1] Facts₀.bcast_S512_S1x512_1 fc1b)))
      (broadcastInDim S128x512 ![] Facts₀.bcast_S_S128x512 (constant S_ .f32 0x00000000#32))
      = Spec.denseRelu xall fc1W fc1b :=
    denseRelu_eq Facts₀.dot_S128x132_S132x512_S128x512_1_0_0_1_n_n_wf _ _ _ xall fc1W fc1b
  rw [e1]
  have e2 : maximumf (F := Ideal)
      (addf (Host.dotGeneral dot_S128x512_S512x512_S128x512_1_0_0_1_n_n none (Spec.denseRelu xall fc1W fc1b) fc2W)
        (broadcastInDim S128x512 ![0, 1] Facts₀.bcast_S1x512_S128x512_0_1 (broadcastInDim S1x512 ![1] Facts₀.bcast_S512_S1x512_1 fc2b)))
      (broadcastInDim S128x512 ![] Facts₀.bcast_S_S128x512 (constant S_ .f32 0x00000000#32))
      = Spec.denseRelu (Spec.denseRelu xall fc1W fc1b) fc2W fc2b :=
    denseRelu_eq Facts₀.dot_S128x512_S512x512_S128x512_1_0_0_1_n_n_wf _ _ _ (Spec.denseRelu xall fc1W fc1b) fc2W fc2b
  rw [e2]
  have e3 : addf (F := Ideal)
      (Host.dotGeneral dot_S128x512_S512x1_S128x1_1_0_0_1_n_n none (Spec.denseRelu (Spec.denseRelu xall fc1W fc1b) fc2W fc2b) pW)
      (broadcastInDim S128x1 ![0, 1] Facts₀.bcast_S1x1_S128x1_0_1 (broadcastInDim S1x1 ![1] Facts₀.bcast_S1_S1x1_1 pb)) (ix2 g (0 : Fin 1))
      = Spec.denseAt (Spec.denseRelu (Spec.denseRelu xall fc1W fc1b) fc2W fc2b) pW pb g (0 : Fin 1) :=
    dense_apply Facts₀.dot_S128x512_S512x1_S128x1_1_0_0_1_n_n_wf _ _ (Spec.denseRelu (Spec.denseRelu xall fc1W fc1b) fc2W fc2b) pW pb g 0
  rw [hostNegf_apply, hostNegf_apply, softplus_apply, hostNegf_apply, e3, neg_neg (Spec.denseAt _ _ _ _ _)]

end Cert.ReferenceIdeal.Stage

end
-- ==== Proof.Bridge.lean ====
/-
  The reference's term is the kernel's function.  Stage by stage the reference's host operations are the
  specification's functions (a graph layer, the per-graph sum, the head), and the irregular stages in between — the
  reciprocal degree, the wrapped source ids, the two neighbour sums — are literally the same host operations in both
  programs.
-/
import proofs.«418824_j4922032521409_2_alg».proof.Proof.Gen.KernelIdeal
import proofs.«418824_j4922032521409_2_alg».proof.Proof.Gen.ReferenceIdeal
import proofs.«418824_j4922032521409_2_alg».proof.Proof.Chain
import proofs.«418824_j4922032521409_2_alg».proof.Proof.RTerm
import proofs.«418824_j4922032521409_2_alg».proof.Proof.RLayer
import proofs.«418824_j4922032521409_2_alg».proof.Proof.RHead

noncomputable section

namespace Cert.Bridge

open Idealize.ShloMosaic
open Cert.ReferenceIdeal (RTerm.inv RTerm.srcIdx RTerm.agg44 RTerm.agg128 RTerm.h1 RTerm.h2 RTerm.xall RTerm.out)
open Cert.KernelIdeal (Chain.inv Chain.srcIdx Chain.agg44 Chain.agg128 Chain.h1 Chain.h2 Chain.xall Chain.out)

abbrev R (s : Shape) : Type := s.Idx → EReal

attribute [local irreducible] Host.gather Host.scatterAdd in
/-- The reciprocal degree is the same host operations in both programs. -/
theorem inv_eq (dst : IVec ⟨1, ![1600000]⟩ 32) : RTerm.inv (F := Ideal) dst = Chain.inv dst := rfl

attribute [local irreducible] Host.gather Host.scatterAdd in
/-- The neighbour sum over 44 features likewise. -/
theorem agg44_eq (x : R ⟨2, ![100000, 44]⟩) (src dst : IVec ⟨1, ![1600000]⟩ 32) :
    RTerm.agg44 (F := Ideal) x src dst = Chain.agg44 x src dst := rfl

attribute [local irreducible] Host.gather Host.scatterAdd in
/-- The neighbour sum over 128 features likewise. -/
theorem agg128_eq (h : R ⟨2, ![100000, 128]⟩) (src dst : IVec ⟨1, ![1600000]⟩ 32) :
    RTerm.agg128 (F := Ideal) h src dst = Chain.agg128 h src dst := rfl

/-- The first layer. -/
theorem h1_eq (x : R ⟨2, ![100000, 44]⟩) (src dst : IVec ⟨1, ![1600000]⟩ 32) (W1s W1n : R ⟨2, ![44, 128]⟩) (b1 : R ⟨1, ![128]⟩) :
    RTerm.h1 (F := Ideal) x src dst W1s W1n b1 = Chain.h1 x src dst W1s W1n b1 := by
  unfold RTerm.h1 Chain.h1
  rw [Cert.ReferenceIdeal.Stage.layer44_eq, inv_eq, agg44_eq]

/-- The second layer. -/
theorem h2_eq (x : R ⟨2, ![100000, 44]⟩) (src dst : IVec ⟨1, ![1600000]⟩ 32) (W1s W1n : R ⟨2, ![44, 128]⟩) (b1 : R ⟨1, ![128]⟩)
    (W2s W2n : R ⟨2, ![128, 128]⟩) (b2 : R ⟨1, ![128]⟩) :
    RTerm.h2 (F := Ideal) x src dst W1s W1n b1 W2s W2n b2 = Chain.h2 x src dst W1s W1n b1 W2s W2n b2 := by
  unfold RTerm.h2 Chain.h2
  rw [Cert.ReferenceIdeal.Stage.layer128_eq, inv_eq, h1_eq, agg128_eq]

/-- The head's input. -/
theorem xall_eq (x : R ⟨2, ![100000, 44]⟩) (sf : R ⟨2, ![128, 4]⟩) (src dst : IVec ⟨1, ![1600000]⟩ 32) (gid : IVec ⟨1, ![100000]⟩ 32)
    (W1s W1n : R ⟨2, ![44, 128]⟩) (b1 : R ⟨1, ![128]⟩) (W2s W2n : R ⟨2, ![128, 128]⟩) (b2 : R ⟨1, ![128]⟩) :
    RTerm.xall (F := Ideal) x sf src dst gid W1s W1n b1 W2s W2n b2 = Chain.xall x sf src dst gid W1s W1n b1 W2s W2n b2 := by
  unfold RTerm.xall Chain.xall
  rw [Cert.ReferenceIdeal.Stage.gnn_eq, h2_eq]

/-- The whole computation. -/
theorem out_eq (x : R ⟨2, ![100000, 44]⟩) (sf : R ⟨2, ![128, 4]⟩) (src dst : IVec ⟨1, ![1600000]⟩ 32) (gid : IVec ⟨1, ![100000]⟩ 32)
    (W1s W1n : R ⟨2, ![44, 128]⟩) (b1 : R ⟨1, ![128]⟩) (W2s W2n : R ⟨2, ![128, 128]⟩) (b2 : R ⟨1, ![128]⟩)
    (fc1W : R ⟨2, ![132, 512]⟩) (fc1b : R ⟨1, ![512]⟩) (fc2W : R ⟨2, ![512, 512]⟩) (fc2b : R ⟨1, ![512]⟩)
    (pW : R ⟨2, ![512, 1]⟩) (pb : R ⟨1, ![1]⟩) :
    RTerm.out (F := Ideal) x sf src dst gid W1s W1n b1 W2s W2n b2 fc1W fc1b fc2W fc2b pW pb
      = Chain.out x sf src dst gid W1s W1n b1 W2s W2n b2 fc1W fc1b fc2W fc2b pW pb := by
  unfold RTerm.out Chain.out
  rw [Cert.ReferenceIdeal.Stage.head_eq, xall_eq]

end Cert.Bridge

end
-- ==== Proof.lean ====
/-
  The certificate's claims.

  The kernel's program — three tiled regions between stretches of host operations — and the reference compute one
  function of the arguments over the extended reals: two graph layers (each a product of the node features and of the
  degree-scaled neighbour sum with its weights, a bias, `max · 0`), the per-graph sum of the rows, and a head of three
  dense layers ending in `-log σ`.  The kernel's side: each region's output array is the specification's function of
  the arrays the region finds (the first layer block of rows by block of rows; the second layer with its readout
  accumulated over the row blocks through a `0/1` mask product, which on the extended reals is the masked sum because
  `0 · x = 0` and `1 · x = x` for every `x`; the head at its one point), and the host stretches between them are the
  neighbour sums and changes of shape.  The reference's side: its run is the composed term of its host operations, read
  stage by stage as the same functions.  A change of float format is the identity on the extended reals, so the
  kernel's 16-bit intermediates do not show.  The frames: the two kernel programs' are the launch over their segments;
  the reference's is its run with the result dropped.  The idealization rewrote nothing, so `preserves` is trivial.
-/
import proofs.«418824_j4922032521409_2_alg».proof.Defs
import proofs.«418824_j4922032521409_2_alg».proof.Proof.Gen.Kernel
import proofs.«418824_j4922032521409_2_alg».proof.Proof.Gen.Kernel.Skeleton
import proofs.«418824_j4922032521409_2_alg».proof.Proof.Gen.Kernel.Launch
import proofs.«418824_j4922032521409_2_alg».proof.Proof.Gen.Kernel.Points
import proofs.«418824_j4922032521409_2_alg».proof.Proof.Gen.Kernel.Frame
import proofs.«418824_j4922032521409_2_alg».proof.Proof.Gen.KernelIdeal
import proofs.«418824_j4922032521409_2_alg».proof.Proof.Gen.KernelIdeal.Skeleton
import proofs.«418824_j4922032521409_2_alg».proof.Proof.Gen.KernelIdeal.Launch
import proofs.«418824_j4922032521409_2_alg».proof.Proof.Gen.KernelIdeal.Points
import proofs.«418824_j4922032521409_2_alg».proof.Proof.Gen.KernelIdeal.Frame
import proofs.«418824_j4922032521409_2_alg».proof.Proof.Gen.ReferenceIdeal
import proofs.«418824_j4922032521409_2_alg».proof.Proof.Gen.Pre_finite_inputs
import proofs.«418824_j4922032521409_2_alg».proof.Proof.KValue
import proofs.«418824_j4922032521409_2_alg».proof.Proof.RRun
import proofs.«418824_j4922032521409_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the one function of the arguments. -/
theorem algebraic : Cert.algebraic_KernelIdeal_ReferenceIdeal := by
  intro m ρ m' ρ' _ hagree
  refine ⟨fun c => Cert.KernelIdeal.Chain.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun _ h c => ⟨(h c).1.trans (Cert.KernelIdeal.Val.W6_v41 m ρ c), (h c).2⟩)
      (Cert.KernelIdeal.Gen.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [h0, h1, h2, h3, h4, h5, h6, h7, h8, h9, h10, h11, h12, h13, h14, h15, h16]
    exact Cert.Bridge.out_eq _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
